-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S40000 : Shape := ⟨1, ![40000]⟩
abbrev S4096 : Shape := ⟨1, ![4096]⟩
abbrev S4096x40000 : Shape := ⟨2, ![4096, 40000]⟩
abbrev S1024 : Shape := ⟨1, ![1024]⟩
abbrev S1024x4096 : Shape := ⟨2, ![1024, 4096]⟩
abbrev S100000x128 : Shape := ⟨2, ![100000, 128]⟩
abbrev S256x128 : Shape := ⟨2, ![256, 128]⟩
abbrev S128x2 : Shape := ⟨2, ![128, 2]⟩
abbrev S_ : Shape := ⟨0, ![]⟩

class Facts : Prop where
  bcast_S_S4096x40000 : S_.BroadcastsInDim S4096x40000 (![] : Fin 0 → Fin S4096x40000.rank)
  reducesTo_S4096x40000_S_d0_1 : S4096x40000.ReducesTo [0, 1] S_
  h_S_ : 0 < S_.numel
  bcast_S_S1024x4096 : S_.BroadcastsInDim S1024x4096 (![] : Fin 0 → Fin S1024x4096.rank)
  reducesTo_S1024x4096_S_d0_1 : S1024x4096.ReducesTo [0, 1] S_
  bcast_S_S100000x128 : S_.BroadcastsInDim S100000x128 (![] : Fin 0 → Fin S100000x128.rank)
  reducesTo_S100000x128_S_d0_1 : S100000x128.ReducesTo [0, 1] S_
  bcast_S_S256x128 : S_.BroadcastsInDim S256x128 (![] : Fin 0 → Fin S256x128.rank)
  reducesTo_S256x128_S_d0_1 : S256x128.ReducesTo [0, 1] S_
  bcast_S_S128x2 : S_.BroadcastsInDim S128x2 (![] : Fin 0 → Fin S128x2.rank)
  reducesTo_S128x2_S_d0_1 : S128x2.ReducesTo [0, 1] S_

variable [Facts]

def fn_part1 {F : FTy → Type} [FloatOps F] (main_arg9 : FVec F S256x128 .f32) (main_arg10 : FVec F S128x2 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S256x128 .f32 := Host.absf main_arg9
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S128x2 .f32 := Host.absf main_arg10
  let main_cst_8 : FVec F S_ .f32 := constant S_ .f32 0x7F800000#32
  let main_v25 : FVec F S128x2 .f32 := broadcastInDim S128x2 ![] bcast_S_S128x2 main_cst_8
  let main_v26 : IVec S128x2 1 := cmpf .olt main_v24 main_v25
  let main_c_9 : IVec S_ 1 := constantI S_ 1 1#1
  let main_v27 : IVec S_ 1 := (fun x v => Host.reduce IntOp.andi x v reducesTo_S128x2_S_d0_1 h_S_) main_v26 main_c_9
  let main_v28 : IVec S_ 1 := andi main_v23 main_v27
  main_v28

def fn {F : FTy → Type} [FloatOps F] (main_arg0 : IVec S40000 32) (main_arg1 : IVec S40000 32) (main_arg2 : IVec S4096 32) (main_arg3 : FVec F S4096x40000 .f32) (main_arg4 : IVec S4096 32) (main_arg5 : IVec S1024 32) (main_arg6 : FVec F S1024x4096 .f32) (main_arg7 : FVec F S100000x128 .f32) (main_arg8 : FVec F S256x128 .f32) (main_arg9 : FVec F S256x128 .f32) (main_arg10 : FVec F S128x2 .f32) : IVec S_ 1 :=
  let main_v0 : FVec F S4096x40000 .f32 := Host.absf main_arg3
  let main_cst : FVec F S_ .f32 := constant S_ .f32 0x7F800000#32
  let main_v1 : FVec F S4096x40000 .f32 := broadcastInDim S4096x40000 ![] bcast_S_S4096x40000 main_cst
  let main_v2 : IVec S4096x40000 1 := cmpf .olt main_v0 main_v1
  let main_c : IVec S_ 1 := constantI S_ 1 1#1
  let main_v3 : IVec S_ 1 := (fun x v => Host.reduce IntOp.andi x v reducesTo_S4096x40000_S_d0_1 h_S_) main_v2 main_c
  let main_v4 : FVec F S1024x4096 .f32 := Host.absf main_arg6
  let main_cst_0 : FVec F S_ .f32 := constant S_ .f32 0x7F800000#32
  let main_v5 : FVec F S1024x4096 .f32 := broadcastInDim S1024x4096 ![] bcast_S_S1024x4096 main_cst_0
  let main_v6 : IVec S1024x4096 1 := cmpf .olt main_v4 main_v5
  let main_c_1 : IVec S_ 1 := constantI S_ 1 1#1
  let main_v7 : IVec S_ 1 := (fun x v => Host.reduce IntOp.andi x v reducesTo_S1024x4096_S_d0_1 h_S_) main_v6 main_c_1
  let main_v8 : IVec S_ 1 := andi main_v3 main_v7
  let main_v9 : FVec F S100000x128 .f32 := Host.absf main_arg7
  let main_cst_2 : FVec F S_ .f32 := constant S_ .f32 0x7F800000#32
  let main_v10 : FVec F S100000x128 .f32 := broadcastInDim S100000x128 ![] bcast_S_S100000x128 main_cst_2
  let main_v11 : IVec S100000x128 1 := cmpf .olt main_v9 main_v10
  let main_c_3 : IVec S_ 1 := constantI S_ 1 1#1
  let main_v12 : IVec S_ 1 := (fun x v => Host.reduce IntOp.andi x v reducesTo_S100000x128_S_d0_1 h_S_) main_v11 main_c_3
  let main_v13 : IVec S_ 1 := andi main_v8 main_v12
  let main_v14 : FVec F S256x128 .f32 := Host.absf main_arg8
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg9 main_arg10 main_v13 main_v16
-- ==== Kernel.lean ====
abbrev S40000 : Shape := ⟨1, ![40000]⟩
abbrev S4096 : Shape := ⟨1, ![4096]⟩
abbrev S4096x40000 : Shape := ⟨2, ![4096, 40000]⟩
abbrev S1024 : Shape := ⟨1, ![1024]⟩
abbrev S1024x4096 : Shape := ⟨2, ![1024, 4096]⟩
abbrev S100000x128 : Shape := ⟨2, ![100000, 128]⟩
abbrev S256x128 : Shape := ⟨2, ![256, 128]⟩
abbrev S128x2 : Shape := ⟨2, ![128, 2]⟩
abbrev S_ : Shape := ⟨0, ![]⟩
abbrev S40000x1 : Shape := ⟨2, ![40000, 1]⟩
abbrev S40000x128 : Shape := ⟨2, ![40000, 128]⟩
abbrev S4096x1 : Shape := ⟨2, ![4096, 1]⟩
abbrev S4096x128 : Shape := ⟨2, ![4096, 128]⟩
abbrev S4096x40960 : Shape := ⟨2, ![4096, 40960]⟩
abbrev S40960x128 : Shape := ⟨2, ![40960, 128]⟩
abbrev S1024x5120 : Shape := ⟨2, ![1024, 5120]⟩
abbrev S5120x128 : Shape := ⟨2, ![5120, 128]⟩
abbrev S1024x128 : Shape := ⟨2, ![1024, 128]⟩
abbrev S4096x256 : Shape := ⟨2, ![4096, 256]⟩
abbrev S1024x1 : Shape := ⟨2, ![1024, 1]⟩
abbrev S1024x256 : Shape := ⟨2, ![1024, 256]⟩
abbrev S1024x2 : Shape := ⟨2, ![1024, 2]⟩

abbrev nBuf : Space → Nat
  | .hbm => 99
  | .vmem => 11
  | .smem => 0
  | _ => 0

abbrev bufTy : (tb : Table) → Fin (tcTables nBuf tb) → BufTy
  | .hbm, ⟨0, _⟩ => ⟨S40000, .i32⟩
  | .hbm, ⟨1, _⟩ => ⟨S40000, .i32⟩
  | .hbm, ⟨2, _⟩ => ⟨S4096, .i32⟩
  | .hbm, ⟨3, _⟩ => ⟨S4096x40000, .f32⟩
  | .hbm, ⟨4, _⟩ => ⟨S4096, .i32⟩
  | .hbm, ⟨5, _⟩ => ⟨S1024, .i32⟩
  | .hbm, ⟨6, _⟩ => ⟨S1024x4096, .f32⟩
  | .hbm, ⟨7, _⟩ => ⟨S100000x128, .f32⟩
  | .hbm, ⟨8, _⟩ => ⟨S256x128, .f32⟩
  | .hbm, ⟨9, _⟩ => ⟨S256x128, .f32⟩
  | .hbm, ⟨10, _⟩ => ⟨S128x2, .f32⟩
  | .hbm, ⟨11, _⟩ => ⟨S_, .i32⟩
  | .hbm, ⟨12, _⟩ => ⟨S40000, .i32⟩
  | .hbm, ⟨13, _⟩ => ⟨S40000, .i1⟩
  | .hbm, ⟨14, _⟩ => ⟨S_, .i32⟩
  | .hbm, ⟨15, _⟩ => ⟨S40000, .i32⟩
  | .hbm, ⟨16, _⟩ => ⟨S40000, .i32⟩
  | .hbm, ⟨17, _⟩ => ⟨S40000, .i32⟩
  | .hbm, ⟨18, _⟩ => ⟨S40000x1, .i32⟩
  | .hbm, ⟨19, _⟩ => ⟨S40000x128, .f32⟩
  | .hbm, ⟨20, _⟩ => ⟨S_, .i32⟩
  | .hbm, ⟨21, _⟩ => ⟨S4096, .i32⟩
  | .hbm, ⟨22, _⟩ => ⟨S4096, .i1⟩
  | .hbm, ⟨23, _⟩ => ⟨S_, .i32⟩
  | .hbm, ⟨24, _⟩ => ⟨S4096, .i32⟩
  | .hbm, ⟨25, _⟩ => ⟨S4096, .i32⟩
  | .hbm, ⟨26, _⟩ => ⟨S4096, .i32⟩
  | .hbm, ⟨27, _⟩ => ⟨S4096x1, .i32⟩
  | .hbm, ⟨28, _⟩ => ⟨S4096x128, .f32⟩
  | .hbm, ⟨29, _⟩ => ⟨S_, .i32⟩
  | .hbm, ⟨30, _⟩ => ⟨S40000, .i32⟩
  | .hbm, ⟨31, _⟩ => ⟨S40000, .i1⟩
  | .hbm, ⟨32, _⟩ => ⟨S_, .i32⟩
  | .hbm, ⟨33, _⟩ => ⟨S40000, .i32⟩
  | .hbm, ⟨34, _⟩ => ⟨S40000, .i32⟩
  | .hbm, ⟨35, _⟩ => ⟨S40000, .i32⟩
  | .hbm, ⟨36, _⟩ => ⟨S40000x1, .i32⟩
  | .hbm, ⟨37, _⟩ => ⟨S40000x128, .f32⟩
  | .hbm, ⟨38, _⟩ => ⟨S_, .i32⟩
  | .hbm, ⟨39, _⟩ => ⟨S_, .f32⟩
  | .hbm, ⟨40, _⟩ => ⟨S4096x40960, .f32⟩
  | .hbm, ⟨41, _⟩ => ⟨S_, .i32⟩
  | .hbm, ⟨42, _⟩ => ⟨S_, .f32⟩
  | .hbm, ⟨43, _⟩ => ⟨S40960x128, .f32⟩
  | .hbm, ⟨44, _⟩ => ⟨S4096x40960, .bf16⟩
  | .hbm, ⟨45, _⟩ => ⟨S40960x128, .bf16⟩
  | .hbm, ⟨46, _⟩ => ⟨S4096x128, .f32⟩
  | .hbm, ⟨47, _⟩ => ⟨S4096x256, .f32⟩
  | .hbm, ⟨48, _⟩ => ⟨S4096x128, .f32⟩
  | .hbm, ⟨49, _⟩ => ⟨S_, .f32⟩
  | .hbm, ⟨50, _⟩ => ⟨S4096x128, .f32⟩
  | .hbm, ⟨51, _⟩ => ⟨S4096x128, .f32⟩
  | .hbm, ⟨52, _⟩ => ⟨S_, .i32⟩
  | .hbm, ⟨53, _⟩ => ⟨S1024, .i32⟩
  | .hbm, ⟨54, _⟩ => ⟨S1024, .i1⟩
  | .hbm, ⟨55, _⟩ => ⟨S_, .i32⟩
  | .hbm, ⟨56, _⟩ => ⟨S1024, .i32⟩
  | .hbm, ⟨57, _⟩ => ⟨S1024, .i32⟩
  | .hbm, ⟨58, _⟩ => ⟨S1024, .i32⟩
  | .hbm, ⟨59, _⟩ => ⟨S1024x1, .i32⟩
  | .hbm, ⟨60, _⟩ => ⟨S1024x128, .f32⟩
  | .hbm, ⟨61, _⟩ => ⟨S_, .i32⟩
  | .hbm, ⟨62, _⟩ => ⟨S4096, .i32⟩
  | .hbm, ⟨63, _⟩ => ⟨S4096, .i1⟩
  | .hbm, ⟨64, _⟩ => ⟨S_, .i32⟩
  | .hbm, ⟨65, _⟩ => ⟨S4096, .i32⟩
  | .hbm, ⟨66, _⟩ => ⟨S4096, .i32⟩
  | .hbm, ⟨67, _⟩ => ⟨S4096, .i32⟩
  | .hbm, ⟨68, _⟩ => ⟨S4096x1, .i32⟩
  | .hbm, ⟨69, _⟩ => ⟨S4096x128, .f32⟩
  | .hbm, ⟨70, _⟩ => ⟨S_, .i32⟩
  | .hbm, ⟨71, _⟩ => ⟨S_, .f32⟩
  | .hbm, ⟨72, _⟩ => ⟨S1024x4096, .f32⟩
  | .hbm, ⟨73, _⟩ => ⟨S_, .i32⟩
  | .hbm, ⟨74, _⟩ => ⟨S_, .f32⟩
  | .hbm, ⟨75, _⟩ => ⟨S4096x128, .f32⟩
  | .hbm, ⟨76, _⟩ => ⟨S1024x4096, .bf16⟩
  | .hbm, ⟨77, _⟩ => ⟨S4096x128, .bf16⟩
  | .hbm, ⟨78, _⟩ => ⟨S1024x128, .f32⟩
  | .hbm, ⟨79, _⟩ => ⟨S1024x256, .f32⟩
  | .hbm, ⟨80, _⟩ => ⟨S1024x128, .f32⟩
  | .hbm, ⟨81, _⟩ => ⟨S_, .f32⟩
  | .hbm, ⟨82, _⟩ => ⟨S1024x128, .f32⟩
  | .hbm, ⟨83, _⟩ => ⟨S1024x128, .f32⟩
  | .hbm, ⟨84, _⟩ => ⟨S1024x2, .f32⟩
  | .hbm, ⟨85, _⟩ => ⟨S_, .f32⟩
  | .hbm, ⟨86, _⟩ => ⟨S1024, .f32⟩
  | .hbm, ⟨87, _⟩ => ⟨S_, .f32⟩
  | .hbm, ⟨88, _⟩ => ⟨S1024, .f32⟩
  | .hbm, ⟨89, _⟩ => ⟨S1024, .f32⟩
  | .hbm, ⟨90, _⟩ => ⟨S1024x1, .f32⟩
  | .hbm, ⟨91, _⟩ => ⟨S1024x2, .f32⟩
  | .hbm, ⟨92, _⟩ => ⟨S1024x2, .f32⟩
  | .hbm, ⟨93, _⟩ => ⟨S1024x2, .f32⟩
  | .hbm, ⟨94, _⟩ => ⟨S_, .f32⟩
  | .hbm, ⟨95, _⟩ => ⟨S1024, .f32⟩
  | .hbm, ⟨96, _⟩ => ⟨S1024x1, .f32⟩
  | .hbm, ⟨97, _⟩ => ⟨S1024x2, .f32⟩
  | .hbm, ⟨98, _⟩ => ⟨S1024x2, .f32⟩
  | .local _ .vmem, ⟨0, _⟩ => ⟨S1024x5120, .bf16⟩
  | .local _ .vmem, ⟨1, _⟩ => ⟨S1024x5120, .bf16⟩
  | .local _ .vmem, ⟨2, _⟩ => ⟨S5120x128, .bf16⟩
  | .local _ .vmem, ⟨3, _⟩ => ⟨S5120x128, .bf16⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x4096, .bf16⟩
  | .local _ .vmem, ⟨8, _⟩ => ⟨S4096x128, .bf16⟩
  | .local _ .vmem, ⟨9, _⟩ => ⟨S1024x128, .f32⟩
  | .local _ .vmem, ⟨10, _⟩ => ⟨S1024x128, .f32⟩
  | _, _ => ⟨S40000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_c_1 : Ref sig .tc := ⟨.hbm, 20, rfl⟩
abbrev main_v7 : Ref sig .tc := ⟨.hbm, 21, rfl⟩
abbrev main_v8 : Ref sig .tc := ⟨.hbm, 22, rfl⟩
abbrev main_c_2 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_c_3 : Ref sig .tc := ⟨.hbm, 29, rfl⟩
abbrev main_v14 : Ref sig .tc := ⟨.hbm, 30, rfl⟩
abbrev main_v15 : Ref sig .tc := ⟨.hbm, 31, rfl⟩
abbrev main_c_4 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_c_5 : Ref sig .tc := ⟨.hbm, 38, rfl⟩
abbrev main_call0_v0 : Ref sig .tc := ⟨.hbm, 39, rfl⟩
abbrev main_v21 : Ref sig .tc := ⟨.hbm, 40, rfl⟩
abbrev main_c_6 : Ref sig .tc := ⟨.hbm, 41, rfl⟩
abbrev main_call1_v0 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_call2_cst : Ref sig .tc := ⟨.hbm, 49, rfl⟩
abbrev main_call2_v0 : Ref sig .tc := ⟨.hbm, 50, rfl⟩
abbrev main_v28 : Ref sig .tc := ⟨.hbm, 51, rfl⟩
abbrev main_c_7 : Ref sig .tc := ⟨.hbm, 52, rfl⟩
abbrev main_v29 : Ref sig .tc := ⟨.hbm, 53, rfl⟩
abbrev main_v30 : Ref sig .tc := ⟨.hbm, 54, rfl⟩
abbrev main_c_8 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_c_9 : Ref sig .tc := ⟨.hbm, 61, rfl⟩
abbrev main_v36 : Ref sig .tc := ⟨.hbm, 62, rfl⟩
abbrev main_v37 : Ref sig .tc := ⟨.hbm, 63, rfl⟩
abbrev main_c_10 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_c_11 : Ref sig .tc := ⟨.hbm, 70, rfl⟩
abbrev main_call3_v0 : Ref sig .tc := ⟨.hbm, 71, rfl⟩
abbrev main_v43 : Ref sig .tc := ⟨.hbm, 72, rfl⟩
abbrev main_c_12 : Ref sig .tc := ⟨.hbm, 73, rfl⟩
abbrev main_call4_v0 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_call5_cst : Ref sig .tc := ⟨.hbm, 81, rfl⟩
abbrev main_call5_v0 : Ref sig .tc := ⟨.hbm, 82, rfl⟩
abbrev main_v50 : Ref sig .tc := ⟨.hbm, 83, rfl⟩
abbrev main_v51 : Ref sig .tc := ⟨.hbm, 84, rfl⟩
abbrev main_cst : Ref sig .tc := ⟨.hbm, 85, rfl⟩
abbrev main_v52 : Ref sig .tc := ⟨.hbm, 86, rfl⟩
abbrev main_cst_13 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_cst_14 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg1_0 : Ref sig .tc := ⟨.vmem, 8, rfl⟩
abbrev cc1_stg2_0 : Ref sig .tc := ⟨.vmem, 9, rfl⟩
abbrev cc1_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem1_0 : DmaSem sig := 7
abbrev cc1_sem2_0 : DmaSem sig := 8

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x5120 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S5120x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![1, 1], ![false, false]⟩

def k1_cond2 (i : grid1.Coords) : BitVec 1 :=
  let arg1 : BitVec 32 := BitVec.ofNat 32 (i 1).val
  let c0_i32_8 : BitVec 32 := 0#32
  let v13 : BitVec 1 := Scalar.cmpi .eq arg1 c0_i32_8
  let v14 : BitVec 32 := Scalar.extui v13
  let c0_i32_9 : BitVec 32 := 0#32
  let v15 : BitVec 1 := Scalar.cmpi .ne v14 c0_i32_9
  v15

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 1 → Memref sig .tc .vmem S1024x4096 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, true]

abbrev stage1_1 : Fin 1 → Memref sig .tc .vmem S4096x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true]

abbrev stage1_2 : Fin 1 → Memref sig .tc .vmem S1024x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true, false]

class Facts₀ : Prop where
  bcast_S_S40000 : S_.BroadcastsInDim S40000 (![] : Fin 0 → Fin S40000.rank)
  bcast_S40000_S40000x1_0 : S40000.BroadcastsInDim S40000x1 (![0] : Fin 1 → Fin S40000x1.rank)
  bcast_S_S4096 : S_.BroadcastsInDim S4096 (![] : Fin 0 → Fin S4096.rank)
  bcast_S4096_S4096x1_0 : S4096.BroadcastsInDim S4096x1 (![0] : Fin 1 → Fin S4096x1.rank)
  pads_S4096x40000_S4096x40960_000_09600 : S4096x40000.Pads (![0, 0] : Fin 2 → Nat) ![0, 960] ![0, 0] S4096x40960
  h_S_ : 0 < S_.numel
  pads_S40000x128_S40960x128_09600_000 : S40000x128.Pads (![0, 0] : Fin 2 → Nat) ![960, 0] ![0, 0] S40960x128
  bitsLt_bf16_f32 : FTy.bits .bf16 < FTy.bits .f32
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1024x5120_S1024x5120_0_0 : ∀ a, (![0, 0] : Fin 2 → Nat) a + S1024x5120.size a ≤ S1024x5120.size a
  h_S1024x5120 : 0 < S1024x5120.numel
  shapeCasts_S1024x5120_S1024x5120 : S1024x5120.ShapeCasts S1024x5120
  inb_S5120x128_S5120x128_0_0 : ∀ a, (![0, 0] : Fin 2 → Nat) a + S5120x128.size a ≤ S5120x128.size a
  h_S5120x128 : 0 < S5120x128.numel
  shapeCasts_S5120x128_S5120x128 : S5120x128.ShapeCasts S5120x128
  concatenates_S4096x128_S4096x128_S4096x256_d1 : Shape.Concatenates [S4096x128, S4096x128] S4096x256 1
  bcast_S_S4096x128 : S_.BroadcastsInDim S4096x128 (![] : Fin 0 → Fin S4096x128.rank)
  bcast_S_S1024 : S_.BroadcastsInDim S1024 (![] : Fin 0 → Fin S1024.rank)
  bcast_S1024_S1024x1_0 : S1024.BroadcastsInDim S1024x1 (![0] : Fin 1 → Fin S1024x1.rank)
  pads_S1024x4096_S1024x4096_000_000 : S1024x4096.Pads (![0, 0] : Fin 2 → Nat) ![0, 0] ![0, 0] S1024x4096
  pads_S4096x128_S4096x128_000_000 : S4096x128.Pads (![0, 0] : Fin 2 → Nat) ![0, 0] ![0, 0] S4096x128
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  concatenates_S1024x128_S1024x128_S1024x256_d1 : Shape.Concatenates [S1024x128, S1024x128] S1024x256 1
  bcast_S_S1024x128 : S_.BroadcastsInDim S1024x128 (![] : Fin 0 → Fin S1024x128.rank)
  reducesTo_S1024x2_S1024_d1 : S1024x2.ReducesTo [1] S1024
  bcast_S1024x1_S1024x2_0_1 : S1024x1.BroadcastsInDim S1024x2 (![0, 1] : Fin 2 → Fin S1024x2.rank)
  gather_S100000x128_S40000x1_S40000x128_1_0_n_n_0_1_1128_wf : GatherDims.WF S100000x128 S40000x1 S40000x128 [1] [0] [] [0] [] 1 ![1, 128]
  gather_S40000x128_S4096x1_S4096x128_1_0_n_n_0_1_1128_wf : GatherDims.WF S40000x128 S4096x1 S4096x128 [1] [0] [] [0] [] 1 ![1, 128]
  gather_S40000x128_S40000x1_S40000x128_1_0_n_n_0_1_1128_wf : GatherDims.WF S40000x128 S40000x1 S40000x128 [1] [0] [] [0] [] 1 ![1, 128]
  dot_S1024x5120_S5120x128_S1024x128_1_0_0_1_n_n_wf : DotDims.WF S1024x5120 S5120x128 S1024x128 [1] [0] [0] [1] [] []
  dot_S4096x256_S256x128_S4096x128_1_0_0_1_n_n_wf : DotDims.WF S4096x256 S256x128 S4096x128 [1] [0] [0] [1] [] []
  gather_S4096x128_S1024x1_S1024x128_1_0_n_n_0_1_1128_wf : GatherDims.WF S4096x128 S1024x1 S1024x128 [1] [0] [] [0] [] 1 ![1, 128]
  gather_S4096x128_S4096x1_S4096x128_1_0_n_n_0_1_1128_wf : GatherDims.WF S4096x128 S4096x1 S4096x128 [1] [0] [] [0] [] 1 ![1, 128]
  dot_S1024x4096_S4096x128_S1024x128_1_0_0_1_n_n_wf : DotDims.WF S1024x4096 S4096x128 S1024x128 [1] [0] [0] [1] [] []
  dot_S1024x256_S256x128_S1024x128_1_0_0_1_n_n_wf : DotDims.WF S1024x256 S256x128 S1024x128 [1] [0] [0] [1] [] []
  dot_S1024x128_S128x2_S1024x2_1_0_0_1_n_n_wf : DotDims.WF S1024x128 S128x2 S1024x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x5120.size a ≤ S4096x40960.size a
  hwx0_0 : ∀ i : grid0.Coords, EltTy.bits .bf16 = 32 ∨ (Rect.block (s := S4096x40960) S1024x5120.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5120x128.size a ≤ S40960x128.size a
  hwx0_1 : ∀ i : grid0.Coords, EltTy.bits .bf16 = 32 ∨ (Rect.block (s := S40960x128) S5120x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x128.size a ≤ S4096x128.size a
  hwx0_2 : ∀ i : grid0.Coords, EltTy.bits .f32 = 32 ∨ (Rect.block (s := S4096x128) S1024x128.size (cc0_transform_2 i) (hinb0_2 i)).WholeWords (EltTy.packing .f32)
  hrank1 : 0 < grid1.rank
  hstage1_0 : ∀ j, (stage1_0 j).IsWhole
  nbuf1_0 : grid1.bufCount reads1_0 false = 1
  hreads1_0 : ∀ i i' : grid1.Coords, (∀ a, reads1_0 a = true → i a = i' a) → cc1_transform_0 i = cc1_transform_0 i'
  hinb1_0 : ∀ (i : grid1.Coords) a, (cc1_transform_0 i a + 1) * S1024x4096.size a ≤ S1024x4096.size a
  hwx1_0 : ∀ i : grid1.Coords, EltTy.bits .bf16 = 32 ∨ (Rect.block (s := S1024x4096) S1024x4096.size (cc1_transform_0 i) (hinb1_0 i)).WholeWords (EltTy.packing .bf16)
  hstage1_1 : ∀ j, (stage1_1 j).IsWhole
  nbuf1_1 : grid1.bufCount reads1_1 false = 1
  hreads1_1 : ∀ i i' : grid1.Coords, (∀ a, reads1_1 a = true → i a = i' a) → cc1_transform_1 i = cc1_transform_1 i'
  hinb1_1 : ∀ (i : grid1.Coords) a, (cc1_transform_1 i a + 1) * S4096x128.size a ≤ S4096x128.size a
  hwx1_1 : ∀ i : grid1.Coords, EltTy.bits .bf16 = 32 ∨ (Rect.block (s := S4096x128) S4096x128.size (cc1_transform_1 i) (hinb1_1 i)).WholeWords (EltTy.packing .bf16)
  hstage1_2 : ∀ j, (stage1_2 j).IsWhole
  nbuf1_2 : grid1.bufCount reads1_2 false = 1
  hreads1_2 : ∀ i i' : grid1.Coords, (∀ a, reads1_2 a = true → i a = i' a) → cc1_transform_2 i = cc1_transform_2 i'
  hinb1_2 : ∀ (i : grid1.Coords) a, (cc1_transform_2 i a + 1) * S1024x128.size a ≤ S1024x128.size a
  hwx1_2 : ∀ i : grid1.Coords, EltTy.bits .f32 = 32 ∨ (Rect.block (s := S1024x128) S1024x128.size (cc1_transform_2 i) (hinb1_2 i)).WholeWords (EltTy.packing .f32)

variable [Facts₀]

def gather_S100000x128_S40000x1_S40000x128_1_0_n_n_0_1_1128 : GatherDims S100000x128 S40000x1 S40000x128 where
  offsetDims := [1]
  collapsedSliceDims := [0]
  operandBatchingDims := []
  startIndicesBatchingDims := []
  startIndexMap := [0]
  indexVectorDim := 1
  sliceSizes := ![1, 128]
  wf := gather_S100000x128_S40000x1_S40000x128_1_0_n_n_0_1_1128_wf
def gather_S40000x128_S4096x1_S4096x128_1_0_n_n_0_1_1128 : GatherDims S40000x128 S4096x1 S4096x128 where
  offsetDims := [1]
  collapsedSliceDims := [0]
  operandBatchingDims := []
  startIndicesBatchingDims := []
  startIndexMap := [0]
  indexVectorDim := 1
  sliceSizes := ![1, 128]
  wf := gather_S40000x128_S4096x1_S4096x128_1_0_n_n_0_1_1128_wf
def gather_S40000x128_S40000x1_S40000x128_1_0_n_n_0_1_1128 : GatherDims S40000x128 S40000x1 S40000x128 where
  offsetDims := [1]
  collapsedSliceDims := [0]
  operandBatchingDims := []
  startIndicesBatchingDims := []
  startIndexMap := [0]
  indexVectorDim := 1
  sliceSizes := ![1, 128]
  wf := gather_S40000x128_S40000x1_S40000x128_1_0_n_n_0_1_1128_wf
def dot_S1024x5120_S5120x128_S1024x128_1_0_0_1_n_n : DotDims S1024x5120 S5120x128 S1024x128 where
  lhsContracting := [1]
  rhsContracting := [0]
  lhsNonContracting := [0]
  rhsNonContracting := [1]
  lhsBatch := []
  rhsBatch := []
  wf := dot_S1024x5120_S5120x128_S1024x128_1_0_0_1_n_n_wf
def dot_S4096x256_S256x128_S4096x128_1_0_0_1_n_n : DotDims S4096x256 S256x128 S4096x128 where
  lhsContracting := [1]
  rhsContracting := [0]
  lhsNonContracting := [0]
  rhsNonContracting := [1]
  lhsBatch := []
  rhsBatch := []
  wf := dot_S4096x256_S256x128_S4096x128_1_0_0_1_n_n_wf
def gather_S4096x128_S1024x1_S1024x128_1_0_n_n_0_1_1128 : GatherDims S4096x128 S1024x1 S1024x128 where
  offsetDims := [1]
  collapsedSliceDims := [0]
  operandBatchingDims := []
  startIndicesBatchingDims := []
  startIndexMap := [0]
  indexVectorDim := 1
  sliceSizes := ![1, 128]
  wf := gather_S4096x128_S1024x1_S1024x128_1_0_n_n_0_1_1128_wf
def gather_S4096x128_S4096x1_S4096x128_1_0_n_n_0_1_1128 : GatherDims S4096x128 S4096x1 S4096x128 where
  offsetDims := [1]
  collapsedSliceDims := [0]
  operandBatchingDims := []
  startIndicesBatchingDims := []
  startIndexMap := [0]
  indexVectorDim := 1
  sliceSizes := ![1, 128]
  wf := gather_S4096x128_S4096x1_S4096x128_1_0_n_n_0_1_1128_wf
def dot_S1024x4096_S4096x128_S1024x128_1_0_0_1_n_n : DotDims S1024x4096 S4096x128 S1024x128 where
  lhsContracting := [1]
  rhsContracting := [0]
  lhsNonContracting := [0]
  rhsNonContracting := [1]
  lhsBatch := []
  rhsBatch := []
  wf := dot_S1024x4096_S4096x128_S1024x128_1_0_0_1_n_n_wf
def dot_S1024x256_S256x128_S1024x128_1_0_0_1_n_n : DotDims S1024x256 S256x128 S1024x128 where
  lhsContracting := [1]
  rhsContracting := [0]
  lhsNonContracting := [0]
  rhsNonContracting := [1]
  lhsBatch := []
  rhsBatch := []
  wf := dot_S1024x256_S256x128_S1024x128_1_0_0_1_n_n_wf
def dot_S1024x128_S128x2_S1024x2_1_0_0_1_n_n : DotDims S1024x128 S128x2 S1024x2 where
  lhsContracting := [1]
  rhsContracting := [0]
  lhsNonContracting := [0]
  rhsNonContracting := [1]
  lhsBatch := []
  rhsBatch := []
  wf := dot_S1024x128_S128x2_S1024x2_1_0_0_1_n_n_wf

abbrev win0_0 : Pipeline.Window sig grid0 :=
  Pipeline.Window.ofSpec (Memref.whole main_v23) S1024x5120.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v24) S5120x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v25) S1024x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v45) S1024x4096.size cc1_transform_0 reads1_0 false false 1 stage1_0 sem1_0
    hrank1 hreads1_0 hinb1_0 nbuf1_0 (Memref.isWhole_whole _) hwx1_0 hstage1_0

abbrev win1_1 : Pipeline.Window sig grid1 :=
  Pipeline.Window.ofSpec (Memref.whole main_v46) S4096x128.size cc1_transform_1 reads1_1 false false 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S1024x128.size cc1_transform_2 reads1_2 true false 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S40000 : Shape := ⟨1, ![40000]⟩
abbrev S4096 : Shape := ⟨1, ![4096]⟩
abbrev S4096x40000 : Shape := ⟨2, ![4096, 40000]⟩
abbrev S1024 : Shape := ⟨1, ![1024]⟩
abbrev S1024x4096 : Shape := ⟨2, ![1024, 4096]⟩
abbrev S100000x128 : Shape := ⟨2, ![100000, 128]⟩
abbrev S256x128 : Shape := ⟨2, ![256, 128]⟩
abbrev S128x2 : Shape := ⟨2, ![128, 2]⟩
abbrev S_ : Shape := ⟨0, ![]⟩
abbrev S40000x1 : Shape := ⟨2, ![40000, 1]⟩
abbrev S40000x128 : Shape := ⟨2, ![40000, 128]⟩
abbrev S4096x1 : Shape := ⟨2, ![4096, 1]⟩
abbrev S4096x128 : Shape := ⟨2, ![4096, 128]⟩
abbrev S4096x256 : Shape := ⟨2, ![4096, 256]⟩
abbrev S1024x1 : Shape := ⟨2, ![1024, 1]⟩
abbrev S1024x128 : Shape := ⟨2, ![1024, 128]⟩
abbrev S1024x256 : Shape := ⟨2, ![1024, 256]⟩
abbrev S1024x2 : Shape := ⟨2, ![1024, 2]⟩

abbrev nBuf : Space → Nat
  | .hbm => 83
  | .vmem => 0
  | .smem => 0
  | _ => 0

abbrev bufTy : (tb : Table) → Fin (tcTables nBuf tb) → BufTy
  | .hbm, ⟨0, _⟩ => ⟨S40000, .i32⟩
  | .hbm, ⟨1, _⟩ => ⟨S40000, .i32⟩
  | .hbm, ⟨2, _⟩ => ⟨S4096, .i32⟩
  | .hbm, ⟨3, _⟩ => ⟨S4096x40000, .f32⟩
  | .hbm, ⟨4, _⟩ => ⟨S4096, .i32⟩
  | .hbm, ⟨5, _⟩ => ⟨S1024, .i32⟩
  | .hbm, ⟨6, _⟩ => ⟨S1024x4096, .f32⟩
  | .hbm, ⟨7, _⟩ => ⟨S100000x128, .f32⟩
  | .hbm, ⟨8, _⟩ => ⟨S256x128, .f32⟩
  | .hbm, ⟨9, _⟩ => ⟨S256x128, .f32⟩
  | .hbm, ⟨10, _⟩ => ⟨S128x2, .f32⟩
  | .hbm, ⟨11, _⟩ => ⟨S_, .i32⟩
  | .hbm, ⟨12, _⟩ => ⟨S40000, .i32⟩
  | .hbm, ⟨13, _⟩ => ⟨S40000, .i1⟩
  | .hbm, ⟨14, _⟩ => ⟨S_, .i32⟩
  | .hbm, ⟨15, _⟩ => ⟨S40000, .i32⟩
  | .hbm, ⟨16, _⟩ => ⟨S40000, .i32⟩
  | .hbm, ⟨17, _⟩ => ⟨S40000, .i32⟩
  | .hbm, ⟨18, _⟩ => ⟨S40000x1, .i32⟩
  | .hbm, ⟨19, _⟩ => ⟨S40000x128, .f32⟩
  | .hbm, ⟨20, _⟩ => ⟨S_, .i32⟩
  | .hbm, ⟨21, _⟩ => ⟨S4096, .i32⟩
  | .hbm, ⟨22, _⟩ => ⟨S4096, .i1⟩
  | .hbm, ⟨23, _⟩ => ⟨S_, .i32⟩
  | .hbm, ⟨24, _⟩ => ⟨S4096, .i32⟩
  | .hbm, ⟨25, _⟩ => ⟨S4096, .i32⟩
  | .hbm, ⟨26, _⟩ => ⟨S4096, .i32⟩
  | .hbm, ⟨27, _⟩ => ⟨S4096x1, .i32⟩
  | .hbm, ⟨28, _⟩ => ⟨S4096x128, .f32⟩
  | .hbm, ⟨29, _⟩ => ⟨S_, .i32⟩
  | .hbm, ⟨30, _⟩ => ⟨S40000, .i32⟩
  | .hbm, ⟨31, _⟩ => ⟨S40000, .i1⟩
  | .hbm, ⟨32, _⟩ => ⟨S_, .i32⟩
  | .hbm, ⟨33, _⟩ => ⟨S40000, .i32⟩
  | .hbm, ⟨34, _⟩ => ⟨S40000, .i32⟩
  | .hbm, ⟨35, _⟩ => ⟨S40000, .i32⟩
  | .hbm, ⟨36, _⟩ => ⟨S40000x1, .i32⟩
  | .hbm, ⟨37, _⟩ => ⟨S40000x128, .f32⟩
  | .hbm, ⟨38, _⟩ => ⟨S4096x128, .f32⟩
  | .hbm, ⟨39, _⟩ => ⟨S4096x256, .f32⟩
  | .hbm, ⟨40, _⟩ => ⟨S4096x128, .f32⟩
  | .hbm, ⟨41, _⟩ => ⟨S_, .f32⟩
  | .hbm, ⟨42, _⟩ => ⟨S4096x128, .f32⟩
  | .hbm, ⟨43, _⟩ => ⟨S4096x128, .f32⟩
  | .hbm, ⟨44, _⟩ => ⟨S_, .i32⟩
  | .hbm, ⟨45, _⟩ => ⟨S1024, .i32⟩
  | .hbm, ⟨46, _⟩ => ⟨S1024, .i1⟩
  | .hbm, ⟨47, _⟩ => ⟨S_, .i32⟩
  | .hbm, ⟨48, _⟩ => ⟨S1024, .i32⟩
  | .hbm, ⟨49, _⟩ => ⟨S1024, .i32⟩
  | .hbm, ⟨50, _⟩ => ⟨S1024, .i32⟩
  | .hbm, ⟨51, _⟩ => ⟨S1024x1, .i32⟩
  | .hbm, ⟨52, _⟩ => ⟨S1024x128, .f32⟩
  | .hbm, ⟨53, _⟩ => ⟨S_, .i32⟩
  | .hbm, ⟨54, _⟩ => ⟨S4096, .i32⟩
  | .hbm, ⟨55, _⟩ => ⟨S4096, .i1⟩
  | .hbm, ⟨56, _⟩ => ⟨S_, .i32⟩
  | .hbm, ⟨57, _⟩ => ⟨S4096, .i32⟩
  | .hbm, ⟨58, _⟩ => ⟨S4096, .i32⟩
  | .hbm, ⟨59, _⟩ => ⟨S4096, .i32⟩
  | .hbm, ⟨60, _⟩ => ⟨S4096x1, .i32⟩
  | .hbm, ⟨61, _⟩ => ⟨S4096x128, .f32⟩
  | .hbm, ⟨62, _⟩ => ⟨S1024x128, .f32⟩
  | .hbm, ⟨63, _⟩ => ⟨S1024x256, .f32⟩
  | .hbm, ⟨64, _⟩ => ⟨S1024x128, .f32⟩
  | .hbm, ⟨65, _⟩ => ⟨S_, .f32⟩
  | .hbm, ⟨66, _⟩ => ⟨S1024x128, .f32⟩
  | .hbm, ⟨67, _⟩ => ⟨S1024x128, .f32⟩
  | .hbm, ⟨68, _⟩ => ⟨S1024x2, .f32⟩
  | .hbm, ⟨69, _⟩ => ⟨S_, .f32⟩
  | .hbm, ⟨70, _⟩ => ⟨S1024, .f32⟩
  | .hbm, ⟨71, _⟩ => ⟨S_, .f32⟩
  | .hbm, ⟨72, _⟩ => ⟨S1024, .f32⟩
  | .hbm, ⟨73, _⟩ => ⟨S1024, .f32⟩
  | .hbm, ⟨74, _⟩ => ⟨S1024x1, .f32⟩
  | .hbm, ⟨75, _⟩ => ⟨S1024x2, .f32⟩
  | .hbm, ⟨76, _⟩ => ⟨S1024x2, .f32⟩
  | .hbm, ⟨77, _⟩ => ⟨S1024x2, .f32⟩
  | .hbm, ⟨78, _⟩ => ⟨S_, .f32⟩
  | .hbm, ⟨79, _⟩ => ⟨S1024, .f32⟩
  | .hbm, ⟨80, _⟩ => ⟨S1024x1, .f32⟩
  | .hbm, ⟨81, _⟩ => ⟨S1024x2, .f32⟩
  | .hbm, ⟨82, _⟩ => ⟨S1024x2, .f32⟩
  | _, _ => ⟨S40000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_c_1 : Ref sig .tc := ⟨.hbm, 20, rfl⟩
abbrev main_v7 : Ref sig .tc := ⟨.hbm, 21, rfl⟩
abbrev main_v8 : Ref sig .tc := ⟨.hbm, 22, rfl⟩
abbrev main_c_2 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_c_3 : Ref sig .tc := ⟨.hbm, 29, rfl⟩
abbrev main_v14 : Ref sig .tc := ⟨.hbm, 30, rfl⟩
abbrev main_v15 : Ref sig .tc := ⟨.hbm, 31, rfl⟩
abbrev main_c_4 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_call0_cst : Ref sig .tc := ⟨.hbm, 41, rfl⟩
abbrev main_call0_v0 : Ref sig .tc := ⟨.hbm, 42, rfl⟩
abbrev main_v24 : Ref sig .tc := ⟨.hbm, 43, rfl⟩
abbrev main_c_5 : Ref sig .tc := ⟨.hbm, 44, rfl⟩
abbrev main_v25 : Ref sig .tc := ⟨.hbm, 45, rfl⟩
abbrev main_v26 : Ref sig .tc := ⟨.hbm, 46, rfl⟩
abbrev main_c_6 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_c_7 : Ref sig .tc := ⟨.hbm, 53, rfl⟩
abbrev main_v32 : Ref sig .tc := ⟨.hbm, 54, rfl⟩
abbrev main_v33 : Ref sig .tc := ⟨.hbm, 55, rfl⟩
abbrev main_c_8 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_call1_cst : Ref sig .tc := ⟨.hbm, 65, rfl⟩
abbrev main_call1_v0 : Ref sig .tc := ⟨.hbm, 66, rfl⟩
abbrev main_v42 : Ref sig .tc := ⟨.hbm, 67, rfl⟩
abbrev main_v43 : Ref sig .tc := ⟨.hbm, 68, rfl⟩
abbrev main_cst : Ref sig .tc := ⟨.hbm, 69, rfl⟩
abbrev main_v44 : Ref sig .tc := ⟨.hbm, 70, rfl⟩
abbrev main_cst_9 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_cst_10 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩

abbrev nD : Nat := 1
abbrev τ : Topo := Topo.v7x

variable {F : FTy → Type} [FloatOps F]

class Facts₀ : Prop where
  bcast_S_S40000 : S_.BroadcastsInDim S40000 (![] : Fin 0 → Fin S40000.rank)
  bcast_S40000_S40000x1_0 : S40000.BroadcastsInDim S40000x1 (![0] : Fin 1 → Fin S40000x1.rank)
  bcast_S_S4096 : S_.BroadcastsInDim S4096 (![] : Fin 0 → Fin S4096.rank)
  bcast_S4096_S4096x1_0 : S4096.BroadcastsInDim S4096x1 (![0] : Fin 1 → Fin S4096x1.rank)
  concatenates_S4096x128_S4096x128_S4096x256_d1 : Shape.Concatenates [S4096x128, S4096x128] S4096x256 1
  bcast_S_S4096x128 : S_.BroadcastsInDim S4096x128 (![] : Fin 0 → Fin S4096x128.rank)
  bcast_S_S1024 : S_.BroadcastsInDim S1024 (![] : Fin 0 → Fin S1024.rank)
  bcast_S1024_S1024x1_0 : S1024.BroadcastsInDim S1024x1 (![0] : Fin 1 → Fin S1024x1.rank)
  concatenates_S1024x128_S1024x128_S1024x256_d1 : Shape.Concatenates [S1024x128, S1024x128] S1024x256 1
  bcast_S_S1024x128 : S_.BroadcastsInDim S1024x128 (![] : Fin 0 → Fin S1024x128.rank)
  reducesTo_S1024x2_S1024_d1 : S1024x2.ReducesTo [1] S1024
  h_S_ : 0 < S_.numel
  bcast_S1024x1_S1024x2_0_1 : S1024x1.BroadcastsInDim S1024x2 (![0, 1] : Fin 2 → Fin S1024x2.rank)
  gather_S100000x128_S40000x1_S40000x128_1_0_n_n_0_1_1128_wf : GatherDims.WF S100000x128 S40000x1 S40000x128 [1] [0] [] [0] [] 1 ![1, 128]
  gather_S40000x128_S4096x1_S4096x128_1_0_n_n_0_1_1128_wf : GatherDims.WF S40000x128 S4096x1 S4096x128 [1] [0] [] [0] [] 1 ![1, 128]
  gather_S40000x128_S40000x1_S40000x128_1_0_n_n_0_1_1128_wf : GatherDims.WF S40000x128 S40000x1 S40000x128 [1] [0] [] [0] [] 1 ![1, 128]
  dot_S4096x40000_S40000x128_S4096x128_1_0_0_1_n_n_wf : DotDims.WF S4096x40000 S40000x128 S4096x128 [1] [0] [0] [1] [] []
  dot_S4096x256_S256x128_S4096x128_1_0_0_1_n_n_wf : DotDims.WF S4096x256 S256x128 S4096x128 [1] [0] [0] [1] [] []
  gather_S4096x128_S1024x1_S1024x128_1_0_n_n_0_1_1128_wf : GatherDims.WF S4096x128 S1024x1 S1024x128 [1] [0] [] [0] [] 1 ![1, 128]
  gather_S4096x128_S4096x1_S4096x128_1_0_n_n_0_1_1128_wf : GatherDims.WF S4096x128 S4096x1 S4096x128 [1] [0] [] [0] [] 1 ![1, 128]
  dot_S1024x4096_S4096x128_S1024x128_1_0_0_1_n_n_wf : DotDims.WF S1024x4096 S4096x128 S1024x128 [1] [0] [0] [1] [] []
  dot_S1024x256_S256x128_S1024x128_1_0_0_1_n_n_wf : DotDims.WF S1024x256 S256x128 S1024x128 [1] [0] [0] [1] [] []
  dot_S1024x128_S128x2_S1024x2_1_0_0_1_n_n_wf : DotDims.WF S1024x128 S128x2 S1024x2 [1] [0] [0] [1] [] []

variable [Facts₀]

def gather_S100000x128_S40000x1_S40000x128_1_0_n_n_0_1_1128 : GatherDims S100000x128 S40000x1 S40000x128 where
  offsetDims := [1]
  collapsedSliceDims := [0]
  operandBatchingDims := []
  startIndicesBatchingDims := []
  startIndexMap := [0]
  indexVectorDim := 1
  sliceSizes := ![1, 128]
  wf := gather_S100000x128_S40000x1_S40000x128_1_0_n_n_0_1_1128_wf
def gather_S40000x128_S4096x1_S4096x128_1_0_n_n_0_1_1128 : GatherDims S40000x128 S4096x1 S4096x128 where
  offsetDims := [1]
  collapsedSliceDims := [0]
  operandBatchingDims := []
  startIndicesBatchingDims := []
  startIndexMap := [0]
  indexVectorDim := 1
  sliceSizes := ![1, 128]
  wf := gather_S40000x128_S4096x1_S4096x128_1_0_n_n_0_1_1128_wf
def gather_S40000x128_S40000x1_S40000x128_1_0_n_n_0_1_1128 : GatherDims S40000x128 S40000x1 S40000x128 where
  offsetDims := [1]
  collapsedSliceDims := [0]
  operandBatchingDims := []
  startIndicesBatchingDims := []
  startIndexMap := [0]
  indexVectorDim := 1
  sliceSizes := ![1, 128]
  wf := gather_S40000x128_S40000x1_S40000x128_1_0_n_n_0_1_1128_wf
def dot_S4096x40000_S40000x128_S4096x128_1_0_0_1_n_n : DotDims S4096x40000 S40000x128 S4096x128 where
  lhsContracting := [1]
  rhsContracting := [0]
  lhsNonContracting := [0]
  rhsNonContracting := [1]
  lhsBatch := []
  rhsBatch := []
  wf := dot_S4096x40000_S40000x128_S4096x128_1_0_0_1_n_n_wf
def dot_S4096x256_S256x128_S4096x128_1_0_0_1_n_n : DotDims S4096x256 S256x128 S4096x128 where
  lhsContracting := [1]
  rhsContracting := [0]
  lhsNonContracting := [0]
  rhsNonContracting := [1]
  lhsBatch := []
  rhsBatch := []
  wf := dot_S4096x256_S256x128_S4096x128_1_0_0_1_n_n_wf
def gather_S4096x128_S1024x1_S1024x128_1_0_n_n_0_1_1128 : GatherDims S4096x128 S1024x1 S1024x128 where
  offsetDims := [1]
  collapsedSliceDims := [0]
  operandBatchingDims := []
  startIndicesBatchingDims := []
  startIndexMap := [0]
  indexVectorDim := 1
  sliceSizes := ![1, 128]
  wf := gather_S4096x128_S1024x1_S1024x128_1_0_n_n_0_1_1128_wf
def gather_S4096x128_S4096x1_S4096x128_1_0_n_n_0_1_1128 : GatherDims S4096x128 S4096x1 S4096x128 where
  offsetDims := [1]
  collapsedSliceDims := [0]
  operandBatchingDims := []
  startIndicesBatchingDims := []
  startIndexMap := [0]
  indexVectorDim := 1
  sliceSizes := ![1, 128]
  wf := gather_S4096x128_S4096x1_S4096x128_1_0_n_n_0_1_1128_wf
def dot_S1024x4096_S4096x128_S1024x128_1_0_0_1_n_n : DotDims S1024x4096 S4096x128 S1024x128 where
  lhsContracting := [1]
  rhsContracting := [0]
  lhsNonContracting := [0]
  rhsNonContracting := [1]
  lhsBatch := []
  rhsBatch := []
  wf := dot_S1024x4096_S4096x128_S1024x128_1_0_0_1_n_n_wf
def dot_S1024x256_S256x128_S1024x128_1_0_0_1_n_n : DotDims S1024x256 S256x128 S1024x128 where
  lhsContracting := [1]
  rhsContracting := [0]
  lhsNonContracting := [0]
  rhsNonContracting := [1]
  lhsBatch := []
  rhsBatch := []
  wf := dot_S1024x256_S256x128_S1024x128_1_0_0_1_n_n_wf
def dot_S1024x128_S128x2_S1024x2_1_0_0_1_n_n : DotDims S1024x128 S128x2 S1024x2 where
  lhsContracting := [1]
  rhsContracting := [0]
  lhsNonContracting := [0]
  rhsNonContracting := [1]
  lhsBatch := []
  rhsBatch := []
  wf := dot_S1024x128_S128x2_S1024x2_1_0_0_1_n_n_wf

class Facts : Prop extends Facts₀ where

variable [Facts]
-- ==== Proof.K.Shared.lean ====
/-
  What both kernel regions' frame proofs are stated over.

  The program launches one K-blocked matrix product twice. Region 0 runs it on a 4 x 8 grid (row block i, column
  block k of the left factor): at k = 0 the accumulator scratch is reset to zero, at every point the product of the
  left factor's block (i, k) with the right factor's block k is added to it, and at k = 7 the accumulator is stored
  into the output's block i. Region 1 runs it on the one-point grid, where all three steps happen at the one point.

  Here: the two branch conditions of each body as conditions on the linear point number (point t of region 0 is
  (i, k) = (t / 8, t % 8)); where the output window is idle and where it is written back; each window's block read
  off the array as the region finds it; that an input window's staging buffer holds that block at every point; and
  the buffers a region does not stage, listed one by one.
-/
import proofs.«126029_j60490319397131_1_alg».proof.Proof.Gen.Kernel.Launch
import proofs.«126029_j60490319397131_1_alg».proof.Proof.Gen.Kernel.Skeleton
import proofs.«126029_j60490319397131_1_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Pipeline.RegionsLoop
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The zero offsets of a rank-2 access, however spelt. -/
theorem hz2 : (![0, 0] : Fin 2 → ℕ) = fun _ => 0 := by funext a; fin_cases a <;> rfl

/-! ## Region 0: the branch conditions over the grid -/

/-- "This is the first column block" (k = 0): the accumulator is reset. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

/-- "This is the last column block" (k = 7): the accumulator is stored into the output block. -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-- The inputs are never idle; the output is idle exactly away from the last column block, and it is written back
    exactly at the last column block. -/
theorem liveAt0_0 : ∀ t : Fin cfg0.N, cfg0.idle 0 (grid0.coords t) = false := by decide +kernel
theorem liveAt0_1 : ∀ t : Fin cfg0.N, cfg0.idle 1 (grid0.coords t) = false := by decide +kernel
theorem idleAt0_2 : ∀ t : Fin cfg0.N, ¬cond0_1 (grid0.coords t) → cfg0.idle 2 (grid0.coords t) = true := by decide +kernel
theorem liveAt0_2 : ∀ t : Fin cfg0.N, cond0_1 (grid0.coords t) → cfg0.idle 2 (grid0.coords t) = false := by decide +kernel
theorem noFlush0_2 : ∀ t : Fin cfg0.N, ¬cond0_1 (grid0.coords t) → (cfg0.win 2).flush t = false := by decide +kernel

/-- Each window's current staging memref at point `t`, as the pipeline passes it to the body, and the scratch. -/
abbrev ms0_0 (t : Fin cfg0.N) : Memref sig .tc .vmem S1024x5120 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S5120x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x128 .f32 := win0_2.stage (cfg0.slots t 2)
abbrev hs0_2 (t : Fin cfg0.N) : (ms0_2 t).IsWhole := hstage0_2 ((cfg0.slots t 2).cast nbuf0_2)
abbrev scM0 : Memref sig .tc .vmem S1024x128 .f32 := Memref.whole cc0_scratch0

/-! ## Region 1: the one point -/

abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) := by decide +kernel
abbrev cond1_1 (i : grid1.Coords) : Prop := k1_cond2 i = 1#1
theorem hcond1_1 : ∀ t : Fin cfg1.N, cond1_1 (grid1.coords t) := by decide +kernel
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel

abbrev ms1_0 (t : Fin cfg1.N) : Memref sig .tc .vmem S1024x4096 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S4096x128 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x128 .f32 := win1_2.stage (cfg1.slots t 2)
abbrev hs1_2 (t : Fin cfg1.N) : (ms1_2 t).IsWhole := hstage1_2 ((cfg1.slots t 2).cast nbuf1_2)
abbrev scM1 : Memref sig .tc .vmem S1024x128 .f32 := Memref.whole cc1_scratch0

/-! ## The windows' blocks, read off the arrays as a region finds them -/

section Blocks
variable (V : (c : Dev nD) → (b : Ref sig .tc) → Buf (Elt F) ((c : Thread nD τ).loc b))

/-- Region 0, window `w`'s block at point `t`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))
/-- Region 1, window `w`'s block at point `t`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point (it is fetched at every point), for any
    proof data whose array is the region-entry contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

end Blocks

end Cert.Kernel.Hand

end
-- ==== Proof.K.Body0.lean ====
/-
  Region 0's kernel body, run once on any whole staging memrefs and scratch, in each of the three cases the 4 x 8 grid
  meets. Write `x0` for the left factor's block, `x1` for the right factor's block, `s` for what the accumulator scratch
  holds when the point begins, and  s ⊕ x0·x1  for the body's own term `k0_pay2 s x0 x1` (the product into a zero
  accumulator, added to `s`).
  * first column block (k = 0), not the last: the scratch, at anything, is zeroed and ends at  0 ⊕ x0·x1  (`k0_pay1` is
    the zero block); the output buffer is not touched.
  * an inner column block: the scratch ends at  s ⊕ x0·x1 ; the output buffer is not touched.
  * last column block (k = 7), not the first: the scratch ends at  s ⊕ x0·x1  and the same is stored into the output
    buffer, whatever it held.
  The input buffers end as they began.
-/
import proofs.«126029_j60490319397131_1_alg».proof.Proof.K.Shared

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- First column block: reset, then accumulate. -/
theorem kernel0_first (c : Dev nD) (i : grid0.Coords)
    (arg2 : Memref sig .tc .vmem S1024x5120 .bf16) (harg2 : arg2.IsWhole) (arg3 : Memref sig .tc .vmem S5120x128 .bf16) (harg3 : arg3.IsWhole)
    (arg4 : Memref sig .tc .vmem S1024x128 .f32) (harg4 : arg4.IsWhole) (arg5 : Memref sig .tc .vmem S1024x128 .f32) (harg5 : arg5.IsWhole)
    (hc0 : cond0_0 i) (hc1 : ¬cond0_1 i)
    (x0 : Vec F S1024x5120 .bf16) (x1 : Vec F S5120x128 .bf16) (xo : Vec F S1024x128 .f32) (E : Set ℕ) (K : PUnit → sProp 𝕄) :
    iprop(owns (c : Thread nD τ) arg2 fullShare x0 ∗ owns (c : Thread nD τ) arg3 fullShare x1
        ∗ owns (c : Thread nD τ) arg4 fullShare xo ∗ (∃ d, owns (c : Thread nD τ) arg5 fullShare d)
        ∗ (iprop(owns (c : Thread nD τ) arg2 fullShare x0 ∗ owns (c : Thread nD τ) arg3 fullShare x1
            ∗ owns (c : Thread nD τ) arg4 fullShare xo
            ∗ owns (c : Thread nD τ) arg5 fullShare (k0_pay2 (k0_pay1 (F := F)) x0 x1)) -∗ K ⟨⟩))
      ⊢ wp frame (wpE (defs₀ (F := F)) Variants.none c none) E (cc0__diffusion_matmul_kernel i arg2 harg2 arg3 harg3 arg4 harg4 arg5 harg5) K := by
  simp only [cc0__diffusion_matmul_kernel_eq_skeleton]; unfold cc0__diffusion_matmul_kernel_skel
  unfold owns
  iintro ⟨⟨%f0, %hf0, H0⟩, ⟨%f1, %hf1, H1⟩, ⟨%f4, %hf4, H4⟩, ⟨%d5, %f5, %hf5, H5⟩, Hk⟩
  obtain rfl := harg2.eq_unread hf0; obtain rfl := harg3.eq_unread hf1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H4]
  · iexists _; isplitr; · ipureintro; exact hf4
    iexact H4
  · iexists _; isplitr
    swap; · iexact H5
    ipureintro
    sl_unfold_words
    rw [View.read_writes_eq_canon _ _ _ (fun y => ⟨_, List.mem_cons_self, View.mem_set_unit_zero hz2 Cert.Kernel.Gen.inb_S1024x128_S1024x128_0_0 y⟩), View.canon_cons_unit_zero hz2]
    simp only [View.readAt_eq_ld, harg2.read_unread, harg3.read_unread, harg5.read_unread, View.ld_unit_zero (S := S1024x5120) hz2, View.ld_unit_zero (S := S5120x128) hz2, View.ld_unit_zero (S := S1024x128) hz2, View.readCov_unit_zero (S := S1024x128) _ hz2]

set_option maxHeartbeats 1000000 in
/-- An inner column block: accumulate. -/
theorem kernel0_inner (c : Dev nD) (i : grid0.Coords)
    (arg2 : Memref sig .tc .vmem S1024x5120 .bf16) (harg2 : arg2.IsWhole) (arg3 : Memref sig .tc .vmem S5120x128 .bf16) (harg3 : arg3.IsWhole)
    (arg4 : Memref sig .tc .vmem S1024x128 .f32) (harg4 : arg4.IsWhole) (arg5 : Memref sig .tc .vmem S1024x128 .f32) (harg5 : arg5.IsWhole)
    (hc0 : ¬cond0_0 i) (hc1 : ¬cond0_1 i)
    (x0 : Vec F S1024x5120 .bf16) (x1 : Vec F S5120x128 .bf16) (xo : Vec F S1024x128 .f32) (s : Vec F S1024x128 .f32) (E : Set ℕ) (K : PUnit → sProp 𝕄) :
    iprop(owns (c : Thread nD τ) arg2 fullShare x0 ∗ owns (c : Thread nD τ) arg3 fullShare x1
        ∗ owns (c : Thread nD τ) arg4 fullShare xo ∗ owns (c : Thread nD τ) arg5 fullShare s
        ∗ (iprop(owns (c : Thread nD τ) arg2 fullShare x0 ∗ owns (c : Thread nD τ) arg3 fullShare x1
            ∗ owns (c : Thread nD τ) arg4 fullShare xo
            ∗ owns (c : Thread nD τ) arg5 fullShare (k0_pay2 s x0 x1)) -∗ K ⟨⟩))
      ⊢ wp frame (wpE (defs₀ (F := F)) Variants.none c none) E (cc0__diffusion_matmul_kernel i arg2 harg2 arg3 harg3 arg4 harg4 arg5 harg5) K := by
  simp only [cc0__diffusion_matmul_kernel_eq_skeleton]; unfold cc0__diffusion_matmul_kernel_skel
  unfold owns
  iintro ⟨⟨%f0, %hf0, H0⟩, ⟨%f1, %hf1, H1⟩, ⟨%f4, %hf4, H4⟩, ⟨%f5, %hf5, H5⟩, Hk⟩
  obtain rfl := harg2.eq_unread hf0; obtain rfl := harg3.eq_unread hf1; obtain rfl := harg5.eq_unread hf5
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H4]
  · iexists _; isplitr; · ipureintro; exact hf4
    iexact H4
  · iexists _; isplitr
    swap; · iexact H5
    ipureintro
    sl_unfold_words
    rw [View.read_writes_eq_canon _ _ _ (fun y => ⟨_, List.mem_cons_self, View.mem_set_unit_zero hz2 Cert.Kernel.Gen.inb_S1024x128_S1024x128_0_0 y⟩), View.canon_cons_unit_zero hz2]
    simp only [View.readAt_eq_ld, harg2.read_unread, harg3.read_unread, harg5.read_unread, View.ld_unit_zero (S := S1024x5120) hz2, View.ld_unit_zero (S := S5120x128) hz2, View.ld_unit_zero (S := S1024x128) hz2, View.readCov_unit_zero (S := S1024x128) _ hz2]

set_option maxHeartbeats 1000000 in
/-- Last column block: accumulate, then store the accumulator into the output buffer. -/
theorem kernel0_last (c : Dev nD) (i : grid0.Coords)
    (arg2 : Memref sig .tc .vmem S1024x5120 .bf16) (harg2 : arg2.IsWhole) (arg3 : Memref sig .tc .vmem S5120x128 .bf16) (harg3 : arg3.IsWhole)
    (arg4 : Memref sig .tc .vmem S1024x128 .f32) (harg4 : arg4.IsWhole) (arg5 : Memref sig .tc .vmem S1024x128 .f32) (harg5 : arg5.IsWhole)
    (hc0 : ¬cond0_0 i) (hc1 : cond0_1 i)
    (x0 : Vec F S1024x5120 .bf16) (x1 : Vec F S5120x128 .bf16) (s : Vec F S1024x128 .f32) (E : Set ℕ) (K : PUnit → sProp 𝕄) :
    iprop(owns (c : Thread nD τ) arg2 fullShare x0 ∗ owns (c : Thread nD τ) arg3 fullShare x1
        ∗ (∃ d, owns (c : Thread nD τ) arg4 fullShare d) ∗ owns (c : Thread nD τ) arg5 fullShare s
        ∗ (iprop(owns (c : Thread nD τ) arg2 fullShare x0 ∗ owns (c : Thread nD τ) arg3 fullShare x1
            ∗ owns (c : Thread nD τ) arg4 fullShare (k0_pay2 s x0 x1)
            ∗ owns (c : Thread nD τ) arg5 fullShare (k0_pay2 s x0 x1)) -∗ K ⟨⟩))
      ⊢ wp frame (wpE (defs₀ (F := F)) Variants.none c none) E (cc0__diffusion_matmul_kernel i arg2 harg2 arg3 harg3 arg4 harg4 arg5 harg5) K := by
  simp only [cc0__diffusion_matmul_kernel_eq_skeleton]; unfold cc0__diffusion_matmul_kernel_skel
  unfold owns
  iintro ⟨⟨%f0, %hf0, H0⟩, ⟨%f1, %hf1, H1⟩, ⟨%d4, %f4, %hf4, H4⟩, ⟨%f5, %hf5, H5⟩, Hk⟩
  obtain rfl := harg2.eq_unread hf0; obtain rfl := harg3.eq_unread hf1; obtain rfl := harg5.eq_unread hf5
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H4]
  · iexists _; isplitr
    swap; · iexact H4
    ipureintro
    rw [View.read_writes_eq_canon _ _ _ (fun y => ⟨_, List.mem_singleton_self _, View.mem_set_unit_zero hz2 Cert.Kernel.Gen.inb_S1024x128_S1024x128_0_0 y⟩), View.canon_unit_zero hz2]
    sl_unfold_words
    simp only [View.readAt_eq_ld, harg2.read_unread, harg3.read_unread, harg5.read_unread, View.ld_unit_zero (S := S1024x5120) hz2, View.ld_unit_zero (S := S5120x128) hz2, View.ld_unit_zero (S := S1024x128) hz2, View.readCov_unit_zero (S := S1024x128) _ hz2]
    try rw [View.readCov_eq_canon_ld _ _ _ (fun y => ⟨_, List.mem_cons_self, View.mem_set_unit_zero hz2 Cert.Kernel.Gen.inb_S1024x128_S1024x128_0_0 y⟩), View.canon_cons_unit_zero hz2, View.ld_unit_zero hz2]
  · iexists _; isplitr
    swap; · iexact H5
    ipureintro
    sl_unfold_words
    rw [View.read_writes_eq_canon _ _ _ (fun y => ⟨_, List.mem_cons_self, View.mem_set_unit_zero hz2 Cert.Kernel.Gen.inb_S1024x128_S1024x128_0_0 y⟩), View.canon_cons_unit_zero hz2]
    simp only [View.readAt_eq_ld, harg2.read_unread, harg3.read_unread, harg5.read_unread, View.ld_unit_zero (S := S1024x5120) hz2, View.ld_unit_zero (S := S5120x128) hz2, View.ld_unit_zero (S := S1024x128) hz2, View.readCov_unit_zero (S := S1024x128) _ hz2]

end Cert.Kernel.Hand

end
-- ==== Proof.K.Dat0.lean ====
/-
  Region 0's proof data and body obligation.

  Point t of the 4 x 8 grid is (row block, column block) = (t / 8, t % 8). The accumulator scratch after point t holds
  (`accAt0`, by recursion on t): at the first column block of a row block,  0 ⊕ x0·x1  of that point's two input
  blocks; at every other column block,  s ⊕ x0·x1  with `s` what the point before left. The proof data say: each array as
  the region finds it; after the body each input's staging buffer still at its block, and the output's at the
  accumulator's contents (it is consulted only at the last column block of a row block, where the body stores the
  accumulator into it and the pipeline writes the block back; elsewhere the output window is idle and its buffer is
  handed back as found). The invariant before the first point is "the scoped buffers the region does not stage at
  anything, the generator register at some state"; before any later point the accumulator scratch is at what the
  point before left. Nothing is owed.
-/
import proofs.«126029_j60490319397131_1_alg».proof.Proof.K.Body0

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-- The accumulator scratch after point `n`. -/
def accAt0 (c : Dev nD) : (n : ℕ) → n < cfg0.N → Vec F S1024x128 .f32
  | 0, hn => k0_pay2 (k0_pay1 (F := F)) (iblk0 V c 0 ⟨0, hn⟩) (iblk0 V c 1 ⟨0, hn⟩)
  | n + 1, hn =>
    if (n + 1) % 8 = 0 then k0_pay2 (k0_pay1 (F := F)) (iblk0 V c 0 ⟨n + 1, hn⟩) (iblk0 V c 1 ⟨n + 1, hn⟩)
    else k0_pay2 (accAt0 c n (Nat.lt_of_succ_lt hn)) (iblk0 V c 0 ⟨n + 1, hn⟩) (iblk0 V c 1 ⟨n + 1, hn⟩)

/-- At the first column block of a row block the accumulator restarts from zero. -/
theorem accAt0_first (c : Dev nD) (t : Fin cfg0.N) (h : t.val % 8 = 0) :
    accAt0 V c t.val t.isLt = k0_pay2 (k0_pay1 (F := F)) (iblk0 V c 0 t) (iblk0 V c 1 t) := by
  obtain ⟨n, hn⟩ := t
  cases n with
  | zero => rfl
  | succ n => simp only [accAt0]; rw [if_pos h]

/-- At any other column block it adds to what the point before left. -/
theorem accAt0_next (c : Dev nD) (t : Fin cfg0.N) (h : t.val % 8 ≠ 0) :
    accAt0 V c t.val t.isLt = k0_pay2 (accAt0 V c (t.val - 1) (Nat.lt_of_le_of_lt (Nat.sub_le _ _) t.isLt)) (iblk0 V c 0 t) (iblk0 V c 1 t) := by
  obtain ⟨n, hn⟩ := t
  cases n with
  | zero => exact absurd rfl h
  | succ n => simp only [accAt0]; rw [if_neg h]; rfl

/-- The scoped buffers region 0 does not stage, the accumulator scratch apart: region 1's staging buffers and scratch,
    each at some contents. -/
abbrev rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_scratch0), ((c : Thread nD τ).loc cc1_scratch0) ↦{fullShare} f))

/-- The class invariant with the accumulator scratch split out as a memref owned at some contents. -/
theorem PhiA0_eq (c : Dev nD) :
    (Pipeline.ΦA spec0 c : sProp 𝕄) = iprop(((∃ d, owns (c : Thread nD τ) scM0 fullShare d) ∗ rest0 (F := F) c) ∗ (∃ r, prngReg c r)) := by
  unfold Pipeline.ΦA; rw [scopedRest0_eq]; simp only [scM0, owns_whole]; try rfl

/-- The region invariant before position `n`. -/
def Phi0 (c : Dev nD) : (n : ℕ) → n ≤ cfg0.N → sProp 𝕄
  | 0, _ => Pipeline.ΦA spec0 c
  | n + 1, hn => iprop((owns (c : Thread nD τ) scM0 fullShare (accAt0 V c n hn) ∗ rest0 (F := F) c) ∗ (∃ r, prngReg c r))

theorem Phi0_zero (c : Dev nD) (n : ℕ) (h : n ≤ cfg0.N) (hz : n = 0) : Phi0 V c n h = Pipeline.ΦA spec0 c := by
  subst hz; rfl
theorem Phi0_succ (c : Dev nD) (n : ℕ) (hn : n < cfg0.N) :
    Phi0 V c (n + 1) hn = iprop((owns (c : Thread nD τ) scM0 fullShare (accAt0 V c n hn) ∗ rest0 (F := F) c) ∗ (∃ r, prngReg c r)) := rfl
theorem Phi0_pos (c : Dev nD) (n : ℕ) (h : n ≤ cfg0.N) (hz : n ≠ 0) :
    Phi0 V c n h = iprop((owns (c : Thread nD τ) scM0 fullShare (accAt0 V c (n - 1) (by omega)) ∗ rest0 (F := F) c) ∗ (∃ r, prngReg c r)) := by
  cases n with
  | zero => exact absurd rfl hz
  | succ n => rfl

/-- Whatever the position, the invariant holds the accumulator scratch at SOME contents beside the rest. -/
theorem Phi0_some (c : Dev nD) (n : ℕ) (h : n ≤ cfg0.N) :
    Phi0 V c n h ⊢ (iprop(((∃ d, owns (c : Thread nD τ) scM0 fullShare d) ∗ rest0 (F := F) c) ∗ (∃ r, prngReg c r)) : sProp 𝕄) := by
  cases n with
  | zero => rw [Phi0_zero V c 0 h rfl, PhiA0_eq]
  | succ n =>
    rw [Phi0_succ]
    iintro ⟨⟨HS, HR⟩, Hg⟩
    isplitr [Hg]
    · isplitl [HS]; · iexists _; iexact HS
      iexact HR
    iexact Hg

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => accAt0 V c t.val t.isLt
  Φ t := Phi0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem Phi0_castSucc (c : Dev nD) (t : Fin cfg0.N) :
    (dat0 V c).Φ t.castSucc = Phi0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = accAt0 V c t.val t.isLt := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 2000000 in
/-- The body at any point, by which of the three cases the point is in (decided by t % 8). -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl,
    show (dat0 V c).Φ t.succ = Phi0 V c (t.val + 1) t.isLt from rfl, Phi0_succ, Phi0_castSucc,
    show (dat0 V c).leavesExact 0 t = owns (c : Thread nD τ) (ms0_0 t) fullShare ((dat0 V c).after 0 t) from by
      unfold Dat.leavesExact; rw [liveAt0_0 t],
    show (dat0 V c).leavesExact 1 t = owns (c : Thread nD τ) (ms0_1 t) fullShare ((dat0 V c).after 1 t) from by
      unfold Dat.leavesExact; rw [liveAt0_1 t],
    after0_0, after0_1]
  by_cases h1 : t.val % 8 = 7
  · -- the last column block of a row block
    have h0 : t.val % 8 ≠ 0 := by omega
    have hz : t.val ≠ 0 := fun e => by rw [e] at h0; exact h0 rfl
    rw [show (dat0 V c).leavesExact 2 t = owns (c : Thread nD τ) (ms0_2 t) fullShare ((dat0 V c).after 2 t) from by
      unfold Dat.leavesExact; rw [liveAt0_2 t ((hcond0_1 t).mpr h1)], after0_2, accAt0_next V c t h0, Phi0_pos V c _ _ hz]
    iintro ⟨⟨⟨HS, HR⟩, Hg⟩, Ho, ⟨%d0, H0⟩, ⟨%d1, H1⟩, ⟨%d2, H2⟩⟩
    iapply (kernel0_last c (grid0.coords t) _ _ _ _ _ _ scM0 (Memref.isWhole_whole _) (fun h => h0 ((hcond0_0 t).mp h)) ((hcond0_1 t).mpr h1) (iblk0 V c 0 t) (iblk0 V c 1 t) _ Set.univ _)
    isplitl [H0]; · iexact H0
    isplitl [H1]; · iexact H1
    isplitl [H2]; · iexists _; iexact H2
    isplitl [HS]; · iexact HS
    iintro ⟨H0, H1, H2, HS⟩
    isplitl [HS HR Hg]
    · isplitr [Hg]
      · isplitl [HS]; · iexact HS
        iexact HR
      iexact Hg
    isplitl [Ho]; · iexact Ho
    isplitl [H0]; · iexact H0
    isplitl [H1]; · iexact H1
    iexact H2
  · rw [Dat.leavesExact_idle (dat0 V c) 2 t (idleAt0_2 t (fun h => h1 ((hcond0_1 t).mp h))) (noFlush0_2 t (fun h => h1 ((hcond0_1 t).mp h)))]
    by_cases h0 : t.val % 8 = 0
    · -- the first column block of a row block
      rw [accAt0_first V c t h0]
      iintro ⟨HΦ, Ho, ⟨%d0, H0⟩, ⟨%d1, H1⟩, ⟨%d2, H2⟩⟩
      ihave HΦ' := (Phi0_some V c t.val (Nat.le_of_lt t.isLt)) $$ HΦ
      icases HΦ' with ⟨⟨HS, HR⟩, Hg⟩
      iapply (kernel0_first c (grid0.coords t) _ _ _ _ _ _ scM0 (Memref.isWhole_whole _) ((hcond0_0 t).mpr h0) (fun h => h1 ((hcond0_1 t).mp h)) (iblk0 V c 0 t) (iblk0 V c 1 t) _ Set.univ _)
      isplitl [H0]; · iexact H0
      isplitl [H1]; · iexact H1
      isplitl [H2]; · iexact H2
      isplitl [HS]; · iexact HS
      iintro ⟨H0, H1, H2, HS⟩
      isplitl [HS HR Hg]
      · isplitr [Hg]
        · isplitl [HS]; · iexact HS
          iexact HR
        iexact Hg
      isplitl [Ho]; · iexact Ho
      isplitl [H0]; · iexact H0
      isplitl [H1]; · iexact H1
      iexists d2; iexact H2
    · -- an inner column block
      have hz : t.val ≠ 0 := fun e => by rw [e] at h0; exact h0 rfl
      rw [accAt0_next V c t h0, Phi0_pos V c _ _ hz]
      iintro ⟨⟨⟨HS, HR⟩, Hg⟩, Ho, ⟨%d0, H0⟩, ⟨%d1, H1⟩, ⟨%d2, H2⟩⟩
      iapply (kernel0_inner c (grid0.coords t) _ _ _ _ _ _ scM0 (Memref.isWhole_whole _) (fun h => h0 ((hcond0_0 t).mp h)) (fun h => h1 ((hcond0_1 t).mp h)) (iblk0 V c 0 t) (iblk0 V c 1 t) _ _ Set.univ _)
      isplitl [H0]; · iexact H0
      isplitl [H1]; · iexact H1
      isplitl [H2]; · iexact H2
      isplitl [HS]; · iexact HS
      iintro ⟨H0, H1, H2, HS⟩
      isplitl [HS HR Hg]
      · isplitr [Hg]
        · isplitl [HS]; · iexact HS
          iexact HR
        iexact Hg
      isplitl [Ho]; · iexact Ho
      isplitl [H0]; · iexact H0
      isplitl [H1]; · iexact H1
      iexists d2; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.K.Body1.lean ====
/-
  Region 1's kernel body, run once on any whole staging memrefs and scratch (the one-point grid: first and last column
  block at once). From the left block `x0`, the right block `x1`, the output buffer and the scratch at anything: the
  scratch is zeroed, the product `x0 · x1` (into a zero accumulator) is added to it, and the sum is stored back into
  the scratch and into the output buffer. So both end holding  0 + x0 · x1,  spelled with the body's own payload terms
  `k1_pay2 k1_pay1 x0 x1`; the input buffers end as they began.
-/
import proofs.«126029_j60490319397131_1_alg».proof.Proof.K.Shared

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
theorem kernel1 (c : Dev nD) (i : grid1.Coords)
    (arg2 : Memref sig .tc .vmem S1024x4096 .bf16) (harg2 : arg2.IsWhole) (arg3 : Memref sig .tc .vmem S4096x128 .bf16) (harg3 : arg3.IsWhole)
    (arg4 : Memref sig .tc .vmem S1024x128 .f32) (harg4 : arg4.IsWhole) (arg5 : Memref sig .tc .vmem S1024x128 .f32) (harg5 : arg5.IsWhole)
    (hc0 : cond1_0 i) (hc1 : cond1_1 i)
    (x0 : Vec F S1024x4096 .bf16) (x1 : Vec F S4096x128 .bf16) (E : Set ℕ) (K : PUnit → sProp 𝕄) :
    iprop(owns (c : Thread nD τ) arg2 fullShare x0 ∗ owns (c : Thread nD τ) arg3 fullShare x1
        ∗ (∃ d, owns (c : Thread nD τ) arg4 fullShare d) ∗ (∃ d, owns (c : Thread nD τ) arg5 fullShare d)
        ∗ (iprop(owns (c : Thread nD τ) arg2 fullShare x0 ∗ owns (c : Thread nD τ) arg3 fullShare x1
            ∗ owns (c : Thread nD τ) arg4 fullShare (k1_pay2 (k1_pay1 (F := F)) x0 x1)
            ∗ owns (c : Thread nD τ) arg5 fullShare (k1_pay2 (k1_pay1 (F := F)) x0 x1)) -∗ K ⟨⟩))
      ⊢ wp frame (wpE (defs₀ (F := F)) Variants.none c none) E (cc1__diffusion_matmul_kernel i arg2 harg2 arg3 harg3 arg4 harg4 arg5 harg5) K := by
  simp only [cc1__diffusion_matmul_kernel_eq_skeleton]; unfold cc1__diffusion_matmul_kernel_skel
  unfold owns
  iintro ⟨⟨%f0, %hf0, H0⟩, ⟨%f1, %hf1, H1⟩, ⟨%d4, %f4, %hf4, H4⟩, ⟨%d5, %f5, %hf5, H5⟩, Hk⟩
  obtain rfl := harg2.eq_unread hf0; obtain rfl := harg3.eq_unread hf1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H4]
  · iexists _; isplitr
    swap; · iexact H4
    ipureintro
    rw [View.read_writes_eq_canon _ _ _ (fun y => ⟨_, List.mem_singleton_self _, View.mem_set_unit_zero hz2 Cert.Kernel.Gen.inb_S1024x128_S1024x128_0_0 y⟩), View.canon_unit_zero hz2]
    sl_unfold_words
    simp only [View.readAt_eq_ld, harg2.read_unread, harg3.read_unread, View.ld_unit_zero (S := S1024x4096) hz2, View.ld_unit_zero (S := S4096x128) hz2, View.ld_unit_zero (S := S1024x128) hz2, View.readCov_unit_zero (S := S1024x128) _ hz2]
    rw [View.readCov_eq_canon_ld _ _ _ (fun y => ⟨_, List.mem_cons_self, View.mem_set_unit_zero hz2 Cert.Kernel.Gen.inb_S1024x128_S1024x128_0_0 y⟩), View.canon_cons_unit_zero hz2, View.ld_unit_zero hz2]
  · iexists _; isplitr
    swap; · iexact H5
    ipureintro
    sl_unfold_words
    rw [View.read_writes_eq_canon _ _ _ (fun y => ⟨_, List.mem_cons_self, View.mem_set_unit_zero hz2 Cert.Kernel.Gen.inb_S1024x128_S1024x128_0_0 y⟩), View.canon_cons_unit_zero hz2]
    simp only [View.readAt_eq_ld, harg2.read_unread, harg3.read_unread, View.ld_unit_zero (S := S1024x4096) hz2, View.ld_unit_zero (S := S4096x128) hz2, View.ld_unit_zero (S := S1024x128) hz2, View.readCov_unit_zero (S := S1024x128) _ hz2]

end Cert.Kernel.Hand

end
-- ==== Proof.K.Dat1.lean ====
/-
  Region 1's proof data and body obligation.

  The region has one grid point. Its proof data say: each array as the region finds it; after the body each input's
  staging buffer still at its block and the output's at  0 ⊕ x0·x1  of the two input blocks (`out1`); the invariant is
  "the scoped buffers the region does not stage, the accumulator scratch among them, at anything, and the generator
  register at some state" before and after the point, since nothing later reads the scratch; nothing is owed.
-/
import proofs.«126029_j60490319397131_1_alg».proof.Proof.K.Body1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-- What the one point leaves in the output's staging buffer: the product of the two input blocks added to zero. -/
def out1 (c : Dev nD) (t : Fin cfg1.N) : Vec F S1024x128 .f32 :=
  k1_pay2 (k1_pay1 (F := F)) (iblk1 V c 0 t) (iblk1 V c 1 t)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1 V c t
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1 V c t := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 1000000 in
/-- The body at the point: the inputs' buffers hold their blocks, the output's buffer anything; the accumulator scratch
    is taken out of the scoped rest at anything and put back at what the body leaves. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl,
    show (dat1 V c).Φ t.succ = Pipeline.ΦA spec1 c from rfl, show (dat1 V c).Φ t.castSucc = Pipeline.ΦA spec1 c from rfl,
    show (dat1 V c).leavesExact 0 t = owns (c : Thread nD τ) (ms1_0 t) fullShare ((dat1 V c).after 0 t) from by
      unfold Dat.leavesExact; rw [liveAt1_0 t],
    show (dat1 V c).leavesExact 1 t = owns (c : Thread nD τ) (ms1_1 t) fullShare ((dat1 V c).after 1 t) from by
      unfold Dat.leavesExact; rw [liveAt1_1 t],
    show (dat1 V c).leavesExact 2 t = owns (c : Thread nD τ) (ms1_2 t) fullShare ((dat1 V c).after 2 t) from by
      unfold Dat.leavesExact; rw [liveAt1_2 t],
    after1_0, after1_1, after1_2]
  unfold Pipeline.ΦA; rw [scopedRest1_eq]
  iintro ⟨⟨⟨R1, R2, R3, R4, R5, R6, R7, ⟨%fs, HS⟩⟩, Hg⟩, Ho, ⟨%d0, H0⟩, ⟨%d1, H1⟩, ⟨%d2, H2⟩⟩
  iapply (kernel1 c (grid1.coords t) _ _ _ _ _ _ scM1 (Memref.isWhole_whole _) (hcond1_0 t) (hcond1_1 t) (iblk1 V c 0 t) (iblk1 V c 1 t) Set.univ _)
  isplitl [H0]; · iexact H0
  isplitl [H1]; · iexact H1
  isplitl [H2]; · iexists _; iexact H2
  isplitl [HS]
  · iexists fs; rw [owns_whole]; iexact HS
  iintro ⟨H0, H1, H2, HS⟩
  isplitl [R1 R2 R3 R4 R5 R6 R7 HS Hg]
  · isplitr [Hg]
    · isplitl [R1]; · iexact R1
      isplitl [R2]; · iexact R2
      isplitl [R3]; · iexact R3
      isplitl [R4]; · iexact R4
      isplitl [R5]; · iexact R5
      isplitl [R6]; · iexact R6
      isplitl [R7]; · iexact R7
      iexists _; rw [← owns_whole (Val := Elt F) (c : Thread nD τ) cc1_scratch0 fullShare]; iexact HS
    iexact Hg
  isplitl [Ho]; · iexact Ho
  isplitl [H0]; · iexact H0
  isplitl [H1]; · iexact H1
  unfold out1; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.Kernel.Hand

end
-- ==== Proof.K.Launch.lean ====
/-
  The two kernel regions as segments of @main.

  Between two items of @main a core holds every unscoped buffer at a known valuation: the launch contents, then each
  host stretch applied (the generated `V0 … V17`), a region changing only its output array. What region 0 leaves in its
  output array is what its pipeline's write-backs leave (`Dat.arrAt` at the last point) — `X0` is the entry valuation
  with the region's arrays at those contents — and likewise `X1` for region 1, entered from the valuation seven host
  stretches after `X0`. `outs` hands these two arrays to the generated valuations. Each region's record then says: its
  arrays are split out of the unscoped buffers at the entry valuation and put back at the exit valuation; the
  generator register goes into the region invariant and comes back; the accumulator scratch is taken from the scoped
  buffers at anything and returned at whatever the last point left; nothing is owed and the kernel has no semaphore
  of its own.
-/
import proofs.«126029_j60490319397131_1_alg».proof.Proof.K.Dat0
import proofs.«126029_j60490319397131_1_alg».proof.Proof.K.Dat1
import proofs.«126029_j60490319397131_1_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The buffer contents at the regions' boundaries -/

/-- Region 0's entry contents, read at the TensorCore's references. -/
abbrev E0 : (c : Dev nD) → (b : Ref sig .tc) → Buf (Elt F) ((c : Thread nD τ).loc b) := fun c b => V5 m c b
/-- At region 0's exit: its arrays at what the pipeline leaves, every other buffer as entered. -/
def X0 (c : Dev nD) : Valuation τ sig (Elt F) :=
  Pipeline.withArrays spec0 c (V5 m c) fun w => (dat0 (E0 m) c).arrAt w cfg0.N
theorem X0_arr (c : Dev nD) (w : Fin cfg0.W) :
    X0 m c (Proc.devRef .tc (Pipeline.arrRef spec0 w)) = (dat0 (E0 m) c).arrAt w cfg0.N := by
  unfold X0; exact Pipeline.withArrays_arr spec0 launch0.win.arr_inj c _ _ w
/-- What region 0 leaves, as the generated valuations take it (they read it at `main_v25` only). -/
def outs0 : Outs (F := F) := fun _ r c => X0 m c r

/-- Region 1's entry contents. -/
abbrev E1 : (c : Dev nD) → (b : Ref sig .tc) → Buf (Elt F) ((c : Thread nD τ).loc b) := fun c b => V13 m (outs0 m) c b
/-- At region 1's exit. -/
def X1 (c : Dev nD) : Valuation τ sig (Elt F) :=
  Pipeline.withArrays spec1 c (V13 m (outs0 m) c) fun w => (dat1 (E1 m) c).arrAt w cfg1.N
theorem X1_arr (c : Dev nD) (w : Fin cfg1.W) :
    X1 m c (Proc.devRef .tc (Pipeline.arrRef spec1 w)) = (dat1 (E1 m) c).arrAt w cfg1.N := by
  unfold X1; exact Pipeline.withArrays_arr spec1 launch1.win.arr_inj c _ _ w

/-- What the two regions leave: after item 13 region 1's, before it region 0's. -/
def outs : Outs (F := F) := fun n r c => if n = 14 then X1 m c r else X0 m c r

theorem outs_6 (r : Ref sig .tc) (c : Dev nD) : outs m 6 r c = X0 m c r := if_neg (by decide)
theorem outs_14 (r : Ref sig .tc) (c : Dev nD) : outs m 14 r c = X1 m c r := if_pos rfl
/-- Up to region 1 the valuations read only what region 0 left. -/
theorem V13_outs (c : Dev nD) : V13 m (outs m) c = V13 m (outs0 m) c := rfl

/-- Region 0's exit valuation at its arrays and elsewhere. -/
theorem hF0 (c : Dev nD) (w : Fin cfg0.W) : (dat0 (E0 m) c).arrAt w cfg0.N = V6 m (outs m) c (Pipeline.arrRef spec0 w) :=
  match w with
  | ⟨0, _⟩ => ((dat0 (E0 m) c).arrAt_in 0 rfl _).trans (((A_eq0 (E0 m) c 0)).trans (V6_of m (outs m) c main_v23 (by decide)).symm)
  | ⟨1, _⟩ => ((dat0 (E0 m) c).arrAt_in 1 rfl _).trans (((A_eq0 (E0 m) c 1)).trans (V6_of m (outs m) c main_v24 (by decide)).symm)
  | ⟨2, _⟩ => by
    show _ = Function.update (V5 m c) (Proc.devRef .tc main_v25) (outs m 6 main_v25 c) (Proc.devRef .tc main_v25)
    rw [Function.update_self, outs_6]; exact (X0_arr m c 2).symm
theorem hrest0 (c : Dev nD) : ∀ b, b ∉ Finset.univ.image (Pipeline.arrRef spec0) → V6 m (outs m) c b = V5 m c b :=
  fun b hb => V6_of m (outs m) c b (by
    intro h; rw [List.mem_singleton] at h; subst h
    exact hb (Finset.mem_image.mpr ⟨2, Finset.mem_univ _, rfl⟩))

/-- Region 1's exit valuation at its arrays and elsewhere. -/
theorem hF1 (c : Dev nD) (w : Fin cfg1.W) : (dat1 (E1 m) c).arrAt w cfg1.N = V14 m (outs m) c (Pipeline.arrRef spec1 w) :=
  match w with
  | ⟨0, _⟩ => ((dat1 (E1 m) c).arrAt_in 0 rfl _).trans (((A_eq1 (E1 m) c 0)).trans (V14_of m (outs m) c main_v45 (by decide)).symm)
  | ⟨1, _⟩ => ((dat1 (E1 m) c).arrAt_in 1 rfl _).trans (((A_eq1 (E1 m) c 1)).trans (V14_of m (outs m) c main_v46 (by decide)).symm)
  | ⟨2, _⟩ => by
    show _ = Function.update (V13 m (outs m) c) (Proc.devRef .tc main_v47) (outs m 14 main_v47 c) (Proc.devRef .tc main_v47)
    rw [Function.update_self, outs_14]; exact (X1_arr m c 2).symm
theorem hrest1 (c : Dev nD) : ∀ b, b ∉ Finset.univ.image (Pipeline.arrRef spec1) → V14 m (outs m) c b = V13 m (outs m) c b :=
  fun b hb => V14_of m (outs m) c b (by
    intro h; rw [List.mem_singleton] at h; subst h
    exact hb (Finset.mem_image.mpr ⟨2, Finset.mem_univ _, rfl⟩))

/-! ## The proof data family and what rides beside the buffers -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (E0 m) c
  | ⟨1, _⟩ => fun c => dat1 (E1 m) c
abbrev 𝒱₀ : Variants := Variants.none
abbrev L : GSem nD τ sig → Finset Unit := fun _ => ∅
abbrev lv : GSem nD τ sig → Unit → ℕ := fun _ _ => 0
/-- Beside the buffers through every item: the core's generator register at some state and its `owes`, at nothing. -/
abbrev R (c : Dev nD) : sProp 𝕄 := iprop((∃ r, prngReg c r) ∗ ∃ W, owes (c : Thread nD τ) (0 : CellTallies nD τ sig Unit) W)
/-- The same beside every item. -/
abbrev ER : Fin 3 → Dev nD → sProp 𝕄 := fun _ c => R c

/-! ## The regions as segments -/

set_option backward.isDefEq.respectTransparency.types false in
/-- Region 0, entered from every unscoped buffer at `V5`, left at `V6`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ L lv 0 fun _ _ => rfl
  pre c := iprop(StableHlo.held (c : Thread nD τ) (Pipeline.ucRefs τ sig) (V5 m c) ∗ R c)
  post c := iprop(StableHlo.held (c : Thread nD τ) (Pipeline.ucRefs τ sig) (V6 m (outs m) c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    have h1 : (pdats m 0 c).Φ (Fin.last _) ⊢ (Pipeline.ΦA spec0 c : sProp 𝕄) := by
      rw [PhiA0_eq]
      show Phi0 (E0 m) c (Fin.last cfg0.N).val (Nat.le_of_lt_succ (Fin.last cfg0.N).isLt) ⊢ _
      exact Phi0_some (E0 m) c _ _
    refine h1.trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (fun b => V6 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1, entered from every unscoped buffer at `V13`, left at `V14`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E1 m) c).loose
  hwaits := Pipeline.hwaits_of_owed_zero _ _ _ _ L lv 1 fun _ _ => rfl
  pre c := iprop(StableHlo.held (c : Thread nD τ) (Pipeline.ucRefs τ sig) (V13 m (outs0 m) c) ∗ R c)
  post c := iprop(StableHlo.held (c : Thread nD τ) (Pipeline.ucRefs τ sig) (V14 m (outs m) c) ∗ R c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E1 m c) (fun b => V14 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Run.lean ====
/-
  The run of @main: the launch, seventeen items (host stretches and the two kernel regions), the return.

  Every weakly fair execution from memory `m` with zero counters terminates, nothing faulting, and at the end every
  unscoped buffer of every core holds the last valuation `V17` — the host stretches applied in order to the launch
  contents, the two regions' output arrays at what their pipelines' write-backs leave. The frame (each argument array
  ends as launched: no item writes one) is read off that valuation at the arguments; the value of @main's result is
  read off it at the result's buffer.
-/
import proofs.«126029_j60490319397131_1_alg».proof.Proof.K.Launch

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ) (ρ : Dev nD → PrngReg)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN, with every unscoped buffer read at the end. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = V17 m (outs m) c b) := by
  refine Pipeline.θ_run_regions_kit_dev (pcfgs (F := F)) adm (pdats m) () cellOf_inj emb₁ defs₀ 𝒱₀ L lv m ρ main
    (segs m (outs m) 𝒱₀ L lv (ER (F := F)) () (pdats m) (reg0 m) (reg1 m))
    (fun c Q => by
      rewrite [main_chain c, Seg.run_eq_chain,
        show (segs m (outs m) 𝒱₀ L lv (ER (F := F)) () (pdats m) (reg0 m) (reg1 m) c).map Seg.prog = [
          StableHlo.seq hostOps0,
          StableHlo.seq hostOps0_1,
          StableHlo.seq hostOps0_2,
          StableHlo.seq hostOps0_3,
          StableHlo.seq hostOps0_4,
          Prog.lift (.customCall (Pipeline.entry 0) ()),
          StableHlo.seq hostOps1,
          StableHlo.seq hostOps1_1,
          StableHlo.seq hostOps1_2,
          StableHlo.seq hostOps1_3,
          StableHlo.seq hostOps1_4,
          StableHlo.seq hostOps1_5,
          StableHlo.seq hostOps1_6,
          Prog.lift (.customCall (Pipeline.entry 1) ()),
          StableHlo.seq hostOps2,
          StableHlo.seq hostOps2_1,
          StableHlo.seq hostOps2_2 ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => StableHlo.held (c : Thread nD τ) (Pipeline.ucRefs τ sig) (V17 m (outs m) c))
    (hch := fun c => ⟨.rfl, .rfl, .rfl, .rfl, .rfl, .rfl, .rfl, .rfl, .rfl, .rfl, .rfl, .rfl, .rfl, .rfl, .rfl, .rfl, .rfl,
      sep_mono .rfl (by iintro ⟨-, H⟩; iexact H)⟩)
    (hinit := ?_)
    (QY := fun c s => ∀ b ∈ Pipeline.ucRefs τ sig, s.mem (((c : Thread nD τ)).1, b) = V17 m (outs m) c b)
    (hfin := fun c s' => ?_) (hQ := fun _ h => h)
  · -- the launch: every core's unscoped buffers are held at the launch contents; the generator register and the
    -- core's `owes`, at nothing, ride along
    refine Pipeline.initEach L lv fun c => ?_
    rw [show unscopedBufs c (fun b => m ((c : Thread nD τ).loc b)) = StableHlo.held (c : Thread nD τ) (Pipeline.ucRefs τ sig) (V0 m c)
      from Pipeline.unscopedBufs_held c (V0 m c)]
    iintro ⟨⟨Hh, -, HO, -, Hp, -⟩, -⟩
    imodintro
    isplitl [Hh]; · iexact Hh
    isplitl [Hp]; · iexists _; iexact Hp
    iexists ∅; iexact HO
  · -- the end: every unscoped buffer read against the final state
    iintro ⟨Hh, HSI⟩
    unfold StableHlo.held
    imodintro
    iapply (pointsTo_read_all (Pipeline.ucRefs τ sig) (fun b => (((c : Thread nD τ)).1, b)) (V17 m (outs m) c) s')
    isplitl [Hh] <;> iassumption

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨(h c _ (mem_uc main_arg0 (by decide))).trans (V17_main_arg0 m (outs m) c),
      (h c _ (mem_uc main_arg1 (by decide))).trans (V17_main_arg1 m (outs m) c),
      (h c _ (mem_uc main_arg2 (by decide))).trans (V17_main_arg2 m (outs m) c),
      (h c _ (mem_uc main_arg3 (by decide))).trans (V17_main_arg3 m (outs m) c),
      (h c _ (mem_uc main_arg4 (by decide))).trans (V17_main_arg4 m (outs m) c),
      (h c _ (mem_uc main_arg5 (by decide))).trans (V17_main_arg5 m (outs m) c),
      (h c _ (mem_uc main_arg6 (by decide))).trans (V17_main_arg6 m (outs m) c),
      (h c _ (mem_uc main_arg7 (by decide))).trans (V17_main_arg7 m (outs m) c),
      (h c _ (mem_uc main_arg8 (by decide))).trans (V17_main_arg8 m (outs m) c),
      (h c _ (mem_uc main_arg9 (by decide))).trans (V17_main_arg9 m (outs m) c),
      (h c _ (mem_uc main_arg10 (by decide))).trans (V17_main_arg10 m (outs m) c)⟩) (run_all m ρ)

end Cert.Kernel.Hand

end
-- ==== Proof.KI.Shared.lean ====
/-
  What both kernel regions' frame proofs are stated over.

  The program launches one K-blocked matrix product twice. Region 0 runs it on a 4 x 8 grid (row block i, column
  block k of the left factor): at k = 0 the accumulator scratch is reset to zero, at every point the product of the
  left factor's block (i, k) with the right factor's block k is added to it, and at k = 7 the accumulator is stored
  into the output's block i. Region 1 runs it on the one-point grid, where all three steps happen at the one point.

  Here: the two branch conditions of each body as conditions on the linear point number (point t of region 0 is
  (i, k) = (t / 8, t % 8)); where the output window is idle and where it is written back; each window's block read
  off the array as the region finds it; that an input window's staging buffer holds that block at every point; and
  the buffers a region does not stage, listed one by one.
-/
import proofs.«126029_j60490319397131_1_alg».proof.Proof.Gen.KernelIdeal.Launch
import proofs.«126029_j60490319397131_1_alg».proof.Proof.Gen.KernelIdeal.Skeleton
import proofs.«126029_j60490319397131_1_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Pipeline.RegionsLoop
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The zero offsets of a rank-2 access, however spelt. -/
theorem hz2 : (![0, 0] : Fin 2 → ℕ) = fun _ => 0 := by funext a; fin_cases a <;> rfl

/-! ## Region 0: the branch conditions over the grid -/

/-- "This is the first column block" (k = 0): the accumulator is reset. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

/-- "This is the last column block" (k = 7): the accumulator is stored into the output block. -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-- The inputs are never idle; the output is idle exactly away from the last column block, and it is written back
    exactly at the last column block. -/
theorem liveAt0_0 : ∀ t : Fin cfg0.N, cfg0.idle 0 (grid0.coords t) = false := by decide +kernel
theorem liveAt0_1 : ∀ t : Fin cfg0.N, cfg0.idle 1 (grid0.coords t) = false := by decide +kernel
theorem idleAt0_2 : ∀ t : Fin cfg0.N, ¬cond0_1 (grid0.coords t) → cfg0.idle 2 (grid0.coords t) = true := by decide +kernel
theorem liveAt0_2 : ∀ t : Fin cfg0.N, cond0_1 (grid0.coords t) → cfg0.idle 2 (grid0.coords t) = false := by decide +kernel
theorem noFlush0_2 : ∀ t : Fin cfg0.N, ¬cond0_1 (grid0.coords t) → (cfg0.win 2).flush t = false := by decide +kernel

/-- Each window's current staging memref at point `t`, as the pipeline passes it to the body, and the scratch. -/
abbrev ms0_0 (t : Fin cfg0.N) : Memref sig .tc .vmem S1024x5120 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S5120x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x128 .f32 := win0_2.stage (cfg0.slots t 2)
abbrev hs0_2 (t : Fin cfg0.N) : (ms0_2 t).IsWhole := hstage0_2 ((cfg0.slots t 2).cast nbuf0_2)
abbrev scM0 : Memref sig .tc .vmem S1024x128 .f32 := Memref.whole cc0_scratch0

/-! ## Region 1: the one point -/

abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) := by decide +kernel
abbrev cond1_1 (i : grid1.Coords) : Prop := k1_cond2 i = 1#1
theorem hcond1_1 : ∀ t : Fin cfg1.N, cond1_1 (grid1.coords t) := by decide +kernel
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel

abbrev ms1_0 (t : Fin cfg1.N) : Memref sig .tc .vmem S1024x4096 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S4096x128 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x128 .f32 := win1_2.stage (cfg1.slots t 2)
abbrev hs1_2 (t : Fin cfg1.N) : (ms1_2 t).IsWhole := hstage1_2 ((cfg1.slots t 2).cast nbuf1_2)
abbrev scM1 : Memref sig .tc .vmem S1024x128 .f32 := Memref.whole cc1_scratch0

/-! ## The windows' blocks, read off the arrays as a region finds them -/

section Blocks
variable (V : (c : Dev nD) → (b : Ref sig .tc) → Buf (Elt F) ((c : Thread nD τ).loc b))

/-- Region 0, window `w`'s block at point `t`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))
/-- Region 1, window `w`'s block at point `t`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point (it is fetched at every point), for any
    proof data whose array is the region-entry contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

end Blocks

end Cert.KernelIdeal.Hand

end
-- ==== Proof.KI.Body0.lean ====
/-
  Region 0's kernel body, run once on any whole staging memrefs and scratch, in each of the three cases the 4 x 8 grid
  meets. Write `x0` for the left factor's block, `x1` for the right factor's block, `s` for what the accumulator scratch
  holds when the point begins, and  s ⊕ x0·x1  for the body's own term `k0_pay2 s x0 x1` (the product into a zero
  accumulator, added to `s`).
  * first column block (k = 0), not the last: the scratch, at anything, is zeroed and ends at  0 ⊕ x0·x1  (`k0_pay1` is
    the zero block); the output buffer is not touched.
  * an inner column block: the scratch ends at  s ⊕ x0·x1 ; the output buffer is not touched.
  * last column block (k = 7), not the first: the scratch ends at  s ⊕ x0·x1  and the same is stored into the output
    buffer, whatever it held.
  The input buffers end as they began.
-/
import proofs.«126029_j60490319397131_1_alg».proof.Proof.KI.Shared

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- First column block: reset, then accumulate. -/
theorem kernel0_first (c : Dev nD) (i : grid0.Coords)
    (arg2 : Memref sig .tc .vmem S1024x5120 .bf16) (harg2 : arg2.IsWhole) (arg3 : Memref sig .tc .vmem S5120x128 .bf16) (harg3 : arg3.IsWhole)
    (arg4 : Memref sig .tc .vmem S1024x128 .f32) (harg4 : arg4.IsWhole) (arg5 : Memref sig .tc .vmem S1024x128 .f32) (harg5 : arg5.IsWhole)
    (hc0 : cond0_0 i) (hc1 : ¬cond0_1 i)
    (x0 : Vec F S1024x5120 .bf16) (x1 : Vec F S5120x128 .bf16) (xo : Vec F S1024x128 .f32) (E : Set ℕ) (K : PUnit → sProp 𝕄) :
    iprop(owns (c : Thread nD τ) arg2 fullShare x0 ∗ owns (c : Thread nD τ) arg3 fullShare x1
        ∗ owns (c : Thread nD τ) arg4 fullShare xo ∗ (∃ d, owns (c : Thread nD τ) arg5 fullShare d)
        ∗ (iprop(owns (c : Thread nD τ) arg2 fullShare x0 ∗ owns (c : Thread nD τ) arg3 fullShare x1
            ∗ owns (c : Thread nD τ) arg4 fullShare xo
            ∗ owns (c : Thread nD τ) arg5 fullShare (k0_pay2 (k0_pay1 (F := F)) x0 x1)) -∗ K ⟨⟩))
      ⊢ wp frame (wpE (defs₀ (F := F)) Variants.none c none) E (cc0__diffusion_matmul_kernel i arg2 harg2 arg3 harg3 arg4 harg4 arg5 harg5) K := by
  simp only [cc0__diffusion_matmul_kernel_eq_skeleton]; unfold cc0__diffusion_matmul_kernel_skel
  unfold owns
  iintro ⟨⟨%f0, %hf0, H0⟩, ⟨%f1, %hf1, H1⟩, ⟨%f4, %hf4, H4⟩, ⟨%d5, %f5, %hf5, H5⟩, Hk⟩
  obtain rfl := harg2.eq_unread hf0; obtain rfl := harg3.eq_unread hf1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H4]
  · iexists _; isplitr; · ipureintro; exact hf4
    iexact H4
  · iexists _; isplitr
    swap; · iexact H5
    ipureintro
    sl_unfold_words
    rw [View.read_writes_eq_canon _ _ _ (fun y => ⟨_, List.mem_cons_self, View.mem_set_unit_zero hz2 Cert.KernelIdeal.Gen.inb_S1024x128_S1024x128_0_0 y⟩), View.canon_cons_unit_zero hz2]
    simp only [View.readAt_eq_ld, harg2.read_unread, harg3.read_unread, harg5.read_unread, View.ld_unit_zero (S := S1024x5120) hz2, View.ld_unit_zero (S := S5120x128) hz2, View.ld_unit_zero (S := S1024x128) hz2, View.readCov_unit_zero (S := S1024x128) _ hz2]

set_option maxHeartbeats 1000000 in
/-- An inner column block: accumulate. -/
theorem kernel0_inner (c : Dev nD) (i : grid0.Coords)
    (arg2 : Memref sig .tc .vmem S1024x5120 .bf16) (harg2 : arg2.IsWhole) (arg3 : Memref sig .tc .vmem S5120x128 .bf16) (harg3 : arg3.IsWhole)
    (arg4 : Memref sig .tc .vmem S1024x128 .f32) (harg4 : arg4.IsWhole) (arg5 : Memref sig .tc .vmem S1024x128 .f32) (harg5 : arg5.IsWhole)
    (hc0 : ¬cond0_0 i) (hc1 : ¬cond0_1 i)
    (x0 : Vec F S1024x5120 .bf16) (x1 : Vec F S5120x128 .bf16) (xo : Vec F S1024x128 .f32) (s : Vec F S1024x128 .f32) (E : Set ℕ) (K : PUnit → sProp 𝕄) :
    iprop(owns (c : Thread nD τ) arg2 fullShare x0 ∗ owns (c : Thread nD τ) arg3 fullShare x1
        ∗ owns (c : Thread nD τ) arg4 fullShare xo ∗ owns (c : Thread nD τ) arg5 fullShare s
        ∗ (iprop(owns (c : Thread nD τ) arg2 fullShare x0 ∗ owns (c : Thread nD τ) arg3 fullShare x1
            ∗ owns (c : Thread nD τ) arg4 fullShare xo
            ∗ owns (c : Thread nD τ) arg5 fullShare (k0_pay2 s x0 x1)) -∗ K ⟨⟩))
      ⊢ wp frame (wpE (defs₀ (F := F)) Variants.none c none) E (cc0__diffusion_matmul_kernel i arg2 harg2 arg3 harg3 arg4 harg4 arg5 harg5) K := by
  simp only [cc0__diffusion_matmul_kernel_eq_skeleton]; unfold cc0__diffusion_matmul_kernel_skel
  unfold owns
  iintro ⟨⟨%f0, %hf0, H0⟩, ⟨%f1, %hf1, H1⟩, ⟨%f4, %hf4, H4⟩, ⟨%f5, %hf5, H5⟩, Hk⟩
  obtain rfl := harg2.eq_unread hf0; obtain rfl := harg3.eq_unread hf1; obtain rfl := harg5.eq_unread hf5
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H4]
  · iexists _; isplitr; · ipureintro; exact hf4
    iexact H4
  · iexists _; isplitr
    swap; · iexact H5
    ipureintro
    sl_unfold_words
    rw [View.read_writes_eq_canon _ _ _ (fun y => ⟨_, List.mem_cons_self, View.mem_set_unit_zero hz2 Cert.KernelIdeal.Gen.inb_S1024x128_S1024x128_0_0 y⟩), View.canon_cons_unit_zero hz2]
    simp only [View.readAt_eq_ld, harg2.read_unread, harg3.read_unread, harg5.read_unread, View.ld_unit_zero (S := S1024x5120) hz2, View.ld_unit_zero (S := S5120x128) hz2, View.ld_unit_zero (S := S1024x128) hz2, View.readCov_unit_zero (S := S1024x128) _ hz2]

set_option maxHeartbeats 1000000 in
/-- Last column block: accumulate, then store the accumulator into the output buffer. -/
theorem kernel0_last (c : Dev nD) (i : grid0.Coords)
    (arg2 : Memref sig .tc .vmem S1024x5120 .bf16) (harg2 : arg2.IsWhole) (arg3 : Memref sig .tc .vmem S5120x128 .bf16) (harg3 : arg3.IsWhole)
    (arg4 : Memref sig .tc .vmem S1024x128 .f32) (harg4 : arg4.IsWhole) (arg5 : Memref sig .tc .vmem S1024x128 .f32) (harg5 : arg5.IsWhole)
    (hc0 : ¬cond0_0 i) (hc1 : cond0_1 i)
    (x0 : Vec F S1024x5120 .bf16) (x1 : Vec F S5120x128 .bf16) (s : Vec F S1024x128 .f32) (E : Set ℕ) (K : PUnit → sProp 𝕄) :
    iprop(owns (c : Thread nD τ) arg2 fullShare x0 ∗ owns (c : Thread nD τ) arg3 fullShare x1
        ∗ (∃ d, owns (c : Thread nD τ) arg4 fullShare d) ∗ owns (c : Thread nD τ) arg5 fullShare s
        ∗ (iprop(owns (c : Thread nD τ) arg2 fullShare x0 ∗ owns (c : Thread nD τ) arg3 fullShare x1
            ∗ owns (c : Thread nD τ) arg4 fullShare (k0_pay2 s x0 x1)
            ∗ owns (c : Thread nD τ) arg5 fullShare (k0_pay2 s x0 x1)) -∗ K ⟨⟩))
      ⊢ wp frame (wpE (defs₀ (F := F)) Variants.none c none) E (cc0__diffusion_matmul_kernel i arg2 harg2 arg3 harg3 arg4 harg4 arg5 harg5) K := by
  simp only [cc0__diffusion_matmul_kernel_eq_skeleton]; unfold cc0__diffusion_matmul_kernel_skel
  unfold owns
  iintro ⟨⟨%f0, %hf0, H0⟩, ⟨%f1, %hf1, H1⟩, ⟨%d4, %f4, %hf4, H4⟩, ⟨%f5, %hf5, H5⟩, Hk⟩
  obtain rfl := harg2.eq_unread hf0; obtain rfl := harg3.eq_unread hf1; obtain rfl := harg5.eq_unread hf5
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H4]
  · iexists _; isplitr
    swap; · iexact H4
    ipureintro
    rw [View.read_writes_eq_canon _ _ _ (fun y => ⟨_, List.mem_singleton_self _, View.mem_set_unit_zero hz2 Cert.KernelIdeal.Gen.inb_S1024x128_S1024x128_0_0 y⟩), View.canon_unit_zero hz2]
    sl_unfold_words
    simp only [View.readAt_eq_ld, harg2.read_unread, harg3.read_unread, harg5.read_unread, View.ld_unit_zero (S := S1024x5120) hz2, View.ld_unit_zero (S := S5120x128) hz2, View.ld_unit_zero (S := S1024x128) hz2, View.readCov_unit_zero (S := S1024x128) _ hz2]
    try rw [View.readCov_eq_canon_ld _ _ _ (fun y => ⟨_, List.mem_cons_self, View.mem_set_unit_zero hz2 Cert.KernelIdeal.Gen.inb_S1024x128_S1024x128_0_0 y⟩), View.canon_cons_unit_zero hz2, View.ld_unit_zero hz2]
  · iexists _; isplitr
    swap; · iexact H5
    ipureintro
    sl_unfold_words
    rw [View.read_writes_eq_canon _ _ _ (fun y => ⟨_, List.mem_cons_self, View.mem_set_unit_zero hz2 Cert.KernelIdeal.Gen.inb_S1024x128_S1024x128_0_0 y⟩), View.canon_cons_unit_zero hz2]
    simp only [View.readAt_eq_ld, harg2.read_unread, harg3.read_unread, harg5.read_unread, View.ld_unit_zero (S := S1024x5120) hz2, View.ld_unit_zero (S := S5120x128) hz2, View.ld_unit_zero (S := S1024x128) hz2, View.readCov_unit_zero (S := S1024x128) _ hz2]

end Cert.KernelIdeal.Hand

end
-- ==== Proof.KI.Dat0.lean ====
/-
  Region 0's proof data and body obligation.

  Point t of the 4 x 8 grid is (row block, column block) = (t / 8, t % 8). The accumulator scratch after point t holds
  (`accAt0`, by recursion on t): at the first column block of a row block,  0 ⊕ x0·x1  of that point's two input
  blocks; at every other column block,  s ⊕ x0·x1  with `s` what the point before left. The proof data say: each array as
  the region finds it; after the body each input's staging buffer still at its block, and the output's at the
  accumulator's contents (it is consulted only at the last column block of a row block, where the body stores the
  accumulator into it and the pipeline writes the block back; elsewhere the output window is idle and its buffer is
  handed back as found). The invariant before the first point is "the scoped buffers the region does not stage at
  anything, the generator register at some state"; before any later point the accumulator scratch is at what the
  point before left. Nothing is owed.
-/
import proofs.«126029_j60490319397131_1_alg».proof.Proof.KI.Body0

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-- The accumulator scratch after point `n`. -/
def accAt0 (c : Dev nD) : (n : ℕ) → n < cfg0.N → Vec F S1024x128 .f32
  | 0, hn => k0_pay2 (k0_pay1 (F := F)) (iblk0 V c 0 ⟨0, hn⟩) (iblk0 V c 1 ⟨0, hn⟩)
  | n + 1, hn =>
    if (n + 1) % 8 = 0 then k0_pay2 (k0_pay1 (F := F)) (iblk0 V c 0 ⟨n + 1, hn⟩) (iblk0 V c 1 ⟨n + 1, hn⟩)
    else k0_pay2 (accAt0 c n (Nat.lt_of_succ_lt hn)) (iblk0 V c 0 ⟨n + 1, hn⟩) (iblk0 V c 1 ⟨n + 1, hn⟩)

/-- At the first column block of a row block the accumulator restarts from zero. -/
theorem accAt0_first (c : Dev nD) (t : Fin cfg0.N) (h : t.val % 8 = 0) :
    accAt0 V c t.val t.isLt = k0_pay2 (k0_pay1 (F := F)) (iblk0 V c 0 t) (iblk0 V c 1 t) := by
  obtain ⟨n, hn⟩ := t
  cases n with
  | zero => rfl
  | succ n => simp only [accAt0]; rw [if_pos h]

/-- At any other column block it adds to what the point before left. -/
theorem accAt0_next (c : Dev nD) (t : Fin cfg0.N) (h : t.val % 8 ≠ 0) :
    accAt0 V c t.val t.isLt = k0_pay2 (accAt0 V c (t.val - 1) (Nat.lt_of_le_of_lt (Nat.sub_le _ _) t.isLt)) (iblk0 V c 0 t) (iblk0 V c 1 t) := by
  obtain ⟨n, hn⟩ := t
  cases n with
  | zero => exact absurd rfl h
  | succ n => simp only [accAt0]; rw [if_neg h]; rfl

/-- The scoped buffers region 0 does not stage, the accumulator scratch apart: region 1's staging buffers and scratch,
    each at some contents. -/
abbrev rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_scratch0), ((c : Thread nD τ).loc cc1_scratch0) ↦{fullShare} f))

/-- The class invariant with the accumulator scratch split out as a memref owned at some contents. -/
theorem PhiA0_eq (c : Dev nD) :
    (Pipeline.ΦA spec0 c : sProp 𝕄) = iprop(((∃ d, owns (c : Thread nD τ) scM0 fullShare d) ∗ rest0 (F := F) c) ∗ (∃ r, prngReg c r)) := by
  unfold Pipeline.ΦA; rw [scopedRest0_eq]; simp only [scM0, owns_whole]; try rfl

/-- The region invariant before position `n`. -/
def Phi0 (c : Dev nD) : (n : ℕ) → n ≤ cfg0.N → sProp 𝕄
  | 0, _ => Pipeline.ΦA spec0 c
  | n + 1, hn => iprop((owns (c : Thread nD τ) scM0 fullShare (accAt0 V c n hn) ∗ rest0 (F := F) c) ∗ (∃ r, prngReg c r))

theorem Phi0_zero (c : Dev nD) (n : ℕ) (h : n ≤ cfg0.N) (hz : n = 0) : Phi0 V c n h = Pipeline.ΦA spec0 c := by
  subst hz; rfl
theorem Phi0_succ (c : Dev nD) (n : ℕ) (hn : n < cfg0.N) :
    Phi0 V c (n + 1) hn = iprop((owns (c : Thread nD τ) scM0 fullShare (accAt0 V c n hn) ∗ rest0 (F := F) c) ∗ (∃ r, prngReg c r)) := rfl
theorem Phi0_pos (c : Dev nD) (n : ℕ) (h : n ≤ cfg0.N) (hz : n ≠ 0) :
    Phi0 V c n h = iprop((owns (c : Thread nD τ) scM0 fullShare (accAt0 V c (n - 1) (by omega)) ∗ rest0 (F := F) c) ∗ (∃ r, prngReg c r)) := by
  cases n with
  | zero => exact absurd rfl hz
  | succ n => rfl

/-- Whatever the position, the invariant holds the accumulator scratch at SOME contents beside the rest. -/
theorem Phi0_some (c : Dev nD) (n : ℕ) (h : n ≤ cfg0.N) :
    Phi0 V c n h ⊢ (iprop(((∃ d, owns (c : Thread nD τ) scM0 fullShare d) ∗ rest0 (F := F) c) ∗ (∃ r, prngReg c r)) : sProp 𝕄) := by
  cases n with
  | zero => rw [Phi0_zero V c 0 h rfl, PhiA0_eq]
  | succ n =>
    rw [Phi0_succ]
    iintro ⟨⟨HS, HR⟩, Hg⟩
    isplitr [Hg]
    · isplitl [HS]; · iexists _; iexact HS
      iexact HR
    iexact Hg

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => accAt0 V c t.val t.isLt
  Φ t := Phi0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem Phi0_castSucc (c : Dev nD) (t : Fin cfg0.N) :
    (dat0 V c).Φ t.castSucc = Phi0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = accAt0 V c t.val t.isLt := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 2000000 in
/-- The body at any point, by which of the three cases the point is in (decided by t % 8). -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl,
    show (dat0 V c).Φ t.succ = Phi0 V c (t.val + 1) t.isLt from rfl, Phi0_succ, Phi0_castSucc,
    show (dat0 V c).leavesExact 0 t = owns (c : Thread nD τ) (ms0_0 t) fullShare ((dat0 V c).after 0 t) from by
      unfold Dat.leavesExact; rw [liveAt0_0 t],
    show (dat0 V c).leavesExact 1 t = owns (c : Thread nD τ) (ms0_1 t) fullShare ((dat0 V c).after 1 t) from by
      unfold Dat.leavesExact; rw [liveAt0_1 t],
    after0_0, after0_1]
  by_cases h1 : t.val % 8 = 7
  · -- the last column block of a row block
    have h0 : t.val % 8 ≠ 0 := by omega
    have hz : t.val ≠ 0 := fun e => by rw [e] at h0; exact h0 rfl
    rw [show (dat0 V c).leavesExact 2 t = owns (c : Thread nD τ) (ms0_2 t) fullShare ((dat0 V c).after 2 t) from by
      unfold Dat.leavesExact; rw [liveAt0_2 t ((hcond0_1 t).mpr h1)], after0_2, accAt0_next V c t h0, Phi0_pos V c _ _ hz]
    iintro ⟨⟨⟨HS, HR⟩, Hg⟩, Ho, ⟨%d0, H0⟩, ⟨%d1, H1⟩, ⟨%d2, H2⟩⟩
    iapply (kernel0_last c (grid0.coords t) _ _ _ _ _ _ scM0 (Memref.isWhole_whole _) (fun h => h0 ((hcond0_0 t).mp h)) ((hcond0_1 t).mpr h1) (iblk0 V c 0 t) (iblk0 V c 1 t) _ Set.univ _)
    isplitl [H0]; · iexact H0
    isplitl [H1]; · iexact H1
    isplitl [H2]; · iexists _; iexact H2
    isplitl [HS]; · iexact HS
    iintro ⟨H0, H1, H2, HS⟩
    isplitl [HS HR Hg]
    · isplitr [Hg]
      · isplitl [HS]; · iexact HS
        iexact HR
      iexact Hg
    isplitl [Ho]; · iexact Ho
    isplitl [H0]; · iexact H0
    isplitl [H1]; · iexact H1
    iexact H2
  · rw [Dat.leavesExact_idle (dat0 V c) 2 t (idleAt0_2 t (fun h => h1 ((hcond0_1 t).mp h))) (noFlush0_2 t (fun h => h1 ((hcond0_1 t).mp h)))]
    by_cases h0 : t.val % 8 = 0
    · -- the first column block of a row block
      rw [accAt0_first V c t h0]
      iintro ⟨HΦ, Ho, ⟨%d0, H0⟩, ⟨%d1, H1⟩, ⟨%d2, H2⟩⟩
      ihave HΦ' := (Phi0_some V c t.val (Nat.le_of_lt t.isLt)) $$ HΦ
      icases HΦ' with ⟨⟨HS, HR⟩, Hg⟩
      iapply (kernel0_first c (grid0.coords t) _ _ _ _ _ _ scM0 (Memref.isWhole_whole _) ((hcond0_0 t).mpr h0) (fun h => h1 ((hcond0_1 t).mp h)) (iblk0 V c 0 t) (iblk0 V c 1 t) _ Set.univ _)
      isplitl [H0]; · iexact H0
      isplitl [H1]; · iexact H1
      isplitl [H2]; · iexact H2
      isplitl [HS]; · iexact HS
      iintro ⟨H0, H1, H2, HS⟩
      isplitl [HS HR Hg]
      · isplitr [Hg]
        · isplitl [HS]; · iexact HS
          iexact HR
        iexact Hg
      isplitl [Ho]; · iexact Ho
      isplitl [H0]; · iexact H0
      isplitl [H1]; · iexact H1
      iexists d2; iexact H2
    · -- an inner column block
      have hz : t.val ≠ 0 := fun e => by rw [e] at h0; exact h0 rfl
      rw [accAt0_next V c t h0, Phi0_pos V c _ _ hz]
      iintro ⟨⟨⟨HS, HR⟩, Hg⟩, Ho, ⟨%d0, H0⟩, ⟨%d1, H1⟩, ⟨%d2, H2⟩⟩
      iapply (kernel0_inner c (grid0.coords t) _ _ _ _ _ _ scM0 (Memref.isWhole_whole _) (fun h => h0 ((hcond0_0 t).mp h)) (fun h => h1 ((hcond0_1 t).mp h)) (iblk0 V c 0 t) (iblk0 V c 1 t) _ _ Set.univ _)
      isplitl [H0]; · iexact H0
      isplitl [H1]; · iexact H1
      isplitl [H2]; · iexact H2
      isplitl [HS]; · iexact HS
      iintro ⟨H0, H1, H2, HS⟩
      isplitl [HS HR Hg]
      · isplitr [Hg]
        · isplitl [HS]; · iexact HS
          iexact HR
        iexact Hg
      isplitl [Ho]; · iexact Ho
      isplitl [H0]; · iexact H0
      isplitl [H1]; · iexact H1
      iexists d2; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.KI.Body1.lean ====
/-
  Region 1's kernel body, run once on any whole staging memrefs and scratch (the one-point grid: first and last column
  block at once). From the left block `x0`, the right block `x1`, the output buffer and the scratch at anything: the
  scratch is zeroed, the product `x0 · x1` (into a zero accumulator) is added to it, and the sum is stored back into
  the scratch and into the output buffer. So both end holding  0 + x0 · x1,  spelled with the body's own payload terms
  `k1_pay2 k1_pay1 x0 x1`; the input buffers end as they began.
-/
import proofs.«126029_j60490319397131_1_alg».proof.Proof.KI.Shared

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
theorem kernel1 (c : Dev nD) (i : grid1.Coords)
    (arg2 : Memref sig .tc .vmem S1024x4096 .bf16) (harg2 : arg2.IsWhole) (arg3 : Memref sig .tc .vmem S4096x128 .bf16) (harg3 : arg3.IsWhole)
    (arg4 : Memref sig .tc .vmem S1024x128 .f32) (harg4 : arg4.IsWhole) (arg5 : Memref sig .tc .vmem S1024x128 .f32) (harg5 : arg5.IsWhole)
    (hc0 : cond1_0 i) (hc1 : cond1_1 i)
    (x0 : Vec F S1024x4096 .bf16) (x1 : Vec F S4096x128 .bf16) (E : Set ℕ) (K : PUnit → sProp 𝕄) :
    iprop(owns (c : Thread nD τ) arg2 fullShare x0 ∗ owns (c : Thread nD τ) arg3 fullShare x1
        ∗ (∃ d, owns (c : Thread nD τ) arg4 fullShare d) ∗ (∃ d, owns (c : Thread nD τ) arg5 fullShare d)
        ∗ (iprop(owns (c : Thread nD τ) arg2 fullShare x0 ∗ owns (c : Thread nD τ) arg3 fullShare x1
            ∗ owns (c : Thread nD τ) arg4 fullShare (k1_pay2 (k1_pay1 (F := F)) x0 x1)
            ∗ owns (c : Thread nD τ) arg5 fullShare (k1_pay2 (k1_pay1 (F := F)) x0 x1)) -∗ K ⟨⟩))
      ⊢ wp frame (wpE (defs₀ (F := F)) Variants.none c none) E (cc1__diffusion_matmul_kernel i arg2 harg2 arg3 harg3 arg4 harg4 arg5 harg5) K := by
  simp only [cc1__diffusion_matmul_kernel_eq_skeleton]; unfold cc1__diffusion_matmul_kernel_skel
  unfold owns
  iintro ⟨⟨%f0, %hf0, H0⟩, ⟨%f1, %hf1, H1⟩, ⟨%d4, %f4, %hf4, H4⟩, ⟨%d5, %f5, %hf5, H5⟩, Hk⟩
  obtain rfl := harg2.eq_unread hf0; obtain rfl := harg3.eq_unread hf1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H4]
  · iexists _; isplitr
    swap; · iexact H4
    ipureintro
    rw [View.read_writes_eq_canon _ _ _ (fun y => ⟨_, List.mem_singleton_self _, View.mem_set_unit_zero hz2 Cert.KernelIdeal.Gen.inb_S1024x128_S1024x128_0_0 y⟩), View.canon_unit_zero hz2]
    sl_unfold_words
    simp only [View.readAt_eq_ld, harg2.read_unread, harg3.read_unread, View.ld_unit_zero (S := S1024x4096) hz2, View.ld_unit_zero (S := S4096x128) hz2, View.ld_unit_zero (S := S1024x128) hz2, View.readCov_unit_zero (S := S1024x128) _ hz2]
    rw [View.readCov_eq_canon_ld _ _ _ (fun y => ⟨_, List.mem_cons_self, View.mem_set_unit_zero hz2 Cert.KernelIdeal.Gen.inb_S1024x128_S1024x128_0_0 y⟩), View.canon_cons_unit_zero hz2, View.ld_unit_zero hz2]
  · iexists _; isplitr
    swap; · iexact H5
    ipureintro
    sl_unfold_words
    rw [View.read_writes_eq_canon _ _ _ (fun y => ⟨_, List.mem_cons_self, View.mem_set_unit_zero hz2 Cert.KernelIdeal.Gen.inb_S1024x128_S1024x128_0_0 y⟩), View.canon_cons_unit_zero hz2]
    simp only [View.readAt_eq_ld, harg2.read_unread, harg3.read_unread, View.ld_unit_zero (S := S1024x4096) hz2, View.ld_unit_zero (S := S4096x128) hz2, View.ld_unit_zero (S := S1024x128) hz2, View.readCov_unit_zero (S := S1024x128) _ hz2]

end Cert.KernelIdeal.Hand

end
-- ==== Proof.KI.Dat1.lean ====
/-
  Region 1's proof data and body obligation.

  The region has one grid point. Its proof data say: each array as the region finds it; after the body each input's
  staging buffer still at its block and the output's at  0 ⊕ x0·x1  of the two input blocks (`out1`); the invariant is
  "the scoped buffers the region does not stage, the accumulator scratch among them, at anything, and the generator
  register at some state" before and after the point, since nothing later reads the scratch; nothing is owed.
-/
import proofs.«126029_j60490319397131_1_alg».proof.Proof.KI.Body1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-- What the one point leaves in the output's staging buffer: the product of the two input blocks added to zero. -/
def out1 (c : Dev nD) (t : Fin cfg1.N) : Vec F S1024x128 .f32 :=
  k1_pay2 (k1_pay1 (F := F)) (iblk1 V c 0 t) (iblk1 V c 1 t)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1 V c t
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1 V c t := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 1000000 in
/-- The body at the point: the inputs' buffers hold their blocks, the output's buffer anything; the accumulator scratch
    is taken out of the scoped rest at anything and put back at what the body leaves. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl,
    show (dat1 V c).Φ t.succ = Pipeline.ΦA spec1 c from rfl, show (dat1 V c).Φ t.castSucc = Pipeline.ΦA spec1 c from rfl,
    show (dat1 V c).leavesExact 0 t = owns (c : Thread nD τ) (ms1_0 t) fullShare ((dat1 V c).after 0 t) from by
      unfold Dat.leavesExact; rw [liveAt1_0 t],
    show (dat1 V c).leavesExact 1 t = owns (c : Thread nD τ) (ms1_1 t) fullShare ((dat1 V c).after 1 t) from by
      unfold Dat.leavesExact; rw [liveAt1_1 t],
    show (dat1 V c).leavesExact 2 t = owns (c : Thread nD τ) (ms1_2 t) fullShare ((dat1 V c).after 2 t) from by
      unfold Dat.leavesExact; rw [liveAt1_2 t],
    after1_0, after1_1, after1_2]
  unfold Pipeline.ΦA; rw [scopedRest1_eq]
  iintro ⟨⟨⟨R1, R2, R3, R4, R5, R6, R7, ⟨%fs, HS⟩⟩, Hg⟩, Ho, ⟨%d0, H0⟩, ⟨%d1, H1⟩, ⟨%d2, H2⟩⟩
  iapply (kernel1 c (grid1.coords t) _ _ _ _ _ _ scM1 (Memref.isWhole_whole _) (hcond1_0 t) (hcond1_1 t) (iblk1 V c 0 t) (iblk1 V c 1 t) Set.univ _)
  isplitl [H0]; · iexact H0
  isplitl [H1]; · iexact H1
  isplitl [H2]; · iexists _; iexact H2
  isplitl [HS]
  · iexists fs; rw [owns_whole]; iexact HS
  iintro ⟨H0, H1, H2, HS⟩
  isplitl [R1 R2 R3 R4 R5 R6 R7 HS Hg]
  · isplitr [Hg]
    · isplitl [R1]; · iexact R1
      isplitl [R2]; · iexact R2
      isplitl [R3]; · iexact R3
      isplitl [R4]; · iexact R4
      isplitl [R5]; · iexact R5
      isplitl [R6]; · iexact R6
      isplitl [R7]; · iexact R7
      iexists _; rw [← owns_whole (Val := Elt F) (c : Thread nD τ) cc1_scratch0 fullShare]; iexact HS
    iexact Hg
  isplitl [Ho]; · iexact Ho
  isplitl [H0]; · iexact H0
  isplitl [H1]; · iexact H1
  unfold out1; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.KernelIdeal.Hand

end
-- ==== Proof.KI.Launch.lean ====
/-
  The two kernel regions as segments of @main.

  Between two items of @main a core holds every unscoped buffer at a known valuation: the launch contents, then each
  host stretch applied (the generated `V0 … V17`), a region changing only its output array. What region 0 leaves in its
  output array is what its pipeline's write-backs leave (`Dat.arrAt` at the last point) — `X0` is the entry valuation
  with the region's arrays at those contents — and likewise `X1` for region 1, entered from the valuation seven host
  stretches after `X0`. `outs` hands these two arrays to the generated valuations. Each region's record then says: its
  arrays are split out of the unscoped buffers at the entry valuation and put back at the exit valuation; the
  generator register goes into the region invariant and comes back; the accumulator scratch is taken from the scoped
  buffers at anything and returned at whatever the last point left; nothing is owed and the kernel has no semaphore
  of its own.
-/
import proofs.«126029_j60490319397131_1_alg».proof.Proof.KI.Dat0
import proofs.«126029_j60490319397131_1_alg».proof.Proof.KI.Dat1
import proofs.«126029_j60490319397131_1_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The buffer contents at the regions' boundaries -/

/-- Region 0's entry contents, read at the TensorCore's references. -/
abbrev E0 : (c : Dev nD) → (b : Ref sig .tc) → Buf (Elt F) ((c : Thread nD τ).loc b) := fun c b => V5 m c b
/-- At region 0's exit: its arrays at what the pipeline leaves, every other buffer as entered. -/
def X0 (c : Dev nD) : Valuation τ sig (Elt F) :=
  Pipeline.withArrays spec0 c (V5 m c) fun w => (dat0 (E0 m) c).arrAt w cfg0.N
theorem X0_arr (c : Dev nD) (w : Fin cfg0.W) :
    X0 m c (Proc.devRef .tc (Pipeline.arrRef spec0 w)) = (dat0 (E0 m) c).arrAt w cfg0.N := by
  unfold X0; exact Pipeline.withArrays_arr spec0 launch0.win.arr_inj c _ _ w
/-- What region 0 leaves, as the generated valuations take it (they read it at `main_v25` only). -/
def outs0 : Outs (F := F) := fun _ r c => X0 m c r

/-- Region 1's entry contents. -/
abbrev E1 : (c : Dev nD) → (b : Ref sig .tc) → Buf (Elt F) ((c : Thread nD τ).loc b) := fun c b => V13 m (outs0 m) c b
/-- At region 1's exit. -/
def X1 (c : Dev nD) : Valuation τ sig (Elt F) :=
  Pipeline.withArrays spec1 c (V13 m (outs0 m) c) fun w => (dat1 (E1 m) c).arrAt w cfg1.N
theorem X1_arr (c : Dev nD) (w : Fin cfg1.W) :
    X1 m c (Proc.devRef .tc (Pipeline.arrRef spec1 w)) = (dat1 (E1 m) c).arrAt w cfg1.N := by
  unfold X1; exact Pipeline.withArrays_arr spec1 launch1.win.arr_inj c _ _ w

/-- What the two regions leave: after item 13 region 1's, before it region 0's. -/
def outs : Outs (F := F) := fun n r c => if n = 14 then X1 m c r else X0 m c r

theorem outs_6 (r : Ref sig .tc) (c : Dev nD) : outs m 6 r c = X0 m c r := if_neg (by decide)
theorem outs_14 (r : Ref sig .tc) (c : Dev nD) : outs m 14 r c = X1 m c r := if_pos rfl
/-- Up to region 1 the valuations read only what region 0 left. -/
theorem V13_outs (c : Dev nD) : V13 m (outs m) c = V13 m (outs0 m) c := rfl

/-- Region 0's exit valuation at its arrays and elsewhere. -/
theorem hF0 (c : Dev nD) (w : Fin cfg0.W) : (dat0 (E0 m) c).arrAt w cfg0.N = V6 m (outs m) c (Pipeline.arrRef spec0 w) :=
  match w with
  | ⟨0, _⟩ => ((dat0 (E0 m) c).arrAt_in 0 rfl _).trans (((A_eq0 (E0 m) c 0)).trans (V6_of m (outs m) c main_v23 (by decide)).symm)
  | ⟨1, _⟩ => ((dat0 (E0 m) c).arrAt_in 1 rfl _).trans (((A_eq0 (E0 m) c 1)).trans (V6_of m (outs m) c main_v24 (by decide)).symm)
  | ⟨2, _⟩ => by
    show _ = Function.update (V5 m c) (Proc.devRef .tc main_v25) (outs m 6 main_v25 c) (Proc.devRef .tc main_v25)
    rw [Function.update_self, outs_6]; exact (X0_arr m c 2).symm
theorem hrest0 (c : Dev nD) : ∀ b, b ∉ Finset.univ.image (Pipeline.arrRef spec0) → V6 m (outs m) c b = V5 m c b :=
  fun b hb => V6_of m (outs m) c b (by
    intro h; rw [List.mem_singleton] at h; subst h
    exact hb (Finset.mem_image.mpr ⟨2, Finset.mem_univ _, rfl⟩))

/-- Region 1's exit valuation at its arrays and elsewhere. -/
theorem hF1 (c : Dev nD) (w : Fin cfg1.W) : (dat1 (E1 m) c).arrAt w cfg1.N = V14 m (outs m) c (Pipeline.arrRef spec1 w) :=
  match w with
  | ⟨0, _⟩ => ((dat1 (E1 m) c).arrAt_in 0 rfl _).trans (((A_eq1 (E1 m) c 0)).trans (V14_of m (outs m) c main_v45 (by decide)).symm)
  | ⟨1, _⟩ => ((dat1 (E1 m) c).arrAt_in 1 rfl _).trans (((A_eq1 (E1 m) c 1)).trans (V14_of m (outs m) c main_v46 (by decide)).symm)
  | ⟨2, _⟩ => by
    show _ = Function.update (V13 m (outs m) c) (Proc.devRef .tc main_v47) (outs m 14 main_v47 c) (Proc.devRef .tc main_v47)
    rw [Function.update_self, outs_14]; exact (X1_arr m c 2).symm
theorem hrest1 (c : Dev nD) : ∀ b, b ∉ Finset.univ.image (Pipeline.arrRef spec1) → V14 m (outs m) c b = V13 m (outs m) c b :=
  fun b hb => V14_of m (outs m) c b (by
    intro h; rw [List.mem_singleton] at h; subst h
    exact hb (Finset.mem_image.mpr ⟨2, Finset.mem_univ _, rfl⟩))

/-! ## The proof data family and what rides beside the buffers -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (E0 m) c
  | ⟨1, _⟩ => fun c => dat1 (E1 m) c
abbrev 𝒱₀ : Variants := Variants.none
abbrev L : GSem nD τ sig → Finset Unit := fun _ => ∅
abbrev lv : GSem nD τ sig → Unit → ℕ := fun _ _ => 0
/-- Beside the buffers through every item: the core's generator register at some state and its `owes`, at nothing. -/
abbrev R (c : Dev nD) : sProp 𝕄 := iprop((∃ r, prngReg c r) ∗ ∃ W, owes (c : Thread nD τ) (0 : CellTallies nD τ sig Unit) W)
/-- The same beside every item. -/
abbrev ER : Fin 3 → Dev nD → sProp 𝕄 := fun _ c => R c

/-! ## The regions as segments -/

set_option backward.isDefEq.respectTransparency.types false in
/-- Region 0, entered from every unscoped buffer at `V5`, left at `V6`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ L lv 0 fun _ _ => rfl
  pre c := iprop(StableHlo.held (c : Thread nD τ) (Pipeline.ucRefs τ sig) (V5 m c) ∗ R c)
  post c := iprop(StableHlo.held (c : Thread nD τ) (Pipeline.ucRefs τ sig) (V6 m (outs m) c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    have h1 : (pdats m 0 c).Φ (Fin.last _) ⊢ (Pipeline.ΦA spec0 c : sProp 𝕄) := by
      rw [PhiA0_eq]
      show Phi0 (E0 m) c (Fin.last cfg0.N).val (Nat.le_of_lt_succ (Fin.last cfg0.N).isLt) ⊢ _
      exact Phi0_some (E0 m) c _ _
    refine h1.trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (fun b => V6 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1, entered from every unscoped buffer at `V13`, left at `V14`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E1 m) c).loose
  hwaits := Pipeline.hwaits_of_owed_zero _ _ _ _ L lv 1 fun _ _ => rfl
  pre c := iprop(StableHlo.held (c : Thread nD τ) (Pipeline.ucRefs τ sig) (V13 m (outs0 m) c) ∗ R c)
  post c := iprop(StableHlo.held (c : Thread nD τ) (Pipeline.ucRefs τ sig) (V14 m (outs m) c) ∗ R c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E1 m c) (fun b => V14 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Run.lean ====
/-
  The run of @main: the launch, seventeen items (host stretches and the two kernel regions), the return.

  Every weakly fair execution from memory `m` with zero counters terminates, nothing faulting, and at the end every
  unscoped buffer of every core holds the last valuation `V17` — the host stretches applied in order to the launch
  contents, the two regions' output arrays at what their pipelines' write-backs leave. The frame (each argument array
  ends as launched: no item writes one) is read off that valuation at the arguments; the value of @main's result is
  read off it at the result's buffer.
-/
import proofs.«126029_j60490319397131_1_alg».proof.Proof.KI.Launch

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ) (ρ : Dev nD → PrngReg)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN, with every unscoped buffer read at the end. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = V17 m (outs m) c b) := by
  refine Pipeline.θ_run_regions_kit_dev (pcfgs (F := F)) adm (pdats m) () cellOf_inj emb₁ defs₀ 𝒱₀ L lv m ρ main
    (segs m (outs m) 𝒱₀ L lv (ER (F := F)) () (pdats m) (reg0 m) (reg1 m))
    (fun c Q => by
      rewrite [main_chain c, Seg.run_eq_chain,
        show (segs m (outs m) 𝒱₀ L lv (ER (F := F)) () (pdats m) (reg0 m) (reg1 m) c).map Seg.prog = [
          StableHlo.seq hostOps0,
          StableHlo.seq hostOps0_1,
          StableHlo.seq hostOps0_2,
          StableHlo.seq hostOps0_3,
          StableHlo.seq hostOps0_4,
          Prog.lift (.customCall (Pipeline.entry 0) ()),
          StableHlo.seq hostOps1,
          StableHlo.seq hostOps1_1,
          StableHlo.seq hostOps1_2,
          StableHlo.seq hostOps1_3,
          StableHlo.seq hostOps1_4,
          StableHlo.seq hostOps1_5,
          StableHlo.seq hostOps1_6,
          Prog.lift (.customCall (Pipeline.entry 1) ()),
          StableHlo.seq hostOps2,
          StableHlo.seq hostOps2_1,
          StableHlo.seq hostOps2_2 ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => StableHlo.held (c : Thread nD τ) (Pipeline.ucRefs τ sig) (V17 m (outs m) c))
    (hch := fun c => ⟨.rfl, .rfl, .rfl, .rfl, .rfl, .rfl, .rfl, .rfl, .rfl, .rfl, .rfl, .rfl, .rfl, .rfl, .rfl, .rfl, .rfl,
      sep_mono .rfl (by iintro ⟨-, H⟩; iexact H)⟩)
    (hinit := ?_)
    (QY := fun c s => ∀ b ∈ Pipeline.ucRefs τ sig, s.mem (((c : Thread nD τ)).1, b) = V17 m (outs m) c b)
    (hfin := fun c s' => ?_) (hQ := fun _ h => h)
  · -- the launch: every core's unscoped buffers are held at the launch contents; the generator register and the
    -- core's `owes`, at nothing, ride along
    refine Pipeline.initEach L lv fun c => ?_
    rw [show unscopedBufs c (fun b => m ((c : Thread nD τ).loc b)) = StableHlo.held (c : Thread nD τ) (Pipeline.ucRefs τ sig) (V0 m c)
      from Pipeline.unscopedBufs_held c (V0 m c)]
    iintro ⟨⟨Hh, -, HO, -, Hp, -⟩, -⟩
    imodintro
    isplitl [Hh]; · iexact Hh
    isplitl [Hp]; · iexists _; iexact Hp
    iexists ∅; iexact HO
  · -- the end: every unscoped buffer read against the final state
    iintro ⟨Hh, HSI⟩
    unfold StableHlo.held
    imodintro
    iapply (pointsTo_read_all (Pipeline.ucRefs τ sig) (fun b => (((c : Thread nD τ)).1, b)) (V17 m (outs m) c) s')
    isplitl [Hh] <;> iassumption

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨(h c _ (mem_uc main_arg0 (by decide))).trans (V17_main_arg0 m (outs m) c),
      (h c _ (mem_uc main_arg1 (by decide))).trans (V17_main_arg1 m (outs m) c),
      (h c _ (mem_uc main_arg2 (by decide))).trans (V17_main_arg2 m (outs m) c),
      (h c _ (mem_uc main_arg3 (by decide))).trans (V17_main_arg3 m (outs m) c),
      (h c _ (mem_uc main_arg4 (by decide))).trans (V17_main_arg4 m (outs m) c),
      (h c _ (mem_uc main_arg5 (by decide))).trans (V17_main_arg5 m (outs m) c),
      (h c _ (mem_uc main_arg6 (by decide))).trans (V17_main_arg6 m (outs m) c),
      (h c _ (mem_uc main_arg7 (by decide))).trans (V17_main_arg7 m (outs m) c),
      (h c _ (mem_uc main_arg8 (by decide))).trans (V17_main_arg8 m (outs m) c),
      (h c _ (mem_uc main_arg9 (by decide))).trans (V17_main_arg9 m (outs m) c),
      (h c _ (mem_uc main_arg10 (by decide))).trans (V17_main_arg10 m (outs m) c)⟩) (run_all m ρ)

end Cert.KernelIdeal.Hand

end
-- ==== Proof.Ref.Imports.lean ====
/-
  The reference's value: its generated run and read-at-an-index lemmas, imported here for the modules that compare
  the kernel's result with the reference's.
-/
import proofs.«126029_j60490319397131_1_alg».proof.Proof.Gen.ReferenceIdeal.Run
import proofs.«126029_j60490319397131_1_alg».proof.Proof.Gen.ReferenceIdeal.Read
-- ==== Proof.LibSumBlocks.lean ====
import Mathlib.Data.Fintype.BigOperators
import Mathlib.Logic.Equiv.Fin.Basic

/-! # A sum over consecutive blocks

A sum over `A * B` consecutive indices, cut into `A` blocks of `B`: entry `r` of block `t` is index `B * t + r`. -/

namespace Cert.LibSumBlocks

open scoped BigOperators

/-- Entry `r` of block `t`, of `A` blocks of `B` entries each, is below `A * B`. -/
theorem block_lt {A B N : ℕ} (h : A * B = N) (t : Fin A) (r : Fin B) : B * t.val + r.val < N := by
  have h1 : B * (t.val + 1) ≤ B * A := Nat.mul_le_mul_left _ t.isLt
  have h2 : B * (t.val + 1) = B * t.val + B := Nat.mul_succ _ _
  have h3 := r.isLt
  rw [← h, Nat.mul_comm A B]
  omega

/-- THE SUM BY BLOCKS: over `N = A * B` indices, the sum over the `A` blocks of the sum over the `B` entries inside
    each block, entry `r` of block `t` being index `B * t + r`, is the sum over all `N` indices, in any additive
    commutative monoid. -/
theorem sum_blocks {M : Type*} [AddCommMonoid M] {A B N : ℕ} (h : A * B = N) (f : Fin N → M) :
    ∑ t : Fin A, ∑ r : Fin B, f ⟨B * t.val + r.val, block_lt h t r⟩ = ∑ n : Fin N, f n := by
  subst h
  rw [← Fintype.sum_prod_type' (fun (t : Fin A) (r : Fin B) => f ⟨B * t.val + r.val, block_lt rfl t r⟩)]
  refine Fintype.sum_equiv finProdFinEquiv _ _ fun x => ?_
  refine congrArg f (Fin.ext ?_)
  show B * x.1.val + x.2.val = x.2.val + B * x.1.val
  exact Nat.add_comm _ _

end Cert.LibSumBlocks
-- ==== Proof.KI.Value0.lean ====
/-
  What region 0 leaves in its output array, as the reference's one contraction.

  Region 0 multiplies a 4096 x 40960 left array by a 40960 x 128 right array on a 4 x 8 grid: point t is (row block
  i, column block k) = (t / 8, t % 8); at k = 0 the accumulator is reset to zero, at every point the product of the left
  array's block (i, k) (1024 x 5120) with the right array's block k (5120 x 128) is added to it, and at k = 7 it is
  written back as the output's row block i. Both arrays are the reference's operands padded with zeros along the
  contracted axis, from 40000 to 40960. At the extended reals, where the sums are exact:

    * sums by blocks: a running total that starts at  0 + block 0  and adds one block per step ends at the sum over all
      indices; a sum whose trailing terms vanish is the sum over the leading ones (any additive commutative monoid;
      only commutativity, associativity and  0 + x = x  are used);
    * what one point stores, read at (r, j): what the accumulator held there plus the sum over the block's 5120
      contracted entries of the two blocks' products; the reset block is zero;
    * the two input blocks at a point read off the arrays, and where the output's block lies, from the three index
      maps' closed forms over the grid;
    * so after column block 7 of row block i the accumulator's entry (r, j) is the sum over all 40960 contracted
      indices n of  left (1024 i + r, n) * right (n, j);
    * the four write-backs cover the output array, which therefore ends holding that product of the padded arrays;
    * the padded arrays read at an index (inside: the operand; in the padding: zero), so the last 960 terms are
      0 * 0 = 0 and the first 40000 are the operands' — which is the reference's contraction read at the same entry.
-/
import proofs.«126029_j60490319397131_1_alg».proof.Proof.KI.Dat0
import proofs.«126029_j60490319397131_1_alg».proof.Proof.LibSumBlocks
import proofs.«126029_j60490319397131_1_alg».proof.Proof.Gen.ReferenceIdeal
import Idealize.ShloMosaic.PureOps.Ideal
import Idealize.ShloMosaic.PureOps.Ideal.Laws
import Idealize.ShloMosaic.Lib.ValueIdx
import Idealize.ShloMosaic.Lib.Pipeline.Value
import Idealize.ShloMosaic.Lib.ValueLayout
import Idealize.ShloMosaic.Lib.KernelVsHost
import Mathlib.Algebra.BigOperators.Fin

set_option maxRecDepth 16384

noncomputable section

namespace Cert.KernelIdeal.Hand.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx
open scoped BigOperators

/-! ## Sums by blocks, in any additive commutative monoid -/

section Sums
open Cert.LibSumBlocks

/-- The sum over block `k` of `f`, of blocks of `B` entries among `N = A * B` indices. -/
def blockSum {M : Type*} [AddCommMonoid M] {A B N : ℕ} (h : A * B = N) (f : Fin N → M) (k : Fin A) : M :=
  ∑ r : Fin B, f ⟨B * k.val + r.val, block_lt h k r⟩

/-- A running total over the blocks in order: it starts at  0 + block 0  and step `k + 1` adds block `k + 1`. After
    step `k` it is the sum over blocks 0 … k. -/
theorem runningTotal_eq {M : Type*} [AddCommMonoid M] {A B N : ℕ} (h : (A + 1) * B = N) (f : Fin N → M)
    (acc : (k : ℕ) → k < A + 1 → M)
    (h0 : acc 0 (Nat.succ_pos A) = 0 + blockSum h f ⟨0, Nat.succ_pos A⟩)
    (hs : ∀ (k : ℕ) (hk : k + 1 < A + 1), acc (k + 1) hk = acc k (Nat.lt_of_succ_lt hk) + blockSum h f ⟨k + 1, hk⟩) :
    ∀ (k : ℕ) (hk : k < A + 1), acc k hk = ∑ t : Fin (k + 1), blockSum h f ⟨t.val, Nat.lt_of_lt_of_le t.isLt hk⟩
  | 0, hk => by
    rw [h0, zero_add, Fin.sum_univ_one]; rfl
  | k + 1, hk => by
    rw [hs k hk, runningTotal_eq h f acc h0 hs k (Nat.lt_of_succ_lt hk)]
    exact (Fin.sum_univ_castSucc (fun t : Fin (k + 1 + 1) => blockSum h f ⟨t.val, Nat.lt_of_lt_of_le t.isLt hk⟩)).symm

/-- So after the last block it is the sum over all indices. -/
theorem runningTotal_last {M : Type*} [AddCommMonoid M] {A B N : ℕ} (h : (A + 1) * B = N) (f : Fin N → M)
    (acc : (k : ℕ) → k < A + 1 → M)
    (h0 : acc 0 (Nat.succ_pos A) = 0 + blockSum h f ⟨0, Nat.succ_pos A⟩)
    (hs : ∀ (k : ℕ) (hk : k + 1 < A + 1), acc (k + 1) hk = acc k (Nat.lt_of_succ_lt hk) + blockSum h f ⟨k + 1, hk⟩) :
    acc A (Nat.lt_succ_self A) = ∑ n : Fin N, f n := by
  rw [runningTotal_eq h f acc h0 hs A (Nat.lt_succ_self A), ← sum_blocks h f]
  rfl

/-- A sum over `a + b` indices whose terms from index `a` on are zero is the sum over the first `a`. -/
theorem sum_of_trailing_zero {M : Type*} [AddCommMonoid M] {a b N : ℕ} (h : a + b = N) (f : Fin N → M)
    (hz : ∀ n : Fin N, a ≤ n.val → f n = 0) :
    ∑ n : Fin N, f n = ∑ n : Fin a, f ⟨n.val, Nat.lt_of_lt_of_le n.isLt (h ▸ Nat.le_add_right a b)⟩ := by
  subst h
  rw [Fin.sum_univ_add, Finset.sum_eq_zero (fun i _ => hz (Fin.natAdd a i) (Nat.le_add_right a i.val)), add_zero]
  rfl

end Sums

/-! ## What one grid point adds, read at an index -/

/-- The block product's dimension numbers (rows x contraction times contraction x columns), axis by axis. -/
theorem lhs_D0_0 (i : S1024x128.Idx) (q : dot_S1024x5120_S5120x128_S1024x128_1_0_0_1_n_n.contr.Idx) :
    (dot_S1024x5120_S5120x128_S1024x128_1_0_0_1_n_n.lhsIdx i q 0).val = (i 0).val := by
  unfold DotDims.lhsIdx
  rw [dif_neg (show ¬(0 : Fin S1024x5120.rank) ∈ dot_S1024x5120_S5120x128_S1024x128_1_0_0_1_n_n.lhsBatch by decide), dif_pos (show (0 : Fin S1024x5120.rank) ∈ dot_S1024x5120_S5120x128_S1024x128_1_0_0_1_n_n.lhsNonContracting by decide)]
  rfl
theorem lhs_D0_1 (i : S1024x128.Idx) (q : dot_S1024x5120_S5120x128_S1024x128_1_0_0_1_n_n.contr.Idx) :
    (dot_S1024x5120_S5120x128_S1024x128_1_0_0_1_n_n.lhsIdx i q 1).val = (q ⟨0, by decide⟩).val :=
  dot_S1024x5120_S5120x128_S1024x128_1_0_0_1_n_n.lhsIdx_val_of_single rfl i q
theorem rhs_D0_0 (i : S1024x128.Idx) (q : dot_S1024x5120_S5120x128_S1024x128_1_0_0_1_n_n.contr.Idx) :
    (dot_S1024x5120_S5120x128_S1024x128_1_0_0_1_n_n.rhsIdx i q 0).val = (q ⟨0, by decide⟩).val :=
  dot_S1024x5120_S5120x128_S1024x128_1_0_0_1_n_n.rhsIdx_val_of_single rfl i q
theorem rhs_D0_1 (i : S1024x128.Idx) (q : dot_S1024x5120_S5120x128_S1024x128_1_0_0_1_n_n.contr.Idx) :
    (dot_S1024x5120_S5120x128_S1024x128_1_0_0_1_n_n.rhsIdx i q 1).val = (i 1).val := by
  unfold DotDims.rhsIdx
  rw [dif_neg (show ¬(1 : Fin S5120x128.rank) ∈ dot_S1024x5120_S5120x128_S1024x128_1_0_0_1_n_n.rhsBatch by decide), dif_pos (show (1 : Fin S5120x128.rank) ∈ dot_S1024x5120_S5120x128_S1024x128_1_0_0_1_n_n.rhsNonContracting by decide)]
  rfl

/-- The block product into the zero block, at row `r` and column `j`: the sum over the 5120 contracted entries. -/
theorem blockProduct_apply (x0 : FVec Ideal S1024x5120 .bf16) (x1 : FVec Ideal S5120x128 .bf16) (r : Fin 1024) (j : Fin 128) :
    FloatOps.matmul dot_S1024x5120_S5120x128_S1024x128_1_0_0_1_n_n none x0 x1 (constant (F := Ideal) S1024x128 .f32 0x00000000#32) (ix2 r j)
      = ∑ kk : Fin 5120, x0 (ix2 r kk) * x1 (ix2 kk j) := by
  rw [Ideal.matmul_constant_zero_apply, ← Equiv.sum_comp (contrEquiv1 dot_S1024x5120_S5120x128_S1024x128_1_0_0_1_n_n 5120 rfl rfl).symm]
  refine Finset.sum_congr rfl fun k _ => ?_
  have hk := contrEquiv1_symm_val dot_S1024x5120_S5120x128_S1024x128_1_0_0_1_n_n 5120 rfl rfl k
  have el : dot_S1024x5120_S5120x128_S1024x128_1_0_0_1_n_n.lhsIdx (ix2 r j) ((contrEquiv1 dot_S1024x5120_S5120x128_S1024x128_1_0_0_1_n_n 5120 rfl rfl).symm k) = ix2 r k := funext fun a => Fin.ext (by
    match a with
    | ⟨0, _⟩ => exact lhs_D0_0 _ _
    | ⟨1, _⟩ => exact (lhs_D0_1 _ _).trans hk)
  have er : dot_S1024x5120_S5120x128_S1024x128_1_0_0_1_n_n.rhsIdx (ix2 r j) ((contrEquiv1 dot_S1024x5120_S5120x128_S1024x128_1_0_0_1_n_n 5120 rfl rfl).symm k) = ix2 k j := funext fun a => Fin.ext (by
    match a with
    | ⟨0, _⟩ => exact (rhs_D0_0 _ _).trans hk
    | ⟨1, _⟩ => exact rhs_D0_1 _ _)
  rw [el, er]

/-- The reset block is zero everywhere. -/
theorem pay1_apply (i : S1024x128.Idx) : (k0_pay1 (F := Ideal)) i = 0 := by
  unfold k0_pay1
  simp only [shapeCast_self]
  exact Ideal.ofBits_zero_f32

/-- What a point stores into the accumulator, at row `r` and column `j`: what it held there plus the block product. -/
theorem pay2_apply (acc : Vec Ideal S1024x128 .f32) (x0 : Vec Ideal S1024x5120 .bf16) (x1 : Vec Ideal S5120x128 .bf16) (r : Fin 1024) (j : Fin 128) :
    k0_pay2 acc x0 x1 (ix2 r j) = acc (ix2 r j) + ∑ kk : Fin 5120, x0 (ix2 r kk) * x1 (ix2 kk j) := by
  unfold k0_pay2
  simp only [shapeCast_self, matmul]
  exact congrArg (acc (ix2 r j) + ·) (blockProduct_apply x0 x1 r j)

/-! ## The windows' blocks read off the arrays -/

variable {F : FTy → Type} [FloatOps F]

/-- The three index maps at point `t`, in closed form. -/
theorem index0_0 : ∀ t : Fin cfg0.N, win0_0.index t 0 = t.val / 8 ∧ win0_0.index t 1 = t.val % 8 :=
  (by decide +kernel : ∀ t : Fin grid0.N, win0_0.index t 0 = t.val / 8 ∧ win0_0.index t 1 = t.val % 8)
theorem index0_1 : ∀ t : Fin cfg0.N, win0_1.index t 0 = t.val % 8 ∧ win0_1.index t 1 = 0 :=
  (by decide +kernel : ∀ t : Fin grid0.N, win0_1.index t 0 = t.val % 8 ∧ win0_1.index t 1 = 0)
theorem index0_2 : ∀ t : Fin cfg0.N, win0_2.index t 0 = t.val / 8 ∧ win0_2.index t 1 = 0 :=
  (by decide +kernel : ∀ t : Fin grid0.N, win0_2.index t 0 = t.val / 8 ∧ win0_2.index t 1 = 0)

section Blocks
variable (V : (c : Dev nD) → (b : Ref sig .tc) → Buf (Elt F) ((c : Thread nD τ).loc b))

/-- The two input arrays and the two input blocks at a point, under their literal types. -/
abbrev larr (c : Dev nD) : Vec F S4096x40960 .bf16 := V c main_v23
abbrev rarr (c : Dev nD) : Vec F S40960x128 .bf16 := V c main_v24
abbrev lblk (c : Dev nD) (t : Fin cfg0.N) : Vec F S1024x5120 .bf16 := iblk0 V c 0 t
abbrev rblk (c : Dev nD) (t : Fin cfg0.N) : Vec F S5120x128 .bf16 := iblk0 V c 1 t

/-- The left block at point `t`: entry `x` is the left array's entry (1024 (t / 8) + x 0, 5120 (t % 8) + x 1). -/
theorem lblk_apply (c : Dev nD) (t : Fin cfg0.N) (x : S1024x5120.Idx) (k : S4096x40960.Idx)
    (hk0 : (k 0).val = 1024 * (t.val / 8) + (x 0).val) (hk1 : (k 1).val = 5120 * (t.val % 8) + (x 1).val) :
    lblk V c t x = larr V c k := by
  unfold lblk iblk0
  rw [View.read_apply]
  show V c main_v23 _ = V c main_v23 _
  congr 1
  funext a
  apply Fin.ext
  match a with
  | ⟨0, _⟩ => show win0_0.index t 0 * 1024 + 1 * (x 0).val = (k 0).val; rw [(index0_0 t).1, hk0]; omega
  | ⟨1, _⟩ => show win0_0.index t 1 * 5120 + 1 * (x 1).val = (k 1).val; rw [(index0_0 t).2, hk1]; omega

/-- The right block at point `t`: entry `x` is the right array's entry (5120 (t % 8) + x 0, x 1). -/
theorem rblk_apply (c : Dev nD) (t : Fin cfg0.N) (x : S5120x128.Idx) (k : S40960x128.Idx)
    (hk0 : (k 0).val = 5120 * (t.val % 8) + (x 0).val) (hk1 : (k 1).val = (x 1).val) :
    rblk V c t x = rarr V c k := by
  unfold rblk iblk0
  rw [View.read_apply]
  show V c main_v24 _ = V c main_v24 _
  congr 1
  funext a
  apply Fin.ext
  match a with
  | ⟨0, _⟩ => show win0_1.index t 0 * 5120 + 1 * (x 0).val = (k 0).val; rw [(index0_1 t).1, hk0]; omega
  | ⟨1, _⟩ => show win0_1.index t 1 * 128 + 1 * (x 1).val = (k 1).val; rw [(index0_1 t).2, hk1]; omega

end Blocks

/-- Where entry `y` of the output window's block at point `t` lies in the output array: row 1024 (t / 8) + y 0,
    column y 1. -/
theorem oblk_emb_0 (t : Fin cfg0.N) (y : ((cfg0.win 2).xblock (cfg0.grid.coords t)).Idx) :
    ((((cfg0.win 2).blk t).view.emb y) 0).val = 1024 * (t.val / 8) + (y 0).val := by
  show win0_2.index t 0 * 1024 + 1 * (y 0).val = _
  rw [(index0_2 t).1]; omega
theorem oblk_emb_1 (t : Fin cfg0.N) (y : ((cfg0.win 2).xblock (cfg0.grid.coords t)).Idx) :
    ((((cfg0.win 2).blk t).view.emb y) 1).val = (y 1).val := by
  show win0_2.index t 1 * 128 + 1 * (y 1).val = _
  rw [(index0_2 t).2]; omega

/-- An index of the output array lies in the block of every point of its row block: rows 1024 (t / 8) … 1024 (t / 8) + 1023. -/
theorem mem_oblk (t : Fin cfg0.N) (i : S4096x128.Idx) (h : (i 0).val / 1024 = t.val / 8) :
    i ∈ ((cfg0.win 2).blk t).view.set := by
  show i ∈ ((View.whole main_v25).slice (win0_2.rect t)).set
  rw [View.set_slice_whole, Rect.mem_set_unit]
  intro a
  have h0 : (i 0 : Nat) < 4096 := (i 0).isLt
  have h1 : (i 1 : Nat) < 128 := (i 1).isLt
  match a with
  | ⟨0, _⟩ =>
    show win0_2.index t 0 * 1024 ≤ (i 0 : Nat) ∧ (i 0 : Nat) < win0_2.index t 0 * 1024 + 1024
    rw [(index0_2 t).1]; omega
  | ⟨1, _⟩ =>
    show win0_2.index t 1 * 128 ≤ (i 1 : Nat) ∧ (i 1 : Nat) < win0_2.index t 1 * 128 + 128
    rw [(index0_2 t).2]; omega

/-! ## The accumulator after the last column block of a row block -/

section Acc
variable (V : (c : Dev nD) → (b : Ref sig .tc) → Buf (Elt Ideal) ((c : Thread nD τ).loc b))

/-- Term `n` of the product of row `a` of the left array with column `b` of the right array. -/
def term (c : Dev nD) (a : Fin 4096) (b : Fin 128) (n : Fin 40960) : EReal :=
  larr V c (ix2 a n) * rarr V c (ix2 n b)

theorem eight_blocks : (7 + 1) * 5120 = 40960 := rfl

/-- Column block `k` of row block `i` is a point of the grid, -/
theorem point_lt (i : Fin 4) (k : ℕ) (hk : k < 7 + 1) : 8 * i.val + k < cfg0.N := by
  rw [show cfg0.N = 32 from N_0]; have := i.isLt; omega
/-- and row `r` of row block `i` is a row of the array. -/
theorem row_lt (i : Fin 4) (r : Fin 1024) : 1024 * i.val + r.val < 4096 := by
  have := i.isLt; have := r.isLt; omega

/-- The accumulator after a point depends on the point's number only. -/
theorem accAt0_congr (c : Dev nD) {n n' : ℕ} (e : n = n') (h : n < cfg0.N) (h' : n' < cfg0.N) :
    accAt0 V c n h = accAt0 V c n' h' := by
  subst e; rfl

/-- The block product at the point of row block `i` and column block `k`, at (r, j): the sum over that block's
    indices of the two arrays' entries' products. -/
theorem point_product (c : Dev nD) (t : Fin cfg0.N) (i : Fin 4) (k : Fin (7 + 1)) (ht : t.val = 8 * i.val + k.val)
    (r : Fin 1024) (j : Fin 128) :
    ∑ kk : Fin 5120, lblk V c t (ix2 r kk) * rblk V c t (ix2 kk j)
      = blockSum eight_blocks (term V c ⟨1024 * i.val + r.val, row_lt i r⟩ j) k := by
  have hd : t.val / 8 = i.val := by have := k.isLt; omega
  have hm : t.val % 8 = k.val := by have := k.isLt; omega
  unfold blockSum
  refine Finset.sum_congr rfl fun kk _ => ?_
  unfold term
  rw [lblk_apply V c t (ix2 r kk) (ix2 ⟨1024 * i.val + r.val, row_lt i r⟩ ⟨5120 * k.val + kk.val, Cert.LibSumBlocks.block_lt eight_blocks k kk⟩)
      (by show 1024 * i.val + r.val = 1024 * (t.val / 8) + r.val; rw [hd])
      (by show 5120 * k.val + kk.val = 5120 * (t.val % 8) + kk.val; rw [hm]),
    rblk_apply V c t (ix2 kk j) (ix2 ⟨5120 * k.val + kk.val, Cert.LibSumBlocks.block_lt eight_blocks k kk⟩ j)
      (by show 5120 * k.val + kk.val = 5120 * (t.val % 8) + kk.val; rw [hm]) rfl]

/-- At the first column block of a row block the accumulator's entry is zero plus the block product's; -/
theorem acc_first (c : Dev nD) (t : Fin cfg0.N) (h : t.val % 8 = 0) (r : Fin 1024) (j : Fin 128) :
    accAt0 V c t.val t.isLt (ix2 r j) = 0 + ∑ kk : Fin 5120, lblk V c t (ix2 r kk) * rblk V c t (ix2 kk j) :=
  (congrFun (accAt0_first V c t h) (ix2 r j)).trans
    ((pay2_apply (k0_pay1 (F := Ideal)) (lblk V c t) (rblk V c t) r j).trans
      (congrArg (· + ∑ kk : Fin 5120, lblk V c t (ix2 r kk) * rblk V c t (ix2 kk j)) (pay1_apply (ix2 r j))))

/-- at any other column block it is the entry the point before left plus the block product's. -/
theorem acc_next (c : Dev nD) (t : Fin cfg0.N) (h : t.val % 8 ≠ 0) (r : Fin 1024) (j : Fin 128) :
    accAt0 V c t.val t.isLt (ix2 r j)
      = accAt0 V c (t.val - 1) (Nat.lt_of_le_of_lt (Nat.sub_le _ _) t.isLt) (ix2 r j)
        + ∑ kk : Fin 5120, lblk V c t (ix2 r kk) * rblk V c t (ix2 kk j) :=
  (congrFun (accAt0_next V c t h) (ix2 r j)).trans
    (pay2_apply (accAt0 V c (t.val - 1) (Nat.lt_of_le_of_lt (Nat.sub_le _ _) t.isLt)) (lblk V c t) (rblk V c t) r j)

/-- AFTER THE LAST COLUMN BLOCK of row block `i` the accumulator's entry (r, j) is the whole sum over the 40960
    contracted indices. -/
theorem acc_last (c : Dev nD) (i : Fin 4) (r : Fin 1024) (j : Fin 128) :
    accAt0 V c (8 * i.val + 7) (point_lt i 7 (Nat.lt_succ_self 7)) (ix2 r j)
      = ∑ n : Fin 40960, term V c ⟨1024 * i.val + r.val, row_lt i r⟩ j n :=
  runningTotal_last eight_blocks (term V c ⟨1024 * i.val + r.val, row_lt i r⟩ j)
    (fun k hk => accAt0 V c (8 * i.val + k) (point_lt i k hk) (ix2 r j))
    ((acc_first V c ⟨8 * i.val + 0, point_lt i 0 (Nat.succ_pos 7)⟩ (by show (8 * i.val + 0) % 8 = 0; omega) r j).trans
      (congrArg (0 + ·) (point_product V c ⟨8 * i.val + 0, point_lt i 0 (Nat.succ_pos 7)⟩ i ⟨0, Nat.succ_pos 7⟩ rfl r j)))
    (fun k hk =>
      (acc_next V c ⟨8 * i.val + (k + 1), point_lt i (k + 1) hk⟩ (by show (8 * i.val + (k + 1)) % 8 ≠ 0; omega) r j).trans
        (congrArg₂ (· + ·)
          (congrFun (accAt0_congr V c (show 8 * i.val + (k + 1) - 1 = 8 * i.val + k by omega) _ (point_lt i k (Nat.lt_of_succ_lt hk))) (ix2 r j))
          (point_product V c ⟨8 * i.val + (k + 1), point_lt i (k + 1) hk⟩ i ⟨k + 1, hk⟩ rfl r j)))

end Acc

/-! ## The write-backs and the output array -/

section Final
variable (V : (c : Dev nD) → (b : Ref sig .tc) → Buf (Elt Ideal) ((c : Thread nD τ).loc b))

/-- The product of the two arrays as the region finds them (both padded along the contracted axis), entry by entry. -/
def padded (c : Dev nD) : Vec Ideal S4096x128 .f32 := fun k =>
  ∑ n : Fin 40960, term V c ⟨(k 0).val, idx2_lt0 k⟩ ⟨(k 1).val, idx2_lt1 k⟩ n

/-- After the last column block of its row block, the accumulator's entry `y` is the padded product's entry at row
    1024 (t / 8) + y 0 and column y 1. -/
theorem acc_entry (c : Dev nD) (t : Fin cfg0.N) (h7 : t.val % 8 = 7) (y : S1024x128.Idx) (k : S4096x128.Idx)
    (hk0 : (k 0).val = 1024 * (t.val / 8) + (y 0).val) (hk1 : (k 1).val = (y 1).val) :
    accAt0 V c t.val t.isLt y = padded V c k := by
  obtain ⟨r, j, rfl⟩ : ∃ (r : Fin 1024) (j : Fin 128), y = ix2 r j := ⟨y 0, y 1, eq_ix2 y⟩
  have hN : t.val < 32 := lt_of_lt_of_eq t.isLt N_0
  have hi : t.val / 8 < 4 := by omega
  refine (congrFun (accAt0_congr V c (show t.val = 8 * (⟨t.val / 8, hi⟩ : Fin 4).val + 7 by show t.val = 8 * (t.val / 8) + 7; omega)
    t.isLt (point_lt ⟨t.val / 8, hi⟩ 7 (Nat.lt_succ_self 7))) (ix2 r j)).trans ((acc_last V c ⟨t.val / 8, hi⟩ r j).trans ?_)
  exact congrArg₂ (fun a b => ∑ n : Fin 40960, term V c a b n)
    (Fin.ext hk0.symm : (⟨1024 * (t.val / 8) + r.val, row_lt ⟨t.val / 8, hi⟩ r⟩ : Fin 4096) = ⟨(k 0).val, idx2_lt0 k⟩)
    (Fin.ext hk1.symm : j = ⟨(k 1).val, idx2_lt1 k⟩)

set_option maxRecDepth 262144 in
/-- WHAT A POINT WRITES BACK (the last column block of a row block) is its block of the padded product. -/
theorem flushed_eq (c : Dev nD) (t : Fin cfg0.N) (hf : (cfg0.win 2).flush t = true) :
    (dat0 V c).flushed 2 t = ((cfg0.win 2).blk t).view.read (Elt Ideal) (padded V c) := by
  have h7 : t.val % 8 = 7 := (flush0_2 t).mp hf
  show (cfg0.win 2).cut (grid0.coords t) ((dat0 V c).after 2 t) = _
  rw [after0_2]
  funext y
  show accAt0 V c t.val t.isLt y = padded V c (((cfg0.win 2).blk t).view.emb y)
  exact acc_entry V c t h7 y (((cfg0.win 2).blk t).view.emb y) (oblk_emb_0 t y) (oblk_emb_1 t y)

/-- Every index of the output array lies in the block some point writes back: the last point of its row block. -/
theorem cover0 (i : S4096x128.Idx) :
    ∃ t : Fin cfg0.N, (cfg0.win 2).flush t = true ∧ i ∈ ((cfg0.win 2).blk t).view.set := by
  have h0 : (i 0).val < 4096 := idx2_lt0 i
  exact ⟨⟨8 * ((i 0).val / 1024) + 7, by rw [show cfg0.N = 32 from N_0]; omega⟩,
    (flush0_2 _).mpr (by show (8 * ((i 0).val / 1024) + 7) % 8 = 7; omega),
    mem_oblk _ i (by show (i 0).val / 1024 = (8 * ((i 0).val / 1024) + 7) / 8; omega)⟩

/-- So the output array ends holding the padded product. -/
theorem final_padded (c : Dev nD) : (dat0 V c).arrAt 2 cfg0.N = padded V c :=
  (dat0 V c).arrAt_eq_of_cover 2 (padded V c) (flushed_eq V c) cover0

end Final

/-! ## The padding and the reference -/

section Pads
variable (A : (⟨S4096x40000, .f32⟩ : BufTy).Contents (Elt Ideal)) (B : (⟨S40000x128, .f32⟩ : BufTy).Contents (Elt Ideal))

/-- The padding value, the integer 0 converted, is the real 0. -/
theorem padValue_apply (i : S_.Idx) : (sitofp (F := Ideal) .f32 (constantI S_ 32 0#32)) i = 0 := by
  show (((0#32 : BitVec 32).toInt : ℝ) : EReal) = 0
  simp

/-- The left array: 960 zero columns after the 40000; -/
abbrev padL : Vec Ideal S4096x40960 .bf16 :=
  truncf (F := Ideal) .bf16 (pad S4096x40960 ![0, 0] ![0, 960] ![0, 0] A (sitofp .f32 (constantI S_ 32 0#32)) pads_S4096x40000_S4096x40960_000_09600 h_S_) bitsLt_bf16_f32
/-- the right array: 960 zero rows after the 40000. -/
abbrev padR : Vec Ideal S40960x128 .bf16 :=
  truncf (F := Ideal) .bf16 (pad S40960x128 ![0, 0] ![960, 0] ![0, 0] B (sitofp .f32 (constantI S_ 32 0#32)) pads_S40000x128_S40960x128_09600_000 h_S_) bitsLt_bf16_f32

theorem padL_inside (a : Fin 4096) (n : Fin 40960) (hn : n.val < 40000) : padL A (ix2 a n) = A (ix2 a ⟨n.val, hn⟩) :=
  pad_apply_of_inside ![0, 0] ![0, 960] ![0, 0] A (sitofp (F := Ideal) .f32 (constantI S_ 32 0#32)) pads_S4096x40000_S4096x40960_000_09600 h_S_ (ix2 a n) (ix2 a ⟨n.val, hn⟩) fun d => match d with
    | ⟨0, _⟩ => by show a.val = 0 + a.val * (0 + 1); omega
    | ⟨1, _⟩ => by show n.val = 0 + n.val * (0 + 1); omega
theorem padL_outside (a : Fin 4096) (n : Fin 40960) (hn : 40000 ≤ n.val) : padL A (ix2 a n) = 0 := by
  refine Eq.trans (pad_apply_of_not_inside (s := S4096x40000) (t := S4096x40960) ![0, 0] ![0, 960] ![0, 0] A (sitofp (F := Ideal) .f32 (constantI S_ 32 0#32)) pads_S4096x40000_S4096x40960_000_09600 h_S_ (ix2 a n) (1 : Fin 2) ?_) (padValue_apply _)
  show ¬(0 ≤ n.val ∧ (n.val - 0) % (0 + 1) = 0 ∧ (n.val - 0) / (0 + 1) < 40000)
  omega
theorem padR_inside (n : Fin 40960) (b : Fin 128) (hn : n.val < 40000) : padR B (ix2 n b) = B (ix2 ⟨n.val, hn⟩ b) :=
  pad_apply_of_inside ![0, 0] ![960, 0] ![0, 0] B (sitofp (F := Ideal) .f32 (constantI S_ 32 0#32)) pads_S40000x128_S40960x128_09600_000 h_S_ (ix2 n b) (ix2 ⟨n.val, hn⟩ b) fun d => match d with
    | ⟨0, _⟩ => by show n.val = 0 + n.val * (0 + 1); omega
    | ⟨1, _⟩ => by show b.val = 0 + b.val * (0 + 1); omega
theorem padR_outside (n : Fin 40960) (b : Fin 128) (hn : 40000 ≤ n.val) : padR B (ix2 n b) = 0 := by
  refine Eq.trans (pad_apply_of_not_inside (s := S40000x128) (t := S40960x128) ![0, 0] ![960, 0] ![0, 0] B (sitofp (F := Ideal) .f32 (constantI S_ 32 0#32)) pads_S40000x128_S40960x128_09600_000 h_S_ (ix2 n b) (0 : Fin 2) ?_) (padValue_apply _)
  show ¬(0 ≤ n.val ∧ (n.val - 0) % (0 + 1) = 0 ∧ (n.val - 0) / (0 + 1) < 40000)
  omega

/-- The padded product's entry: the last 960 terms are 0 * 0, the first 40000 are the unpadded arrays'. -/
theorem padded_sum (X : Vec Ideal S4096x40960 .bf16) (Y : Vec Ideal S40960x128 .bf16) (hX : X = padL A) (hY : Y = padR B)
    (a : Fin 4096) (b : Fin 128) :
    ∑ n : Fin 40960, X (ix2 a n) * Y (ix2 n b) = ∑ n : Fin 40000, A (ix2 a n) * B (ix2 n b) := by
  subst hX hY
  rw [sum_of_trailing_zero (a := 40000) (b := 960) rfl (fun n : Fin 40960 => padL A (ix2 a n) * padR B (ix2 n b))
    (fun n hn => by show padL A (ix2 a n) * padR B (ix2 n b) = 0; rw [padL_outside A a n hn, padR_outside B n b hn, mul_zero])]
  refine Finset.sum_congr rfl fun n _ => ?_
  show padL A (ix2 a ⟨n.val, _⟩) * padR B (ix2 ⟨n.val, _⟩ b) = _
  rw [padL_inside A a ⟨n.val, _⟩ n.isLt, padR_inside B ⟨n.val, _⟩ b n.isLt]

theorem lhs_ref_0 (i : Cert.ReferenceIdeal.S4096x128.Idx) (q : Cert.ReferenceIdeal.dot_S4096x40000_S40000x128_S4096x128_1_0_0_1_n_n.contr.Idx) :
    (Cert.ReferenceIdeal.dot_S4096x40000_S40000x128_S4096x128_1_0_0_1_n_n.lhsIdx i q 0).val = (i 0).val := by
  unfold DotDims.lhsIdx
  rw [dif_neg (show ¬(0 : Fin Cert.ReferenceIdeal.S4096x40000.rank) ∈ Cert.ReferenceIdeal.dot_S4096x40000_S40000x128_S4096x128_1_0_0_1_n_n.lhsBatch by decide), dif_pos (show (0 : Fin Cert.ReferenceIdeal.S4096x40000.rank) ∈ Cert.ReferenceIdeal.dot_S4096x40000_S40000x128_S4096x128_1_0_0_1_n_n.lhsNonContracting by decide)]
  rfl
theorem lhs_ref_1 (i : Cert.ReferenceIdeal.S4096x128.Idx) (q : Cert.ReferenceIdeal.dot_S4096x40000_S40000x128_S4096x128_1_0_0_1_n_n.contr.Idx) :
    (Cert.ReferenceIdeal.dot_S4096x40000_S40000x128_S4096x128_1_0_0_1_n_n.lhsIdx i q 1).val = (q ⟨0, by decide⟩).val :=
  Cert.ReferenceIdeal.dot_S4096x40000_S40000x128_S4096x128_1_0_0_1_n_n.lhsIdx_val_of_single rfl i q
theorem rhs_ref_0 (i : Cert.ReferenceIdeal.S4096x128.Idx) (q : Cert.ReferenceIdeal.dot_S4096x40000_S40000x128_S4096x128_1_0_0_1_n_n.contr.Idx) :
    (Cert.ReferenceIdeal.dot_S4096x40000_S40000x128_S4096x128_1_0_0_1_n_n.rhsIdx i q 0).val = (q ⟨0, by decide⟩).val :=
  Cert.ReferenceIdeal.dot_S4096x40000_S40000x128_S4096x128_1_0_0_1_n_n.rhsIdx_val_of_single rfl i q
theorem rhs_ref_1 (i : Cert.ReferenceIdeal.S4096x128.Idx) (q : Cert.ReferenceIdeal.dot_S4096x40000_S40000x128_S4096x128_1_0_0_1_n_n.contr.Idx) :
    (Cert.ReferenceIdeal.dot_S4096x40000_S40000x128_S4096x128_1_0_0_1_n_n.rhsIdx i q 1).val = (i 1).val := by
  unfold DotDims.rhsIdx
  rw [dif_neg (show ¬(1 : Fin Cert.ReferenceIdeal.S40000x128.rank) ∈ Cert.ReferenceIdeal.dot_S4096x40000_S40000x128_S4096x128_1_0_0_1_n_n.rhsBatch by decide), dif_pos (show (1 : Fin Cert.ReferenceIdeal.S40000x128.rank) ∈ Cert.ReferenceIdeal.dot_S4096x40000_S40000x128_S4096x128_1_0_0_1_n_n.rhsNonContracting by decide)]
  rfl

/-- The reference's product at an entry: the sum over the 40000 contracted indices. -/
theorem ref_apply (i : S4096x128.Idx) :
    Host.dotGeneral (F := Ideal) (φ₁ := .f32) (φ₂ := .f32) Cert.ReferenceIdeal.dot_S4096x40000_S40000x128_S4096x128_1_0_0_1_n_n none A B i
      = ∑ n : Fin 40000, A (ix2 ⟨(i 0).val, idx2_lt0 i⟩ n) * B (ix2 n ⟨(i 1).val, idx2_lt1 i⟩) := by
  simp only [Host.dotGeneral]
  rw [Ideal.dotGeneral_apply, ← Equiv.sum_comp (contrEquiv1 Cert.ReferenceIdeal.dot_S4096x40000_S40000x128_S4096x128_1_0_0_1_n_n 40000 rfl rfl).symm]
  refine Finset.sum_congr rfl fun k _ => ?_
  have hk := contrEquiv1_symm_val Cert.ReferenceIdeal.dot_S4096x40000_S40000x128_S4096x128_1_0_0_1_n_n 40000 rfl rfl k
  have el : Cert.ReferenceIdeal.dot_S4096x40000_S40000x128_S4096x128_1_0_0_1_n_n.lhsIdx i ((contrEquiv1 Cert.ReferenceIdeal.dot_S4096x40000_S40000x128_S4096x128_1_0_0_1_n_n 40000 rfl rfl).symm k) = ix2 ⟨(i 0).val, idx2_lt0 i⟩ k := funext fun a => Fin.ext (by
    match a with
    | ⟨0, _⟩ => exact lhs_ref_0 _ _
    | ⟨1, _⟩ => exact (lhs_ref_1 _ _).trans hk)
  have er : Cert.ReferenceIdeal.dot_S4096x40000_S40000x128_S4096x128_1_0_0_1_n_n.rhsIdx i ((contrEquiv1 Cert.ReferenceIdeal.dot_S4096x40000_S40000x128_S4096x128_1_0_0_1_n_n 40000 rfl rfl).symm k) = ix2 k ⟨(i 1).val, idx2_lt1 i⟩ := funext fun a => Fin.ext (by
    match a with
    | ⟨0, _⟩ => exact (rhs_ref_0 _ _).trans hk
    | ⟨1, _⟩ => exact rhs_ref_1 _ _)
  rw [el, er]

end Pads

/-! ## Region 0's value -/

/-- REGION 0 LEAVES THE REFERENCE'S PRODUCT in its output array: the K-blocked product of the two zero-padded arrays
    is the reference's one contraction of the unpadded ones. -/
theorem region0_value (V : (c : Dev nD) → (b : Ref sig .tc) → Buf (Elt Ideal) ((c : Thread nD τ).loc b)) (c : Dev nD)
    (A : (⟨S4096x40000, .f32⟩ : BufTy).Contents (Elt Ideal)) (B : (⟨S40000x128, .f32⟩ : BufTy).Contents (Elt Ideal))
    (hA : V c main_v23 = (truncf (F := Ideal) .bf16 (pad S4096x40960 ![0, 0] ![0, 960] ![0, 0] A (sitofp .f32 (constantI S_ 32 0#32)) Cert.KernelIdeal.Gen.pads_S4096x40000_S4096x40960_000_09600 Cert.KernelIdeal.Gen.h_S_) Cert.KernelIdeal.Gen.bitsLt_bf16_f32 : (⟨S4096x40960, .bf16⟩ : BufTy).Contents (Elt Ideal)))
    (hB : V c main_v24 = (truncf (F := Ideal) .bf16 (pad S40960x128 ![0, 0] ![960, 0] ![0, 0] B (sitofp .f32 (constantI S_ 32 0#32)) Cert.KernelIdeal.Gen.pads_S40000x128_S40960x128_09600_000 Cert.KernelIdeal.Gen.h_S_) Cert.KernelIdeal.Gen.bitsLt_bf16_f32 : (⟨S40960x128, .bf16⟩ : BufTy).Contents (Elt Ideal))) :
    (dat0 (F := Ideal) V c).arrAt 2 cfg0.N = Host.dotGeneral (F := Ideal) (φ₁ := .f32) (φ₂ := .f32) Cert.ReferenceIdeal.dot_S4096x40000_S40000x128_S4096x128_1_0_0_1_n_n none A B := by
  rw [final_padded V c]
  funext i
  exact (padded_sum A B (larr V c) (rarr V c) hA hB ⟨(i 0).val, idx2_lt0 i⟩ ⟨(i 1).val, idx2_lt1 i⟩).trans (ref_apply A B i).symm

end Cert.KernelIdeal.Hand.R0

end
-- ==== Proof.KI.Value1.lean ====
/-
  What region 1 leaves in its output array: the reference's product of its two operands.

  Region 1 runs the K-blocked product on the one-point grid: at the one point the accumulator is reset to zero, the
  product of the two input blocks is added to it, and it is stored into the output block. At that point every
  window's block index is zero on both axes, so each input block is its whole array, and the one block written back
  is the whole output array.

  Entry (p, q) of what is written is  0 + Σ_k X(p, k) · Y(k, q)  over the shared axis k < 4096, X and Y being the two
  operand arrays as the region finds them: the casts to the narrower format of paddings of width zero of A and B. On
  extended reals a narrowing cast is the identity and a padding of width zero reads its operand, so the entry is
  Σ_k A(p, k) · B(k, q), which is also the reference's dot_general at (p, q). Only  0 + x = x  and the re-indexing of
  a finite sum along a bijection are used; nothing is asked of the entries (they may be infinite).

  Here: the product at an entry (`prodAt`) and a contraction record's sum as that product; the operand indices of a
  contraction with no batch axis and one free axis on each side, and those facts for the kernel's and the reference's
  records; a padding of width zero; the reference and the kernel's payload at an entry; each block as its whole array;
  what the write-back writes; the cover; the region's output array.
-/
import proofs.«126029_j60490319397131_1_alg».proof.Proof.KI.Dat1
import proofs.«126029_j60490319397131_1_alg».proof.Proof.Gen.ReferenceIdeal
import Idealize.ShloMosaic.PureOps.Ideal
import Idealize.ShloMosaic.PureOps.Ideal.Laws
import Idealize.ShloMosaic.Lib.ValueIdx
import Idealize.ShloMosaic.Lib.Pipeline.Value
import Idealize.ShloMosaic.Lib.KernelVsHost

set_option maxRecDepth 16384

noncomputable section

namespace Cert.KernelIdeal.Hand.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen

/-! ## A product of a [1024, 4096] by a [4096, 128] array, entry by entry -/

/-- Entry (p, q) of the product: the sum over the shared axis. -/
def prodAt (X : S1024x4096.Idx → EReal) (Y : S4096x128.Idx → EReal) (p : Fin 1024) (q : Fin 128) : EReal :=
  ∑ k : Fin 4096, X (ix2 p k) * Y (ix2 k q)

/-- A contraction record over these three shapes with one contracted axis of extent 4096, whose left operand index is
    (row of the output, contraction index) and whose right operand index is (contraction index, column of the output),
    sums to `prodAt`. -/
theorem sum_contr_eq_prodAt (D : DotDims S1024x4096 S4096x128 S1024x128) (hr : D.contr.rank = 1)
    (hs : D.contr.size ⟨0, by omega⟩ = 4096)
    (hl0 : ∀ (j : S1024x128.Idx) (k : D.contr.Idx), (D.lhsIdx j k 0).val = (j 0).val)
    (hl1 : ∀ (j : S1024x128.Idx) (k : D.contr.Idx), (D.lhsIdx j k 1).val = (k ⟨0, by omega⟩).val)
    (hr0 : ∀ (j : S1024x128.Idx) (k : D.contr.Idx), (D.rhsIdx j k 0).val = (k ⟨0, by omega⟩).val)
    (hr1 : ∀ (j : S1024x128.Idx) (k : D.contr.Idx), (D.rhsIdx j k 1).val = (j 1).val)
    (X : S1024x4096.Idx → EReal) (Y : S4096x128.Idx → EReal) (p : Fin 1024) (q : Fin 128) :
    (∑ k : D.contr.Idx, X (D.lhsIdx (ix2 p q) k) * Y (D.rhsIdx (ix2 p q) k)) = prodAt X Y p q := by
  unfold prodAt
  rw [← Equiv.sum_comp (contrEquiv1 D 4096 hr hs).symm]
  refine Finset.sum_congr rfl fun k _ => ?_
  have hk := contrEquiv1_symm_val D 4096 hr hs k
  have el : D.lhsIdx (ix2 p q) ((contrEquiv1 D 4096 hr hs).symm k) = ix2 p k := funext fun a => Fin.ext (by
    match a with
    | ⟨0, _⟩ => exact hl0 _ _
    | ⟨1, _⟩ => exact (hl1 _ _).trans hk)
  have er : D.rhsIdx (ix2 p q) ((contrEquiv1 D 4096 hr hs).symm k) = ix2 k q := funext fun a => Fin.ext (by
    match a with
    | ⟨0, _⟩ => exact (hr0 _ _).trans hk
    | ⟨1, _⟩ => exact hr1 _ _)
  rw [el, er]

/-! ## The operand indices of a contraction with no batch axis and one free axis on each side -/

/-- With no batch axis and one free axis `a` on the left, the left operand's index on `a` is the output's first coordinate. -/
theorem lhsIdx_val_of_free {sl sr so : Shape} (d : DotDims sl sr so) {a : Fin sl.rank} (hb : d.lhsBatch = [])
    (hn : d.lhsNonContracting = [a]) (h0 : 0 < so.rank) (j : so.Idx) (k : d.contr.Idx) :
    (d.lhsIdx j k a).val = (j ⟨0, h0⟩).val := by
  have hnb : a ∉ d.lhsBatch := by rw [hb]; exact List.not_mem_nil
  have hmem : a ∈ d.lhsNonContracting := by rw [hn]; exact List.mem_singleton.mpr rfl
  unfold DotDims.lhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn])

/-- With no batch axis, one free axis on the left and one free axis `a` on the right, the right operand's index on `a` is
    the output's second coordinate. -/
theorem rhsIdx_val_of_free {sl sr so : Shape} (d : DotDims sl sr so) {a : Fin sr.rank} {a' : Fin sl.rank} (hb : d.rhsBatch = [])
    (hlb : d.lhsBatch = []) (hln : d.lhsNonContracting = [a']) (hn : d.rhsNonContracting = [a]) (h1 : 1 < so.rank)
    (j : so.Idx) (k : d.contr.Idx) :
    (d.rhsIdx j k a).val = (j ⟨1, h1⟩).val := by
  have hnb : a ∉ d.rhsBatch := by rw [hb]; exact List.not_mem_nil
  have hmem : a ∈ d.rhsNonContracting := by rw [hn]; exact List.mem_singleton.mpr rfl
  unfold DotDims.rhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hlb, hln, hn])

/-! ## The kernel's and the reference's contraction records -/

theorem kdot_lhs_0 (j : S1024x128.Idx) (k : dot_S1024x4096_S4096x128_S1024x128_1_0_0_1_n_n.contr.Idx) :
    (dot_S1024x4096_S4096x128_S1024x128_1_0_0_1_n_n.lhsIdx j k 0).val = (j 0).val :=
  lhsIdx_val_of_free dot_S1024x4096_S4096x128_S1024x128_1_0_0_1_n_n rfl rfl (by decide) j k
theorem kdot_lhs_1 (j : S1024x128.Idx) (k : dot_S1024x4096_S4096x128_S1024x128_1_0_0_1_n_n.contr.Idx) :
    (dot_S1024x4096_S4096x128_S1024x128_1_0_0_1_n_n.lhsIdx j k 1).val = (k ⟨0, by decide⟩).val :=
  dot_S1024x4096_S4096x128_S1024x128_1_0_0_1_n_n.lhsIdx_val_of_single rfl j k
theorem kdot_rhs_0 (j : S1024x128.Idx) (k : dot_S1024x4096_S4096x128_S1024x128_1_0_0_1_n_n.contr.Idx) :
    (dot_S1024x4096_S4096x128_S1024x128_1_0_0_1_n_n.rhsIdx j k 0).val = (k ⟨0, by decide⟩).val :=
  dot_S1024x4096_S4096x128_S1024x128_1_0_0_1_n_n.rhsIdx_val_of_single rfl j k
theorem kdot_rhs_1 (j : S1024x128.Idx) (k : dot_S1024x4096_S4096x128_S1024x128_1_0_0_1_n_n.contr.Idx) :
    (dot_S1024x4096_S4096x128_S1024x128_1_0_0_1_n_n.rhsIdx j k 1).val = (j 1).val :=
  rhsIdx_val_of_free dot_S1024x4096_S4096x128_S1024x128_1_0_0_1_n_n rfl rfl rfl rfl (by decide) j k

theorem rdot_lhs_0 (j : S1024x128.Idx) (k : Cert.ReferenceIdeal.dot_S1024x4096_S4096x128_S1024x128_1_0_0_1_n_n.contr.Idx) :
    (Cert.ReferenceIdeal.dot_S1024x4096_S4096x128_S1024x128_1_0_0_1_n_n.lhsIdx j k 0).val = (j 0).val :=
  lhsIdx_val_of_free Cert.ReferenceIdeal.dot_S1024x4096_S4096x128_S1024x128_1_0_0_1_n_n rfl rfl (by decide) j k
theorem rdot_lhs_1 (j : S1024x128.Idx) (k : Cert.ReferenceIdeal.dot_S1024x4096_S4096x128_S1024x128_1_0_0_1_n_n.contr.Idx) :
    (Cert.ReferenceIdeal.dot_S1024x4096_S4096x128_S1024x128_1_0_0_1_n_n.lhsIdx j k 1).val = (k ⟨0, by decide⟩).val :=
  Cert.ReferenceIdeal.dot_S1024x4096_S4096x128_S1024x128_1_0_0_1_n_n.lhsIdx_val_of_single rfl j k
theorem rdot_rhs_0 (j : S1024x128.Idx) (k : Cert.ReferenceIdeal.dot_S1024x4096_S4096x128_S1024x128_1_0_0_1_n_n.contr.Idx) :
    (Cert.ReferenceIdeal.dot_S1024x4096_S4096x128_S1024x128_1_0_0_1_n_n.rhsIdx j k 0).val = (k ⟨0, by decide⟩).val :=
  Cert.ReferenceIdeal.dot_S1024x4096_S4096x128_S1024x128_1_0_0_1_n_n.rhsIdx_val_of_single rfl j k
theorem rdot_rhs_1 (j : S1024x128.Idx) (k : Cert.ReferenceIdeal.dot_S1024x4096_S4096x128_S1024x128_1_0_0_1_n_n.contr.Idx) :
    (Cert.ReferenceIdeal.dot_S1024x4096_S4096x128_S1024x128_1_0_0_1_n_n.rhsIdx j k 1).val = (j 1).val :=
  rhsIdx_val_of_free Cert.ReferenceIdeal.dot_S1024x4096_S4096x128_S1024x128_1_0_0_1_n_n rfl rfl rfl rfl (by decide) j k

/-! ## The two sides at an entry -/

/-- A padding of width zero on every side, with no interior steps, reads its operand. -/
theorem pad_none_apply {n0 n1 : Nat} {α : Type} (x : (⟨2, ![n0, n1]⟩ : Shape).Idx → α) {u : Shape} (v : u.Idx → α)
    (h : (⟨2, ![n0, n1]⟩ : Shape).Pads ![0, 0] ![0, 0] ![0, 0] (⟨2, ![n0, n1]⟩ : Shape)) (hu : 0 < u.numel)
    (j : (⟨2, ![n0, n1]⟩ : Shape).Idx) :
    pad (⟨2, ![n0, n1]⟩ : Shape) ![0, 0] ![0, 0] ![0, 0] x v h hu j = x j :=
  pad_apply_of_inside ![0, 0] ![0, 0] ![0, 0] x v h hu j j fun a => by
    match a with
    | ⟨0, _⟩ => show (j 0).val = 0 + (j 0).val * (0 + 1); omega
    | ⟨1, _⟩ => show (j 1).val = 0 + (j 1).val * (0 + 1); omega

/-- The reference's product at an entry. -/
theorem ref_apply (A : (⟨S1024x4096, .f32⟩ : BufTy).Contents (Elt Ideal)) (B : (⟨S4096x128, .f32⟩ : BufTy).Contents (Elt Ideal))
    (p : Fin 1024) (q : Fin 128) :
    (Host.dotGeneral (F := Ideal) (φ₁ := .f32) (φ₂ := .f32) Cert.ReferenceIdeal.dot_S1024x4096_S4096x128_S1024x128_1_0_0_1_n_n none A B : S1024x128.Idx → EReal) (ix2 p q)
      = prodAt A B p q := by
  simp only [Host.dotGeneral]
  rw [Ideal.dotGeneral_apply]
  exact sum_contr_eq_prodAt Cert.ReferenceIdeal.dot_S1024x4096_S4096x128_S1024x128_1_0_0_1_n_n rfl rfl rdot_lhs_0 rdot_lhs_1 rdot_rhs_0 rdot_rhs_1 A B p q

/-- What the one point stores, at an entry: zero plus the product of the two blocks. -/
theorem pay_apply (X : FVec Ideal S1024x4096 .bf16) (Y : FVec Ideal S4096x128 .bf16) (p : Fin 1024) (q : Fin 128) :
    (k1_pay2 (F := Ideal) (k1_pay1 (F := Ideal)) X Y : S1024x128.Idx → EReal) (ix2 p q) = prodAt X Y p q := by
  unfold k1_pay2 k1_pay1
  dsimp only
  simp only [shapeCast_self]
  show (Ideal.ofBits .f32 0x00000000#32 : EReal)
      + FloatOps.matmul dot_S1024x4096_S4096x128_S1024x128_1_0_0_1_n_n none X Y (constant S1024x128 .f32 0x00000000#32) (ix2 p q) = _
  rw [Ideal.ofBits_zero_f32, zero_add, Ideal.matmul_constant_zero_apply]
  exact sum_contr_eq_prodAt dot_S1024x4096_S4096x128_S1024x128_1_0_0_1_n_n rfl rfl kdot_lhs_0 kdot_lhs_1 kdot_rhs_0 kdot_rhs_1 X Y p q

section Region1Value
variable (V : (c : Dev nD) → (b : Ref sig .tc) → Buf (Elt Ideal) ((c : Thread nD τ).loc b))

/-- At the one point every window's block index is zero on both axes: the block starts at the array's origin. -/
theorem index1_0 : ∀ (t : Fin cfg1.N) (a : Fin 2), win1_0.index t a = 0 :=
  (by decide +kernel : ∀ (t : Fin grid1.N) (a : Fin 2), win1_0.index t a = 0)
theorem index1_1 : ∀ (t : Fin cfg1.N) (a : Fin 2), win1_1.index t a = 0 :=
  (by decide +kernel : ∀ (t : Fin grid1.N) (a : Fin 2), win1_1.index t a = 0)
theorem index1_2 : ∀ (t : Fin cfg1.N) (a : Fin 2), win1_2.index t a = 0 :=
  (by decide +kernel : ∀ (t : Fin grid1.N) (a : Fin 2), win1_2.index t a = 0)

/-- So each input's block is its whole array. -/
theorem iblk1_0_whole (c : Dev nD) (t : Fin cfg1.N) : (iblk1 V c 0 t : Vec Ideal S1024x4096 .bf16) = V c main_v45 := by
  have hz' : (fun a => win1_0.index t a * main_v45.ty.shape.size a) = fun _ => 0 :=
    funext fun a => by rw [index1_0 t a]; exact Nat.zero_mul _
  unfold iblk1
  exact Memref.read_access_unit_zero (Elt Ideal) main_v45 hz' (fun a => by rw [congrFun hz' a]; simp) (V c main_v45)
theorem iblk1_1_whole (c : Dev nD) (t : Fin cfg1.N) : (iblk1 V c 1 t : Vec Ideal S4096x128 .bf16) = V c main_v46 := by
  have hz' : (fun a => win1_1.index t a * main_v46.ty.shape.size a) = fun _ => 0 :=
    funext fun a => by rw [index1_1 t a]; exact Nat.zero_mul _
  unfold iblk1
  exact Memref.read_access_unit_zero (Elt Ideal) main_v46 hz' (fun a => by rw [congrFun hz' a]; simp) (V c main_v46)

/-- What the one point leaves in the output's staging buffer is the reference's product of the two operand arrays:
    entry by entry, both are the sum over the shared axis of the operands' products — the casts to the narrower format
    change nothing on extended reals, a padding of width zero reads its operand, and the accumulator starts at zero. -/
theorem out1_eq (c : Dev nD) (t : Fin cfg1.N)
    (A : (⟨S1024x4096, .f32⟩ : BufTy).Contents (Elt Ideal)) (B : (⟨S4096x128, .f32⟩ : BufTy).Contents (Elt Ideal)) (z z' : (⟨S_, .f32⟩ : BufTy).Contents (Elt Ideal))
    (hA : V c main_v45 = (truncf (F := Ideal) .bf16 (pad S1024x4096 ![0, 0] ![0, 0] ![0, 0] A z Cert.KernelIdeal.Gen.pads_S1024x4096_S1024x4096_000_000 Cert.KernelIdeal.Gen.h_S_) Cert.KernelIdeal.Gen.bitsLt_bf16_f32 : (⟨S1024x4096, .bf16⟩ : BufTy).Contents (Elt Ideal)))
    (hB : V c main_v46 = (truncf (F := Ideal) .bf16 (pad S4096x128 ![0, 0] ![0, 0] ![0, 0] B z' Cert.KernelIdeal.Gen.pads_S4096x128_S4096x128_000_000 Cert.KernelIdeal.Gen.h_S_) Cert.KernelIdeal.Gen.bitsLt_bf16_f32 : (⟨S4096x128, .bf16⟩ : BufTy).Contents (Elt Ideal))) :
    out1 (F := Ideal) V c t
      = Host.dotGeneral (F := Ideal) (φ₁ := .f32) (φ₂ := .f32) Cert.ReferenceIdeal.dot_S1024x4096_S4096x128_S1024x128_1_0_0_1_n_n none A B := by
  funext y
  obtain ⟨p, q, rfl⟩ : ∃ (p : Fin 1024) (q : Fin 128), y = ix2 p q := ⟨y 0, y 1, eq_ix2 y⟩
  unfold out1
  rw [iblk1_0_whole, iblk1_1_whole, hA, hB]
  refine (pay_apply _ _ p q).trans ((Finset.sum_congr rfl fun k _ => ?_).trans (ref_apply A B p q).symm)
  exact congrArg₂ (· * ·)
    (pad_none_apply (n0 := 1024) (n1 := 4096) A z pads_S1024x4096_S1024x4096_000_000 h_S_ (ix2 p k))
    (pad_none_apply (n0 := 4096) (n1 := 128) B z' pads_S4096x128_S4096x128_000_000 h_S_ (ix2 k q))

/-- The one write-back writes that product: the output's block at the one point is the whole output array. -/
theorem flushed1_eq (c : Dev nD) (G : Vec Ideal S1024x128 .f32) (hG : ∀ t, out1 (F := Ideal) V c t = G) (t : Fin cfg1.N) :
    (dat1 (F := Ideal) V c).flushed 2 t = ((cfg1.win 2).blk t).view.read (Elt Ideal) G := by
  have hz' : (fun a => win1_2.index t a * main_v47.ty.shape.size a) = fun _ => 0 :=
    funext fun a => by rw [index1_2 t a]; exact Nat.zero_mul _
  show (cfg1.win 2).cut (grid1.coords t) ((dat1 (F := Ideal) V c).after 2 t) = _
  rw [after1_2, hG t]
  exact (Memref.read_access_unit_zero (Elt Ideal) main_v47 hz' (fun a => by rw [congrFun hz' a]; simp) G).symm

/-- Every entry of the output array lies in the one point's block. -/
theorem cover1 (i : S1024x128.Idx) : ∃ t : Fin cfg1.N, (cfg1.win 2).flush t = true ∧ i ∈ ((cfg1.win 2).blk t).view.set := by
  have h0 : (i 0 : Nat) < 1024 := (i 0).isLt
  have h1 : (i 1 : Nat) < 128 := (i 1).isLt
  refine ⟨t1_0, flush1_2 t1_0, ?_⟩
  show i ∈ ((View.whole main_v47).slice (win1_2.rect t1_0)).set
  rw [View.set_slice_whole, Rect.mem_set_unit]
  intro a
  match a with
  | ⟨0, _⟩ =>
    show win1_2.index t1_0 0 * win1_2.size 0 ≤ (i 0 : Nat) ∧ (i 0 : Nat) < win1_2.index t1_0 0 * win1_2.size 0 + win1_2.xsize (grid1.coords t1_0) 0
    rw [index1_2 t1_0 0, show win1_2.xsize (grid1.coords t1_0) 0 = 1024 from by decide +kernel]; omega
  | ⟨1, _⟩ =>
    show win1_2.index t1_0 1 * win1_2.size 1 ≤ (i 1 : Nat) ∧ (i 1 : Nat) < win1_2.index t1_0 1 * win1_2.size 1 + win1_2.xsize (grid1.coords t1_0) 1
    rw [index1_2 t1_0 1, show win1_2.xsize (grid1.coords t1_0) 1 = 128 from by decide +kernel]; omega

/-- Region 1 leaves in its output array the reference's product of its two operands. -/
theorem region1_value (c : Dev nD)
    (A : (⟨S1024x4096, .f32⟩ : BufTy).Contents (Elt Ideal)) (B : (⟨S4096x128, .f32⟩ : BufTy).Contents (Elt Ideal)) (z z' : (⟨S_, .f32⟩ : BufTy).Contents (Elt Ideal))
    (hA : V c main_v45 = (truncf (F := Ideal) .bf16 (pad S1024x4096 ![0, 0] ![0, 0] ![0, 0] A z Cert.KernelIdeal.Gen.pads_S1024x4096_S1024x4096_000_000 Cert.KernelIdeal.Gen.h_S_) Cert.KernelIdeal.Gen.bitsLt_bf16_f32 : (⟨S1024x4096, .bf16⟩ : BufTy).Contents (Elt Ideal)))
    (hB : V c main_v46 = (truncf (F := Ideal) .bf16 (pad S4096x128 ![0, 0] ![0, 0] ![0, 0] B z' Cert.KernelIdeal.Gen.pads_S4096x128_S4096x128_000_000 Cert.KernelIdeal.Gen.h_S_) Cert.KernelIdeal.Gen.bitsLt_bf16_f32 : (⟨S4096x128, .bf16⟩ : BufTy).Contents (Elt Ideal))) :
    (dat1 (F := Ideal) V c).arrAt 2 cfg1.N
      = Host.dotGeneral (F := Ideal) (φ₁ := .f32) (φ₂ := .f32) Cert.ReferenceIdeal.dot_S1024x4096_S4096x128_S1024x128_1_0_0_1_n_n none A B :=
  (dat1 (F := Ideal) V c).arrAt_eq_of_cover 2 _
    (fun t _ => flushed1_eq V c _ (fun t => out1_eq V c t A B z z' hA hB) t) cover1

end Region1Value

end Cert.KernelIdeal.Hand.R1

end
-- ==== Proof.KI.Stages.lean ====
/-
  The kernel program's result is the reference's, stage by stage.

  The two programs apply the same host operations around the matrix products: the gathers of the node features, the
  concatenation with the self features, the dense update and the rectifier of each layer, the classifier and the
  softmax. The reference's value is read one operation at a time as `val_main_vN` of the argument arrays. Here the
  kernel program's buffers, at the valuations between its items, are identified with those stages in order:
  the gathers before the first product; the first product's padded operands; the first region's output array, which
  is the reference's first dot_general (the region's value); the first layer's output and its two gathers; the second
  product's operands; the second region's output array, the reference's second dot_general; and the tail up to the
  softmax, which is @main's result.
-/
import proofs.«126029_j60490319397131_1_alg».proof.Proof.KI.Launch
import proofs.«126029_j60490319397131_1_alg».proof.Proof.Ref.Imports
import proofs.«126029_j60490319397131_1_alg».proof.Proof.KI.Value0
import proofs.«126029_j60490319397131_1_alg».proof.Proof.KI.Value1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Cert.ReferenceIdeal.Read (val_main_v13 val_main_v20 val_main_v21 val_main_v24 val_main_v31 val_main_v38 val_main_v39 val_main_v54)

variable (m : (ℓ : Loc nD τ sig) → Buf (Elt Ideal) ℓ)

/-! ## Arguments are never written -/

theorem v6_arg8 (c : Dev nD) : V6 m (outs m) c main_arg8 = m ((c.tc : Thread nD τ).loc main_arg8) :=
  (V6_of m (outs m) c main_arg8 (by decide)).trans <| (V5_of m c main_arg8 (by decide)).trans <| (V4_of m c main_arg8 (by decide)).trans <| (V3_of m c main_arg8 (by decide)).trans <| (V2_of m c main_arg8 (by decide)).trans <| (V1_of m c main_arg8 (by decide)).trans <| rfl
theorem v8_arg5 (c : Dev nD) : V8 m (outs m) c main_arg5 = m ((c.tc : Thread nD τ).loc main_arg5) :=
  (V8_of m (outs m) c main_arg5 (by decide)).trans <| (V7_of m (outs m) c main_arg5 (by decide)).trans <| (V6_of m (outs m) c main_arg5 (by decide)).trans <| (V5_of m c main_arg5 (by decide)).trans <| (V4_of m c main_arg5 (by decide)).trans <| (V3_of m c main_arg5 (by decide)).trans <| (V2_of m c main_arg5 (by decide)).trans <| (V1_of m c main_arg5 (by decide)).trans <| rfl
theorem v8_arg4 (c : Dev nD) : V8 m (outs m) c main_arg4 = m ((c.tc : Thread nD τ).loc main_arg4) :=
  (V8_of m (outs m) c main_arg4 (by decide)).trans <| (V7_of m (outs m) c main_arg4 (by decide)).trans <| (V6_of m (outs m) c main_arg4 (by decide)).trans <| (V5_of m c main_arg4 (by decide)).trans <| (V4_of m c main_arg4 (by decide)).trans <| (V3_of m c main_arg4 (by decide)).trans <| (V2_of m c main_arg4 (by decide)).trans <| (V1_of m c main_arg4 (by decide)).trans <| rfl
theorem v9_arg6 (c : Dev nD) : V9 m (outs m) c main_arg6 = m ((c.tc : Thread nD τ).loc main_arg6) :=
  (V9_of m (outs m) c main_arg6 (by decide)).trans <| (V8_of m (outs m) c main_arg6 (by decide)).trans <| (V7_of m (outs m) c main_arg6 (by decide)).trans <| (V6_of m (outs m) c main_arg6 (by decide)).trans <| (V5_of m c main_arg6 (by decide)).trans <| (V4_of m c main_arg6 (by decide)).trans <| (V3_of m c main_arg6 (by decide)).trans <| (V2_of m c main_arg6 (by decide)).trans <| (V1_of m c main_arg6 (by decide)).trans <| rfl
theorem v14_arg9 (c : Dev nD) : V14 m (outs m) c main_arg9 = m ((c.tc : Thread nD τ).loc main_arg9) :=
  (V14_of m (outs m) c main_arg9 (by decide)).trans <| (V13_of m (outs m) c main_arg9 (by decide)).trans <| (V12_of m (outs m) c main_arg9 (by decide)).trans <| (V11_of m (outs m) c main_arg9 (by decide)).trans <| (V10_of m (outs m) c main_arg9 (by decide)).trans <| (V9_of m (outs m) c main_arg9 (by decide)).trans <| (V8_of m (outs m) c main_arg9 (by decide)).trans <| (V7_of m (outs m) c main_arg9 (by decide)).trans <| (V6_of m (outs m) c main_arg9 (by decide)).trans <| (V5_of m c main_arg9 (by decide)).trans <| (V4_of m c main_arg9 (by decide)).trans <| (V3_of m c main_arg9 (by decide)).trans <| (V2_of m c main_arg9 (by decide)).trans <| (V1_of m c main_arg9 (by decide)).trans <| rfl
theorem v14_arg10 (c : Dev nD) : V14 m (outs m) c main_arg10 = m ((c.tc : Thread nD τ).loc main_arg10) :=
  (V14_of m (outs m) c main_arg10 (by decide)).trans <| (V13_of m (outs m) c main_arg10 (by decide)).trans <| (V12_of m (outs m) c main_arg10 (by decide)).trans <| (V11_of m (outs m) c main_arg10 (by decide)).trans <| (V10_of m (outs m) c main_arg10 (by decide)).trans <| (V9_of m (outs m) c main_arg10 (by decide)).trans <| (V8_of m (outs m) c main_arg10 (by decide)).trans <| (V7_of m (outs m) c main_arg10 (by decide)).trans <| (V6_of m (outs m) c main_arg10 (by decide)).trans <| (V5_of m c main_arg10 (by decide)).trans <| (V4_of m c main_arg10 (by decide)).trans <| (V3_of m c main_arg10 (by decide)).trans <| (V2_of m c main_arg10 (by decide)).trans <| (V1_of m c main_arg10 (by decide)).trans <| rfl

/-! ## Before the first product -/

set_option maxRecDepth 8192 in
/-- The self features of layer 1. -/
theorem v5_v13 (c : Dev nD) : V5 m c main_v13 = val_main_v13 (F := Ideal) (m ((c.tc : Thread nD τ).loc main_arg0)) (m ((c.tc : Thread nD τ).loc main_arg2)) (m ((c.tc : Thread nD τ).loc main_arg7)) := by
  show StableHlo.after hostOps0_4 (V4 m c) (Proc.devRef .tc main_v13) = _
  after_results_simp
  rfl

set_option maxRecDepth 8192 in
/-- The neighbour features of layer 1. -/
theorem v5_v20 (c : Dev nD) : V5 m c main_v20 = val_main_v20 (F := Ideal) (m ((c.tc : Thread nD τ).loc main_arg0)) (m ((c.tc : Thread nD τ).loc main_arg1)) (m ((c.tc : Thread nD τ).loc main_arg7)) := by
  show StableHlo.after hostOps0_4 (V4 m c) (Proc.devRef .tc main_v20) = _
  after_results_simp
  rfl

/-- The first product's left operand: the diffusion matrix, 960 zero columns appended, in the narrow format. -/
theorem hA0 (c : Dev nD) : V5 m c main_v23 = (truncf (F := Ideal) .bf16 (pad S4096x40960 ![0, 0] ![0, 960] ![0, 0] (m ((c.tc : Thread nD τ).loc main_arg3)) (sitofp .f32 (constantI S_ 32 0#32)) Cert.KernelIdeal.Gen.pads_S4096x40000_S4096x40960_000_09600 Cert.KernelIdeal.Gen.h_S_) Cert.KernelIdeal.Gen.bitsLt_bf16_f32 : (⟨S4096x40960, .bf16⟩ : BufTy).Contents (Elt Ideal)) := by
  show StableHlo.after hostOps0_4 (V4 m c) (Proc.devRef .tc main_v23) = _
  after_results_simp
  rfl

set_option maxRecDepth 8192 in
/-- The first product's right operand: the neighbour features, 960 zero rows appended, in the narrow format. -/
theorem hB0 (c : Dev nD) : V5 m c main_v24 = (truncf (F := Ideal) .bf16 (pad S40960x128 ![0, 0] ![960, 0] ![0, 0] (val_main_v20 (F := Ideal) (m ((c.tc : Thread nD τ).loc main_arg0)) (m ((c.tc : Thread nD τ).loc main_arg1)) (m ((c.tc : Thread nD τ).loc main_arg7))) (sitofp .f32 (constantI S_ 32 0#32)) Cert.KernelIdeal.Gen.pads_S40000x128_S40960x128_09600_000 Cert.KernelIdeal.Gen.h_S_) Cert.KernelIdeal.Gen.bitsLt_bf16_f32 : (⟨S40960x128, .bf16⟩ : BufTy).Contents (Elt Ideal)) := by
  show StableHlo.after hostOps0_4 (V4 m c) (Proc.devRef .tc main_v24) = _
  after_results_simp
  rfl

/-! ## The first region's output is the reference's first product -/

theorem v6_v25 (c : Dev nD) : V6 m (outs m) c main_v25 = val_main_v21 (F := Ideal) (m ((c.tc : Thread nD τ).loc main_arg0)) (m ((c.tc : Thread nD τ).loc main_arg1)) (m ((c.tc : Thread nD τ).loc main_arg3)) (m ((c.tc : Thread nD τ).loc main_arg7)) := by
  show Function.update (V5 m c) (Proc.devRef .tc main_v25) (outs m 6 main_v25 c) (Proc.devRef .tc main_v25) = _
  rw [Function.update_self, outs_6]
  exact (X0_arr m c 2).trans ((R0.region0_value (E0 m) c _ _ (hA0 m c) (hB0 m c)).trans (by unfold val_main_v21; rfl))

theorem v6_v13 (c : Dev nD) : V6 m (outs m) c main_v13 = val_main_v13 (F := Ideal) (m ((c.tc : Thread nD τ).loc main_arg0)) (m ((c.tc : Thread nD τ).loc main_arg2)) (m ((c.tc : Thread nD τ).loc main_arg7)) :=
  (V6_of m (outs m) c main_v13 (by decide)).trans (v5_v13 m c)

/-! ## The first layer's output and its gathers -/

/-- The first layer's output. -/
theorem v8_v28 (c : Dev nD) : V8 m (outs m) c main_v28 = val_main_v24 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg7)) (m ((c.tc : Thread nD τ).loc main_arg8)) := by
  show StableHlo.after hostOps1_1 (StableHlo.after hostOps1 (V6 m (outs m) c)) (Proc.devRef .tc main_v28) = _
  generalize hW : V6 m (outs m) c = W
  after_results_simp
  subst hW
  rw [v6_v25, v6_v13, v6_arg8]
  rfl

/-- The self features of layer 2. -/
theorem v9_v35 (c : Dev nD) : V9 m (outs m) c main_v35 = val_main_v31 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg7)) (m ((c.tc : Thread nD τ).loc main_arg8)) := by
  show StableHlo.after hostOps1_2 (V8 m (outs m) c) (Proc.devRef .tc main_v35) = _
  generalize hW : V8 m (outs m) c = W
  after_results_simp
  subst hW
  rw [v8_v28, v8_arg5]
  rfl

/-- The neighbour features of layer 2. -/
theorem v9_v42 (c : Dev nD) : V9 m (outs m) c main_v42 = val_main_v38 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg7)) (m ((c.tc : Thread nD τ).loc main_arg8)) := by
  show StableHlo.after hostOps1_2 (V8 m (outs m) c) (Proc.devRef .tc main_v42) = _
  generalize hW : V8 m (outs m) c = W
  after_results_simp
  subst hW
  rw [v8_v28, v8_arg4]
  rfl

/-! ## The second product's operands and the second region's output -/

theorem hA1 (c : Dev nD) : V13 m (outs m) c main_v45 = (truncf (F := Ideal) .bf16 (pad S1024x4096 ![0, 0] ![0, 0] ![0, 0] (m ((c.tc : Thread nD τ).loc main_arg6)) (sitofp .f32 (V9 m (outs m) c main_c_11)) Cert.KernelIdeal.Gen.pads_S1024x4096_S1024x4096_000_000 Cert.KernelIdeal.Gen.h_S_) Cert.KernelIdeal.Gen.bitsLt_bf16_f32 : (⟨S1024x4096, .bf16⟩ : BufTy).Contents (Elt Ideal)) := by
  show StableHlo.after hostOps1_6 (StableHlo.after hostOps1_5 (StableHlo.after hostOps1_4 (StableHlo.after hostOps1_3 (V9 m (outs m) c)))) (Proc.devRef .tc main_v45) = _
  generalize hW : V9 m (outs m) c = W
  after_results_simp
  subst hW
  rw [v9_arg6]
  rfl

theorem hB1 (c : Dev nD) : V13 m (outs m) c main_v46 = (truncf (F := Ideal) .bf16 (pad S4096x128 ![0, 0] ![0, 0] ![0, 0] (val_main_v38 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg7)) (m ((c.tc : Thread nD τ).loc main_arg8))) (sitofp .f32 (constantI S_ 32 0#32)) Cert.KernelIdeal.Gen.pads_S4096x128_S4096x128_000_000 Cert.KernelIdeal.Gen.h_S_) Cert.KernelIdeal.Gen.bitsLt_bf16_f32 : (⟨S4096x128, .bf16⟩ : BufTy).Contents (Elt Ideal)) := by
  show StableHlo.after hostOps1_6 (StableHlo.after hostOps1_5 (StableHlo.after hostOps1_4 (StableHlo.after hostOps1_3 (V9 m (outs m) c)))) (Proc.devRef .tc main_v46) = _
  generalize hW : V9 m (outs m) c = W
  after_results_simp
  subst hW
  rw [v9_v42]
  rfl

theorem v14_v47 (c : Dev nD) : V14 m (outs m) c main_v47 = val_main_v39 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6)) (m ((c.tc : Thread nD τ).loc main_arg7)) (m ((c.tc : Thread nD τ).loc main_arg8)) := by
  show Function.update (V13 m (outs m) c) (Proc.devRef .tc main_v47) (outs m 14 main_v47 c) (Proc.devRef .tc main_v47) = _
  rw [Function.update_self, outs_14]
  exact (X1_arr m c 2).trans ((R1.region1_value (E1 m) c _ _ _ _ (hA1 m c) (hB1 m c)).trans (by unfold val_main_v39; rfl))

theorem v14_v35 (c : Dev nD) : V14 m (outs m) c main_v35 = val_main_v31 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg7)) (m ((c.tc : Thread nD τ).loc main_arg8)) :=
  (V14_of m (outs m) c main_v35 (by decide)).trans <| (V13_of m (outs m) c main_v35 (by decide)).trans <| (V12_of m (outs m) c main_v35 (by decide)).trans <| (V11_of m (outs m) c main_v35 (by decide)).trans <| (V10_of m (outs m) c main_v35 (by decide)).trans <| (v9_v35 m c)

/-! ## The tail: the second layer's update, the classifier and the softmax -/

set_option maxRecDepth 8192 in
/-- @main's result. -/
theorem v17_v62 (c : Dev nD) : V17 m (outs m) c main_v62 = val_main_v54 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  show StableHlo.after hostOps2_2 (StableHlo.after hostOps2_1 (StableHlo.after hostOps2 (V14 m (outs m) c))) (Proc.devRef .tc main_v62) = _
  generalize hW : V14 m (outs m) c = W
  after_results_simp
  subst hW
  rw [v14_v47, v14_v35, v14_arg9, v14_arg10]
  rfl

end Cert.KernelIdeal.Hand

end
-- ==== Proof.KI.Algebraic.lean ====
/-
  The two idealized programs compute the same result.

  From memories agreeing on the arguments, the kernel program ends with its result buffer at the last valuation read
  at that buffer, which the stages identify with the reference's last stage `val_main_v54` of the argument arrays; the
  reference ends with its result at the same stage of ITS argument arrays, which are the same arrays. The one place
  the programs differ, the matrix products, is inside the two region values: a K-blocked sum of zero-padded factors is
  the whole sum, by commutativity and associativity of addition alone, so no finiteness of the inputs is used.
-/
import proofs.«126029_j60490319397131_1_alg».proof.Defs
import proofs.«126029_j60490319397131_1_alg».proof.Proof.KI.Run
import proofs.«126029_j60490319397131_1_alg».proof.Proof.KI.Stages
import proofs.«126029_j60490319397131_1_alg».proof.Proof.Gen.Pre_finite_inputs
import proofs.«126029_j60490319397131_1_alg».proof.Proof.Gen.ReferenceIdeal

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Cert.ReferenceIdeal.Read (val_main_v54 val_main_v54_eq)

theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => val_main_v54 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)), ?_, ?_⟩
  · exact (θ_run Cert.KernelIdeal.defs _ _).mono (fun r h c =>
      ⟨(h c _ (mem_uc main_v62 (by decide))).trans (v17_v62 m c),
        (h c _ (mem_uc main_arg0 (by decide))).trans (V17_main_arg0 m (outs m) c),
        (h c _ (mem_uc main_arg1 (by decide))).trans (V17_main_arg1 m (outs m) c),
        (h c _ (mem_uc main_arg2 (by decide))).trans (V17_main_arg2 m (outs m) c),
        (h c _ (mem_uc main_arg3 (by decide))).trans (V17_main_arg3 m (outs m) c),
        (h c _ (mem_uc main_arg4 (by decide))).trans (V17_main_arg4 m (outs m) c),
        (h c _ (mem_uc main_arg5 (by decide))).trans (V17_main_arg5 m (outs m) c),
        (h c _ (mem_uc main_arg6 (by decide))).trans (V17_main_arg6 m (outs m) c),
        (h c _ (mem_uc main_arg7 (by decide))).trans (V17_main_arg7 m (outs m) c),
        (h c _ (mem_uc main_arg8 (by decide))).trans (V17_main_arg8 m (outs m) c),
        (h c _ (mem_uc main_arg9 (by decide))).trans (V17_main_arg9 m (outs m) c),
        (h c _ (mem_uc main_arg10 (by decide))).trans (V17_main_arg10 m (outs m) c)⟩) (run_all m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8, h9, h10⟩ := hagree c
    rw [val_main_v54_eq, h0, h1, h2, h3, h4, h5, h6, h7, h8, h9, h10]

end Cert.KernelIdeal.Hand

end
-- ==== Proof.lean ====
/-
  The certificate of a two-layer graph network whose neighbour aggregation  dif_mat @ src  is a Pallas matrix product.

  The kernel program pads the contracted axis of both factors with zeros up to a multiple of the column block, casts
  them to the narrow float format, and computes the product block by block over a grid: an f32 accumulator scratch is
  reset at the first column block of each row block, the product of the two current blocks is added at every point,
  and the accumulator is stored into the output block at the last column block. It launches that kernel twice (layer 1
  on a 4 x 8 grid, layer 2 on a one-point grid) between the same host operations the reference applies: gathers of
  node features, concatenation with the self features, the dense update and rectifier, the classifier and the softmax.
  The reference computes each aggregation as one dot_general.

  * The word-level program and its idealization run to the end, fault nowhere and leave the arguments unchanged: each
    kernel region is entered with the windows' arrays split out of the unscoped buffers, the body's obligation is
    discharged in its three control cases (first, inner, last column block) with the accumulator scratch carried in
    the region invariant at the contents the point before left, and the arrays are put back; the host stretches run
    over valuations that no argument's buffer is written in. One text, generic in the float instance, serves both.
  * The reference runs as its generated run says.
  * The idealization is the program's own text read over the extended reals: nothing to preserve.
  * At the extended reals a format change is the identity and every operation exact, so each region leaves the
    reference's dot_general in its output array: the blocks' partial sums add up to the whole sum (addition is
    commutative and associative on the extended reals) and the padded terms are 0 * 0 = 0. Every other operation is
    the same in both programs, so the results agree stage by stage.
-/
import proofs.«126029_j60490319397131_1_alg».proof.Defs
import proofs.«126029_j60490319397131_1_alg».proof.Proof.Gen.Kernel
import proofs.«126029_j60490319397131_1_alg».proof.Proof.Gen.Kernel.Skeleton
import proofs.«126029_j60490319397131_1_alg».proof.Proof.Gen.Kernel.Launch
import proofs.«126029_j60490319397131_1_alg».proof.Proof.Gen.Kernel.Regions
import proofs.«126029_j60490319397131_1_alg».proof.Proof.Gen.Kernel.Points
import proofs.«126029_j60490319397131_1_alg».proof.Proof.Gen.KernelIdeal
import proofs.«126029_j60490319397131_1_alg».proof.Proof.Gen.KernelIdeal.Skeleton
import proofs.«126029_j60490319397131_1_alg».proof.Proof.Gen.KernelIdeal.Launch
import proofs.«126029_j60490319397131_1_alg».proof.Proof.Gen.KernelIdeal.Regions
import proofs.«126029_j60490319397131_1_alg».proof.Proof.Gen.KernelIdeal.Points
import proofs.«126029_j60490319397131_1_alg».proof.Proof.Gen.ReferenceIdeal
import proofs.«126029_j60490319397131_1_alg».proof.Proof.Gen.ReferenceIdeal.Run
import proofs.«126029_j60490319397131_1_alg».proof.Proof.Gen.Pre_finite_inputs
import proofs.«126029_j60490319397131_1_alg».proof.Proof.K.Run
import proofs.«126029_j60490319397131_1_alg».proof.Proof.KI.Run
import proofs.«126029_j60490319397131_1_alg».proof.Proof.KI.Algebraic
import Idealize.ShloMosaic.Adequacy
import Idealize.ShloMosaic.Init

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  fun m ρ _ => Cert.Kernel.Hand.frame (F := Bits) m ρ,
  fun m ρ _ => Cert.KernelIdeal.Hand.frame (F := Ideal) m ρ,
  fun m ρ _ => (θ_run Cert.ReferenceIdeal.defs _ _).mono (fun _ h c => (h c).2) (Cert.ReferenceIdeal.Value.run (F := Ideal) m ρ),
  trivial,
  Cert.KernelIdeal.Hand.algebraic⟩

end Cert.Proof

end
